-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF61B1E6#32 ⊥
  ∧ IdealRules.named_const.Statement Cert.KernelIdeal.κ "neg_big" .f32 0xFF61B1E6#32 ⊥
  ∧ IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤
  ∧ IdealRules.named_const.Statement Cert.KernelIdeal.κ "pos_big" .f32 0x7F61B1E6#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S128x512 : Shape := ⟨2, ![128, 512]⟩
abbrev S128 : Shape := ⟨1, ![128]⟩
abbrev S1024x512 : Shape := ⟨2, ![1024, 512]⟩
abbrev S1024 : Shape := ⟨1, ![1024]⟩
abbrev S512x1024 : Shape := ⟨2, ![512, 1024]⟩
abbrev S128x1024 : Shape := ⟨2, ![128, 1024]⟩
abbrev S128x1 : Shape := ⟨2, ![128, 1]⟩
abbrev S1x1024 : Shape := ⟨2, ![1, 1024]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S8192x512, .f32⟩
  | .local _ .vmem, ⟨3, _⟩ => ⟨S128, .i32⟩
  | .local _ .vmem, ⟨4, _⟩ => ⟨S128, .i32⟩
  | .local _ .vmem, ⟨5, _⟩ => ⟨S8192, .i32⟩
  | .local _ .vmem, ⟨6, _⟩ => ⟨S128, .f32⟩
  | .local _ .vmem, ⟨7, _⟩ => ⟨S128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v21 : BitVec 32 := Scalar.muli arg6 c1024_i32
  v21
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v21 : BitVec 32 := Scalar.muli arg6 c1024_i32
  let v22 : BitVec 32 := v21
  let v23 : Index := Scalar.indexCast v22
  let c0_13 : Index := 0#32
  ![v23.toNat, 0]
def k0_off2 (k0_t1 : Fin k0_t1_loop.trips) : Fin 1 → Nat :=
  let c0_i32 : BitVec 32 := 0#32
  let c1_i32 : BitVec 32 := 1#32
  let arg6 : BitVec 32 := Scf.iv c0_i32 c1_i32 k0_t1
  let c1024_i32 : BitVec 32 := 1024#32
  let v21 : BitVec 32 := Scalar.muli arg6 c1024_i32
  let v22 : BitVec 32 := v21
  let v56 : Index := Scalar.indexCast v22
  ![v56.toNat]
@[reducible] def k0_t2_loop : Scf.Loop 32 :=
  let c0_i32_6 : BitVec 32 := 0#32
  let c8_i32_7 : BitVec 32 := 8#32
  let v12 : BitVec 32 := Scalar.addi c0_i32_6 c8_i32_7
  let c1_i32_8 : BitVec 32 := 1#32
  ⟨c0_i32_6, v12, c1_i32_8⟩
def k0_mult2 (k0_t2 : Fin k0_t2_loop.trips) : BitVec 32 :=
  let c0_i32_6 : BitVec 32 := 0#32
  let c1_i32_8 : BitVec 32 := 1#32
  let arg6 : BitVec 32 := Scf.iv c0_i32_6 c1_i32_8 k0_t2
  let c1024_i32 : BitVec 32 := 1024#32
  let v21 : BitVec 32 := Scalar.muli arg6 c1024_i32
  v21
def k0_off3 (k0_t2 : Fin k0_t2_loop.trips) : Fin 2 → Nat :=
  let c0_i32_6 : BitVec 32 := 0#32
  let c1_i32_8 : BitVec 32 := 1#32
  let arg6 : BitVec 32 := Scf.iv c0_i32_6 c1_i32_8 k0_t2
  let c1024_i32 : BitVec 32 := 1024#32
  let v21 : BitVec 32 := Scalar.muli arg6 c1024_i32
  let v22 : BitVec 32 := v21
  let v23 : Index := Scalar.indexCast v22
  let c0_13 : Index := 0#32
  ![v23.toNat, 0]
def k0_off4 (k0_t2 : Fin k0_t2_loop.trips) : Fin 1 → Nat :=
  let c0_i32_6 : BitVec 32 := 0#32
  let c1_i32_8 : BitVec 32 := 1#32
  let arg6 : BitVec 32 := Scf.iv c0_i32_6 c1_i32_8 k0_t2
  let c1024_i32 : BitVec 32 := 1024#32
  let v21 : BitVec 32 := Scalar.muli arg6 c1024_i32
  let v22 : BitVec 32 := v21
  let v56 : Index := Scalar.indexCast v22
  ![v56.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  reduces_S128x512_S128 : S128x512.Reduces [1] S128
  inb_S128_S128_0 : ∀ a, (![0] : Fin 1 → Nat) a + S128.size a ≤ S128.size a
  h_S128 : 0 < S128.numel
  h_S1024x512 : 0 < S1024x512.numel
  reduces_S1024x512_S1024 : S1024x512.Reduces [1] S1024
  transposes_S1024x512_p1_0_S512x1024 : S1024x512.Transposes [1, 0] S512x1024
  shapeCasts_S128_S128x1 : S128.ShapeCasts S128x1
  shapeCasts_S1024_S1x1024 : S1024.ShapeCasts S1x1024
  broadcasts_S128x1_S128x1024 : S128x1.Broadcasts S128x1024
  broadcasts_S1x1024_S128x1024 : S1x1024.Broadcasts S128x1024
  iota_S128x1024_d0_w32 : S128x1024.Iotas .tc 32 [0]
  iota_S128x1024_d1_w32 : S128x1024.Iotas .tc 32 [1]
  h_S1024 : 0 < S1024.numel
  reduces_S128x1024_S128 : S128x1024.Reduces [1] S128
  reducesTo_S8192_S_d0 : S8192.ReducesTo [0] S_
  h_S_ : 0 < S_.numel
  dot_S128x512_S512x1024_S128x1024_1_0_0_1_n_n_wf : DotDims.WF S128x512 S512x1024 S128x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x512.size a ≤ S8192x512.size a
  k0_off2_inb : ∀ k0_t1 : Fin k0_t1_loop.trips, ∀ a, (k0_off2 k0_t1) a + S1024.size a ≤ S8192.size a
  k0_t2_ok : k0_t2_loop.OK
  k0_mult2_dvd : ∀ k0_t2 : Fin k0_t2_loop.trips, 1024 ∣ (k0_mult2 k0_t2).toNat
  k0_off3_inb : ∀ k0_t2 : Fin k0_t2_loop.trips, ∀ a, (k0_off3 k0_t2) a + S1024x512.size a ≤ S8192x512.size a
  k0_off4_inb : ∀ k0_t2 : Fin k0_t2_loop.trips, ∀ a, (k0_off4 k0_t2) a + S1024.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S8192.size a
  hwx0_2 : ∀ i : grid0.Coords, EltTy.bits .i32 = 32 ∨ (Rect.block (s := S8192) S128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S8192.size a
  hwx0_3 : ∀ i : grid0.Coords, EltTy.bits .i32 = 32 ∨ (Rect.block (s := S8192) S8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S8192.size a
  hwx0_4 : ∀ i : grid0.Coords, EltTy.bits .f32 = 32 ∨ (Rect.block (s := S8192) S128.size (cc0_transform_4 i) (hinb0_4 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S8192x2 : Shape := ⟨2, ![8192, 2]⟩

abbrev nBuf : Space → Nat
  | .hbm => 93
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192x1, .i32⟩
  | .hbm, ⟨36, _⟩ => ⟨S8192x2, .i32⟩
  | .hbm, ⟨37, _⟩ => ⟨S_, .f32⟩
  | .hbm, ⟨38, _⟩ => ⟨S8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .i1⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S8192x1, .i32⟩
  | .hbm, ⟨53, _⟩ => ⟨S1x8192, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S8192x8192, .i1⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192, .f32⟩
  | .hbm, ⟨64, _⟩ => ⟨S8192x8192, .i1⟩
  | .hbm, ⟨65, _⟩ => ⟨S8192x1, .f32⟩
  | .hbm, ⟨66, _⟩ => ⟨S8192x8192, .f32⟩
  | .hbm, ⟨67, _⟩ => ⟨S8192x8192, .i1⟩
  | .hbm, ⟨68, _⟩ => ⟨S8192x8192, .i1⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S8192, .f32⟩
  | .hbm, ⟨79, _⟩ => ⟨S_, .i1⟩
  | .hbm, ⟨80, _⟩ => ⟨S8192, .i1⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_call1_v0 : Ref sig .tc := ⟨.hbm, 49, rfl⟩
abbrev main_call1_v1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_call2_v0 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_call3_v0 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_cst_13 : Ref sig .tc := ⟨.hbm, 74, rfl⟩
abbrev main_call4_v0 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_c_15 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_v57 : Ref sig .tc := ⟨.hbm, 85, rfl⟩
abbrev main_call6_cst : Ref sig .tc := ⟨.hbm, 86, rfl⟩
abbrev main_call6_v0 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_cst_18 : Ref sig .tc := ⟨.hbm, 91, rfl⟩
abbrev main_v60 : Ref sig .tc := ⟨.hbm, 92, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x512_S512x8192_S8192x8192_1_0_0_1_n_n_wf : DotDims.WF S8192x512 S512x8192 S8192x8192 [1] [0] [0] [1] [] []
  scatter_S8192x8192_S8192x2_S8192_n_01_01_1_wf : ScatterDims.WF S8192x8192 S8192x2 S8192 [] [0, 1] [0, 1] 1

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.Tri.Preserves.lean ====
/-
  The idealized kernel differs from the printed one in six constants: the two fills -3e38 and the four fills 3e38,
  finite stand-ins for -inf and +inf, are read as those infinities. Each entry of the ledger states exactly that its
  named constant denotes the table's value.
-/
import proofs.«135888_j52630529245412_1_alg».proof.Defs

noncomputable section

namespace Cert.Proof.Tri

open Idealize.ShloMosaic

theorem neg_big : IdealRules.named_const.Statement Cert.KernelIdeal.κ "neg_big" .f32 0xFF61B1E6#32 ⊥ :=
  IdealRules.named_const.statement Cert.KernelIdeal.κ "neg_big" .f32 0xFF61B1E6#32 ⊥ rfl

theorem pos_big : IdealRules.named_const.Statement Cert.KernelIdeal.κ "pos_big" .f32 0x7F61B1E6#32 ⊤ :=
  IdealRules.named_const.statement Cert.KernelIdeal.κ "pos_big" .f32 0x7F61B1E6#32 ⊤ rfl

theorem preserves : Cert.preserves_Kernel_KernelIdeal :=
  ⟨neg_big, neg_big, pos_big, pos_big, pos_big, pos_big⟩

end Cert.Proof.Tri

end
-- ==== Proof.Tri.Spec.lean ====
/-
  The per-row triplet loss both programs compute, as one function of the embedding matrix X
  (8192 rows of 512 extended reals) and the label words L, written twice:

  * FLAT: each row's hardest positive is the maximum over all 8192 columns of the distance where the
    labels agree and the distance is positive (else -inf); its semi-hard negatives are the columns of another
    label farther than that maximum; the hardest negative is the minimum distance over the semi-hard
    columns if there is one, else over all columns of another label (+inf where none); the loss is
    max(hardestPos - hardestNeg + margin, 0).
  * TILED: the same maxima, minima and disjunction taken tile by tile: the 8192 columns cut into 8 tiles
    of 1024, each tile reduced on its own and the eight results combined in order from the neutral value.

  The distance of rows r and j is the root of max(|x_r|^2 + |x_j|^2 - 2 x_r.x_j, 0), set to 0 on the diagonal
  and wherever that clamped square is not positive.
-/
import Idealize.ShloMosaic.PureOps.Ideal
import Idealize.ShloMosaic.PureOps.Ideal.Laws

noncomputable section

namespace Cert.Triplet

open Idealize.ShloMosaic

/-- The float literals the two programs share, as the extended reals their words denote. -/
abbrev c0 : EReal := Ideal.ofBits .f32 0x00000000#32
abbrev c1 : EReal := Ideal.ofBits .f32 0x3F800000#32
abbrev c2 : EReal := Ideal.ofBits .f32 0x40000000#32
abbrev cMargin : EReal := Ideal.ofBits .f32 0x3E4CCCCD#32

variable (X : Fin 8192 → Fin 512 → EReal) (L : Fin 8192 → BitVec 32)

/-- A row's squared norm. -/
def sqn (r : Fin 8192) : EReal := ∑ k : Fin 512, X r k * X r k
/-- Two rows' inner product. -/
def dotp (r j : Fin 8192) : EReal := ∑ k : Fin 512, X r k * X j k
/-- The clamped squared distance, zero on the diagonal. -/
def d2 (r j : Fin 8192) : EReal := if r = j then c0 else max (sqn X r + sqn X j - c2 * dotp X r j) c0
/-- Where it is positive. -/
def nz (r j : Fin 8192) : BitVec 1 := Ideal.cmp .ogt (d2 X r j) c0
/-- The distance: the root where the square is positive, else zero. -/
def dist (r j : Fin 8192) : EReal :=
  Scalar.select (nz X r j) (Ideal.sqrt (Scalar.select (nz X r j) (d2 X r j) c1)) c0
/-- Equal labels. -/
def same (r j : Fin 8192) : BitVec 1 := IntOp.cmpi .eq (L r) (L j)
/-- Different labels. -/
def notSame (r j : Fin 8192) : BitVec 1 := ~~~ (same L r j)
/-- A positive candidate: the distance where the labels agree and it is positive, else -inf. -/
def posCand (r j : Fin 8192) : EReal := Scalar.select (IntOp.andi (same L r j) (nz X r j)) (dist X r j) ⊥

/-! ## Flat -/

def hpos (r : Fin 8192) : EReal := Finset.univ.fold max ⊥ (posCand X L r)
def semi (r j : Fin 8192) : BitVec 1 := IntOp.andi (notSame L r j) (Ideal.cmp .ogt (dist X r j) (hpos X L r))
def hnSemi (r : Fin 8192) : EReal := Finset.univ.fold min ⊤ (fun j => Scalar.select (semi X L r j) (dist X r j) ⊤)
def hnAll (r : Fin 8192) : EReal := Finset.univ.fold min ⊤ (fun j => Scalar.select (notSame L r j) (dist X r j) ⊤)
def anySemi (r : Fin 8192) : BitVec 1 := Finset.univ.fold (· ||| ·) 0#1 (semi X L r)
def loss (r : Fin 8192) : EReal :=
  max (hpos X L r - Scalar.select (anySemi X L r) (hnSemi X L r) (hnAll X L r) + cMargin) c0

/-! ## Tiled -/

/-- Column c of tile k. -/
def col (k : Fin 8) (c : Fin 1024) : Fin 8192 := ⟨1024 * k.val + c.val, by omega⟩

/-- The value a counted loop of eight trips carries before trip n: the step of trip k applied for k < n, in order. -/
def iter {α : Type} (step : Fin 8 → α → α) (init : α) : ℕ → α
  | 0 => init
  | n + 1 => if h : n < 8 then step ⟨n, h⟩ (iter step init n) else iter step init n

def tilePos (r : Fin 8192) (k : Fin 8) : EReal := Finset.univ.fold max ⊥ (fun c : Fin 1024 => posCand X L r (col k c))
def hposK (r : Fin 8192) : EReal := iter (fun k acc => max acc (tilePos X L r k)) ⊥ 8
def semiK (r j : Fin 8192) : BitVec 1 := IntOp.andi (notSame L r j) (Ideal.cmp .ogt (dist X r j) (hposK X L r))
def tileMinSemi (r : Fin 8192) (k : Fin 8) : EReal :=
  Finset.univ.fold min ⊤ (fun c : Fin 1024 => Scalar.select (semiK X L r (col k c)) (dist X r (col k c)) ⊤)
def tileMinAll (r : Fin 8192) (k : Fin 8) : EReal :=
  Finset.univ.fold min ⊤ (fun c : Fin 1024 => Scalar.select (notSame L r (col k c)) (dist X r (col k c)) ⊤)
/-- Whether the tile has a semi-hard column, as the kernel asks it: the maximum of 1 on such columns and 0 on the
    others, from -inf, is positive. -/
def tileAny (r : Fin 8192) (k : Fin 8) : BitVec 1 :=
  Ideal.cmp .ogt (Finset.univ.fold max ⊥ (fun c : Fin 1024 => Scalar.select (semiK X L r (col k c)) c1 c0)) c0
def phase2K (r : Fin 8192) : EReal × EReal × BitVec 1 :=
  iter (fun k a => (min a.1 (tileMinSemi X L r k), min a.2.1 (tileMinAll X L r k), a.2.2 ||| tileAny X L r k)) (⊤, ⊤, 0#1) 8
def lossK (r : Fin 8192) : EReal :=
  max (hposK X L r - Scalar.select (phase2K X L r).2.2 (phase2K X L r).1 (phase2K X L r).2.1 + cMargin) c0

end Cert.Triplet

end
-- ==== Proof.Tri.Tiling.lean ====
/-
  The tiling law: the eight-tile computation of the per-row triplet loss equals the flat one.

  The columns of the eight tiles partition the 8192 columns, so a commutative associative operation with a
  neutral element, folded tile by tile and then over the tiles in order, is the fold over all columns.  This is
  applied to the maximum (from -inf), the minimum (from +inf) and the disjunction of one-bit words (from 0);
  the tile's "is there a semi-hard column" test, asked as "the maximum of 1 and 0 marks is positive", is the
  disjunction of the marks.
-/
import proofs.«135888_j52630529245412_1_alg».proof.Proof.Tri.Spec
import Mathlib.Data.Finset.Fold
import Mathlib.Data.Finset.Union
import Mathlib.Data.Fintype.Basic

noncomputable section

namespace Cert.Triplet

open Idealize.ShloMosaic

/-! ## Folding tile by tile -/

section Law

variable {α : Type} (op : α → α → α) [Std.Commutative op] [Std.Associative op]

/-- Folding a constant neutral element gives the neutral element. -/
theorem fold_neutral {ι : Type} (e : α) (he : ∀ a, op e a = a) (s : Finset ι) :
    s.fold op e (fun _ => e) = e := by
  classical
  induction s using Finset.induction_on with
  | empty => simp
  | insert a s ha ih => rw [Finset.fold_insert ha, ih, he]

/-- The loop that accumulates g k over the trips k < n is the fold of g over those trips. -/
theorem iter_eq_fold_lt (e : α) (g : Fin 8 → α) (n : ℕ) (hn : n ≤ 8) :
    iter (fun k acc => op acc (g k)) e n
      = (Finset.univ.filter (fun k : Fin 8 => k.val < n)).fold op e g := by
  induction n with
  | zero => simp [iter]
  | succ n ih =>
    have h : n < 8 := hn
    have hs : Finset.univ.filter (fun k : Fin 8 => k.val < n + 1)
        = insert (⟨n, h⟩ : Fin 8) (Finset.univ.filter (fun k : Fin 8 => k.val < n)) := by
      ext k
      simp only [Finset.mem_filter, Finset.mem_univ, true_and, Finset.mem_insert, Fin.ext_iff]
      omega
    rw [iter, dif_pos h, ih (by omega), hs, Finset.fold_insert (by simp)]
    exact Std.Commutative.comm _ _

/-- All eight trips: the fold over all tiles. -/
theorem iter_eq_fold (e : α) (g : Fin 8 → α) :
    iter (fun k acc => op acc (g k)) e 8 = Finset.univ.fold op e g := by
  have hs : Finset.univ.filter (fun k : Fin 8 => k.val < 8) = Finset.univ := by
    ext k
    simp only [Finset.mem_filter, Finset.mem_univ, true_and, iff_true]
    exact k.isLt
  rw [iter_eq_fold_lt op e g 8 le_rfl, hs]

/-- The columns of one tile, as an embedding. -/
def colEmb (k : Fin 8) : Fin 1024 ↪ Fin 8192 :=
  ⟨col k, by
    intro a b h
    simp only [col, Fin.mk.injEq] at h
    exact Fin.ext (by omega)⟩

theorem colEmb_apply (k : Fin 8) (c : Fin 1024) : colEmb k c = col k c := rfl

/-- Different tiles have no column in common. -/
theorem tiles_disjoint :
    Set.PairwiseDisjoint (↑(Finset.univ : Finset (Fin 8)))
      (fun k : Fin 8 => (Finset.univ : Finset (Fin 1024)).map (colEmb k)) := by
  intro k _ k' _ hkk'
  rw [Function.onFun, Finset.disjoint_left]
  intro j hj hj'
  simp only [Finset.mem_map, Finset.mem_univ, true_and, colEmb_apply] at hj hj'
  obtain ⟨c, hc⟩ := hj
  obtain ⟨c', hc'⟩ := hj'
  apply hkk'
  have := congrArg Fin.val (hc.trans hc'.symm)
  simp only [col] at this
  exact Fin.ext (by omega)

/-- Every column lies in some tile. -/
theorem tiles_cover :
    (Finset.univ : Finset (Fin 8)).disjiUnion
      (fun k : Fin 8 => (Finset.univ : Finset (Fin 1024)).map (colEmb k)) tiles_disjoint
      = (Finset.univ : Finset (Fin 8192)) := by
  ext j
  simp only [Finset.mem_disjiUnion, Finset.mem_univ, true_and, Finset.mem_map, colEmb_apply, iff_true]
  refine ⟨⟨j.val / 1024, by omega⟩, ⟨j.val % 1024, by omega⟩, ?_⟩
  simp only [col]
  exact Fin.ext (by simp only; omega)

/-- Folding each tile and then folding the eight results is folding all columns. -/
theorem fold_tiles (e : α) (he : ∀ a, op e a = a) (f : Fin 8192 → α) :
    Finset.univ.fold op e (fun k : Fin 8 => Finset.univ.fold op e (fun c : Fin 1024 => f (col k c)))
      = Finset.univ.fold op e f := by
  have h := Finset.fold_disjiUnion (op := op) (f := f) (b := fun _ : Fin 8 => e) (b₀ := e) tiles_disjoint
  rw [tiles_cover, fold_neutral op e he] at h
  rw [h]
  apply Finset.fold_congr
  intro k _
  rw [Finset.fold_map]
  rfl

/-- The tiling law: the loop over the eight tiles, each tile folded on its own, is the fold over all columns. -/
theorem iter_tiles (e : α) (he : ∀ a, op e a = a) (f : Fin 8192 → α) :
    iter (fun k acc => op acc (Finset.univ.fold op e (fun c : Fin 1024 => f (col k c)))) e 8
      = Finset.univ.fold op e f := by
  rw [iter_eq_fold op e (fun k => Finset.univ.fold op e (fun c : Fin 1024 => f (col k c)))]
  exact fold_tiles op e he f

end Law

/-! ## The three instances -/

section Instances

variable (X : Fin 8192 → Fin 512 → EReal) (L : Fin 8192 → BitVec 32)

/-- The tiled hardest positive is the flat one. -/
theorem hposK_eq_hpos (r : Fin 8192) : hposK X L r = hpos X L r := by
  unfold hposK hpos tilePos
  exact iter_tiles max ⊥ (fun a => bot_sup_eq a) (posCand X L r)

/-- So the semi-hard columns agree. -/
theorem semiK_eq_semi (r j : Fin 8192) : semiK X L r j = semi X L r j := by
  unfold semiK semi
  rw [hposK_eq_hpos]

/-- A loop whose state is a triple and whose step acts on each component by itself is the triple of the loops. -/
theorem iter_triple {α β γ : Type} (s₁ : Fin 8 → α → α) (s₂ : Fin 8 → β → β) (s₃ : Fin 8 → γ → γ)
    (a : α) (b : β) (c : γ) (n : ℕ) :
    iter (fun k (x : α × β × γ) => (s₁ k x.1, s₂ k x.2.1, s₃ k x.2.2)) (a, b, c) n
      = (iter s₁ a n, iter s₂ b n, iter s₃ c n) := by
  induction n with
  | zero => simp [iter]
  | succ n ih =>
    by_cases h : n < 8
    · simp only [iter, dif_pos h, ih]
    · simp only [iter, dif_neg h, ih]

theorem c0_eq : c0 = 0 := Ideal.ofBits_zero_f32

theorem c1_eq : c1 = 1 := by
  simp [c1, Ideal.ofBits, Ideal.ieee]
  rw [← EReal.coe_mul]
  norm_num

/-- "Positive" of a maximum is the disjunction of the two "positive"s. -/
theorem cmp_ogt_max (x y : EReal) :
    Ideal.cmp .ogt (max x y) 0 = Ideal.cmp .ogt x 0 ||| Ideal.cmp .ogt y 0 := by
  simp only [Ideal.cmp, lt_max_iff]
  by_cases hx : (0 : EReal) < x <;> by_cases hy : (0 : EReal) < y <;> simp [hx, hy]

/-- The mark 1 or 0 of a one-bit word is positive exactly when the word is 1. -/
theorem cmp_ogt_mark (b : BitVec 1) : Ideal.cmp .ogt (Scalar.select b (1 : EReal) 0) 0 = b := by
  have hb : b = 0#1 ∨ b = 1#1 := by revert b; decide
  rcases hb with rfl | rfl
  · simp [Scalar.select, Ideal.cmp]
  · simp [Scalar.select, Ideal.cmp]

/-- Asking whether the maximum of the marks (from -inf) is positive is the disjunction of the words. -/
theorem any_mark {ι : Type} (s : Finset ι) (b : ι → BitVec 1) :
    Ideal.cmp .ogt (s.fold max ⊥ (fun c => Scalar.select (b c) c1 c0)) c0 = s.fold (fun x y : BitVec 1 => x ||| y) 0#1 b := by
  classical
  rw [c0_eq, c1_eq]
  induction s using Finset.induction_on with
  | empty => simp [Ideal.cmp]
  | insert a s ha ih =>
    rw [Finset.fold_insert ha, Finset.fold_insert ha, cmp_ogt_max, ih, cmp_ogt_mark]

/-- A tile's test is the disjunction of the flat semi-hard bits over its columns. -/
theorem tileAny_eq (r : Fin 8192) (k : Fin 8) :
    tileAny X L r k = Finset.univ.fold (fun x y : BitVec 1 => x ||| y) 0#1 (fun c : Fin 1024 => semi X L r (col k c)) := by
  unfold tileAny
  rw [any_mark]
  simp only [semiK_eq_semi]

/-- The second loop carries the two flat minima and the flat disjunction. -/
theorem phase2K_eq (r : Fin 8192) :
    phase2K X L r = (hnSemi X L r, hnAll X L r, anySemi X L r) := by
  unfold phase2K
  refine (iter_triple (fun k a => min a (tileMinSemi X L r k)) (fun k a => min a (tileMinAll X L r k))
    (fun k a => a ||| tileAny X L r k) ⊤ ⊤ 0#1 8).trans ?_
  have h₁ : iter (fun k a => min a (tileMinSemi X L r k)) ⊤ 8 = hnSemi X L r := by
    unfold tileMinSemi hnSemi
    simp only [semiK_eq_semi]
    exact iter_tiles min ⊤ (fun a => top_inf_eq a) (fun j => Scalar.select (semi X L r j) (dist X r j) ⊤)
  have h₂ : iter (fun k a => min a (tileMinAll X L r k)) ⊤ 8 = hnAll X L r := by
    unfold tileMinAll hnAll
    exact iter_tiles min ⊤ (fun a => top_inf_eq a) (fun j => Scalar.select (notSame L r j) (dist X r j) ⊤)
  have h₃ : iter (fun k a => a ||| tileAny X L r k) 0#1 8 = anySemi X L r := by
    simp only [tileAny_eq]
    unfold anySemi
    exact iter_tiles (fun x y : BitVec 1 => x ||| y) 0#1 (fun a => BitVec.zero_or) (semi X L r)
  rw [h₁, h₂, h₃]

/-- The tiled loss is the flat loss. -/
theorem lossK_eq_loss (r : Fin 8192) : lossK X L r = loss X L r := by
  unfold lossK loss
  rw [phase2K_eq, hposK_eq_hpos]

end Instances

end Cert.Triplet

end
-- ==== Proof.KI.Data.lean ====
/-
  The proof data of the one pipeline, shared by the launch and by the body's run.

  The kernel is handed the embedding matrix through two windows (a block of 128 rows that moves with the grid
  point, and the whole matrix, fetched once) and the labels likewise through two windows; so each of the two
  argument arrays is held by two input windows at once, half of the full share each. The fifth window is the
  output: 128 losses per grid point, written back at every point.

  After the body at a point each input's staging buffer holds what it held before (its block of the array as the
  region found it); the output's holds what the body stored there, a parameter here.
-/
import proofs.«135888_j52630529245412_1_alg».proof.Proof.Gen.KernelIdeal.Launch
import proofs.«135888_j52630529245412_1_alg».proof.Proof.Gen.KernelIdeal.Skeleton
import proofs.«135888_j52630529245412_1_alg».proof.Proof.Gen.KernelIdeal.Loops
import proofs.«135888_j52630529245412_1_alg».proof.Proof.Gen.KernelIdeal.Points
import Idealize.ShloMosaic.Lib.Pipeline.FrameBody
import Idealize.ShloMosaic.Lib.Pipeline.FrameSuffix
import Idealize.ShloMosaic.Lib.Tactic

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

/-- Core c's TensorCore buffers when the region is entered: as launched (the region is the first line of the program). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share each window holds of its array: the two windows on the embedding matrix a half each, the two on
    the labels a half each, the output outright. -/
def shareOf : Fin 5 → PosShare TreeShare
  | ⟨0, _⟩ => fullShare.left
  | ⟨1, _⟩ => fullShare.right
  | ⟨2, _⟩ => fullShare.left
  | ⟨3, _⟩ => fullShare.right
  | _ => fullShare

/-- The proof data on core c, for a given account out4 of what the body stores into the output block at each point. -/
def mkDat (c : Dev nD) (out4 : Fin cfg0.N → S128.Idx → Elt F .f32) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 t
  Φ _ := Pipeline.ΦA spec0 c
  q := shareOf
  owed _ := 0

theorem mkDat_A (c : Dev nD) (out4 : Fin cfg0.N → S128.Idx → Elt F .f32) (w : Fin cfg0.W) :
    (mkDat m c out4).A w = V m c (Pipeline.arrRef spec0 w) := by dsimp only [mkDat]

theorem mkDat_after0 (c : Dev nD) (out4 : Fin cfg0.N → S128.Idx → Elt F .f32) (t : Fin cfg0.N) : (mkDat m c out4).after 0 t = iblk m c 0 t := by dsimp only [mkDat]
theorem mkDat_after1 (c : Dev nD) (out4 : Fin cfg0.N → S128.Idx → Elt F .f32) (t : Fin cfg0.N) : (mkDat m c out4).after 1 t = iblk m c 1 t := by dsimp only [mkDat]
theorem mkDat_after2 (c : Dev nD) (out4 : Fin cfg0.N → S128.Idx → Elt F .f32) (t : Fin cfg0.N) : (mkDat m c out4).after 2 t = iblk m c 2 t := by dsimp only [mkDat]
theorem mkDat_after3 (c : Dev nD) (out4 : Fin cfg0.N → S128.Idx → Elt F .f32) (t : Fin cfg0.N) : (mkDat m c out4).after 3 t = iblk m c 3 t := by dsimp only [mkDat]
theorem mkDat_after4 (c : Dev nD) (out4 : Fin cfg0.N → S128.Idx → Elt F .f32) (t : Fin cfg0.N) : (mkDat m c out4).after 4 t = out4 t := by dsimp only [mkDat]

end Cert.KernelIdeal.Tri

end
-- ==== Proof.KI.Launch.lean ====
/-
  The launch of the program: one kernel region over 64 grid points followed by four host operations
  (a zero constant, the sum of the 8192 per-row losses, the constant 8192, and their quotient).

  Two windows read the embedding matrix and two read the labels, so each argument array is held by two
  windows at once, half of the full share each; the launch splits each argument's points-to in two at the
  region's entry, keeps the halves framed while the host operations run after the region (they read only
  the kernel's output and the buffers that bypass the region), and reads the final memory off them.
-/
import proofs.«135888_j52630529245412_1_alg».proof.Proof.KI.Data

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

local notation "𝕄" => MT nD τ sig Unit (Elt F) ℕ (UR sig nD τ) ℕ

theorem share0 (c : Dev nD) (out4 : Fin cfg0.N → S128.Idx → Elt F .f32) : (mkDat m c out4).share 0 = fullShare.left := rfl
theorem share1 (c : Dev nD) (out4 : Fin cfg0.N → S128.Idx → Elt F .f32) : (mkDat m c out4).share 1 = fullShare.right := rfl
theorem share2 (c : Dev nD) (out4 : Fin cfg0.N → S128.Idx → Elt F .f32) : (mkDat m c out4).share 2 = fullShare.left := rfl
theorem share3 (c : Dev nD) (out4 : Fin cfg0.N → S128.Idx → Elt F .f32) : (mkDat m c out4).share 3 = fullShare.right := rfl
theorem share4 (c : Dev nD) (out4 : Fin cfg0.N → S128.Idx → Elt F .f32) : (mkDat m c out4).share 4 = fullShare := rfl

/-- The proof data's arrays, window by window: the two halves of each argument array and the output whole. -/
theorem arrays_chain (c : Dev nD) (out4 : Fin cfg0.N → S128.Idx → Elt F .f32)
    (G : (w : Fin cfg0.W) → Buf (Elt F) ((cfg0.win w).arr.view.loc (c.tc : Thread nD τ))) :
    ((mkDat m c out4).arrays G : sProp 𝕄)
      = iprop((((c.tc : Thread nD τ).loc main_arg0) ↦{fullShare.left} G 0)
          ∗ (((c.tc : Thread nD τ).loc main_arg0) ↦{fullShare.right} G 1)
          ∗ (((c.tc : Thread nD τ).loc main_arg1) ↦{fullShare.left} G 2)
          ∗ (((c.tc : Thread nD τ).loc main_arg1) ↦{fullShare.right} G 3)
          ∗ (((c.tc : Thread nD τ).loc main_v0) ↦{fullShare} G 4)) := by
  unfold Dat.arrays
  rw [bigSep_W0, share0, share1, share2, share3, share4,
    (arr_whole0 0).set_eq_univ, (arr_whole0 2).set_eq_univ, (arr_whole0 4).set_eq_univ]

/-- The three distinct buffers behind the windows' arrays. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] (by decide) (by decide) _

/-- At the region's entry each argument array's points-to splits into the halves its two windows hold. -/
theorem hsplit (c : Dev nD) (out4 : Fin cfg0.N → S128.Idx → Elt F .f32) :
    (Pipeline.arrBufs spec0 c (V m c) : sProp 𝕄) ⊢ (mkDat m c out4).arrays ((mkDat m c out4).arrAt · 0) := by
  rw [arrays_chain, arrBufs_chain]
  iintro ⟨H0, H1, H4⟩
  icases (pointsTo_share (PosShare.mem_left_op_right fullShare)).1 $$ H0 with ⟨H0l, H0r⟩
  icases (pointsTo_share (PosShare.mem_left_op_right fullShare)).1 $$ H1 with ⟨H1l, H1r⟩
  isplitl [H0l]; · iexact H0l
  isplitl [H0r]; · iexact H0r
  isplitl [H1l]; · iexact H1l
  isplitl [H1r]; · iexact H1r
  iexact H4

/-- What the four host operations compute from the kernel's output: the sum of the 8192 losses over 8192. -/
def tailOf (o : (⟨S8192, .f32⟩ : BufTy).Contents (Elt F)) : (⟨S_, .f32⟩ : BufTy).Contents (Elt F) :=
  Host.divf (Host.reduceAdd o (constant S_ .f32 0x00000000#32) Gen.reducesTo_S8192_S_d0 Gen.h_S_) (constant S_ .f32 0x46000000#32)

/-- The buffers the host operations touch: the kernel's output and the four buffers that bypass the region. -/
def tailList : List (Ref sig .tc) := [main_v0, main_cst, main_v1, main_cst_0, main_v2]

def tailSet : Finset (DevRef τ sig) := tailList.toFinset.map ⟨Proc.devRef (sig := sig) .tc, Proc.devRef_injective _⟩

theorem mem_tailSet (r : Ref sig .tc) (h : r ∈ tailList) : Proc.devRef (τ := τ) .tc r ∈ tailSet :=
  Finset.mem_map_of_mem _ (List.mem_toFinset.mpr h)

/-- The device's buffer contents at the region's exit as far as the host operations read them: the output array at
    o, every other buffer as launched. -/
def exitVal (c : Dev nD) (o : Buf (Elt F) ((c.tc : Thread nD τ).loc main_v0)) : Valuation τ sig (Elt F) :=
  Function.update (fun b => m (c, b)) (Proc.devRef .tc main_v0) o

theorem held_tailSet (c : Dev nD) (W : Valuation τ sig (Elt F)) :
    (StableHlo.held (c.tc : Thread nD τ) tailSet W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held tailSet
  rw [bigSep_map]
  exact bigSep_eq_bigSepL tailList (by decide) _

theorem hostOps1_tailSet : ∀ op ∈ (hostOps1 : List (HloOp τ sig (Elt F))), op.bufs ⊆ tailSet :=
  List.forall_iff_forall_mem.mp (show (hostOps1 : List (HloOp τ sig (Elt F))).Forall fun op => op.bufs ⊆ tailSet from
    ⟨Finset.singleton_subset_iff.mpr (mem_tailSet _ (by decide)),
     Finset.insert_subset (mem_tailSet _ (by decide)) (Finset.insert_subset (mem_tailSet _ (by decide)) (Finset.singleton_subset_iff.mpr (mem_tailSet _ (by decide)))),
     Finset.singleton_subset_iff.mpr (mem_tailSet _ (by decide)),
     Finset.insert_subset (mem_tailSet _ (by decide)) (Finset.insert_subset (mem_tailSet _ (by decide)) (Finset.singleton_subset_iff.mpr (mem_tailSet _ (by decide))))⟩)

theorem hostOps1_fresh : ∀ op ∈ (hostOps1 : List (HloOp τ sig (Elt F))), op.fresh = ∅ :=
  List.forall_iff_forall_mem.mp (show (hostOps1 : List (HloOp τ sig (Elt F))).Forall fun op => op.fresh = ∅ from ⟨rfl, rfl, rfl, rfl⟩)

section After
variable (c : Dev nD) (o : Buf (Elt F) ((c.tc : Thread nD τ).loc main_v0))

theorem exitVal_v0 : exitVal m c o (Proc.devRef .tc main_v0) = o := by
  unfold exitVal; rw [Function.update_self]

theorem after_v0 : StableHlo.after (hostOps1 : List (HloOp τ sig (Elt F))) (exitVal m c o) (Proc.devRef .tc main_v0) = o := by
  after_results
  exact exitVal_v0 m c o

theorem after_cst : StableHlo.after (hostOps1 : List (HloOp τ sig (Elt F))) (exitVal m c o) (Proc.devRef .tc main_cst)
    = constant S_ .f32 0x00000000#32 := by
  after_results

theorem after_v1 : StableHlo.after (hostOps1 : List (HloOp τ sig (Elt F))) (exitVal m c o) (Proc.devRef .tc main_v1)
    = Host.reduceAdd o (constant S_ .f32 0x00000000#32) Gen.reducesTo_S8192_S_d0 Gen.h_S_ := by
  after_results
  rw [exitVal_v0]

theorem after_cst_0 : StableHlo.after (hostOps1 : List (HloOp τ sig (Elt F))) (exitVal m c o) (Proc.devRef .tc main_cst_0)
    = constant S_ .f32 0x46000000#32 := by
  after_results

theorem after_v2 : StableHlo.after (hostOps1 : List (HloOp τ sig (Elt F))) (exitVal m c o) (Proc.devRef .tc main_v2) = tailOf o := by
  after_results
  rw [exitVal_v0]
  rfl

end After

/-- The four buffers that bypass the region after the host operations have run from the output o. -/
def tailRest (c : Dev nD) (o : Buf (Elt F) ((c.tc : Thread nD τ).loc main_v0)) : sProp 𝕄 :=
  iprop((((c.tc : Thread nD τ).loc main_cst) ↦{fullShare} (constant S_ .f32 0x00000000#32 : (⟨S_, .f32⟩ : BufTy).Contents (Elt F)))
      ∗ (((c.tc : Thread nD τ).loc main_v1) ↦{fullShare} (Host.reduceAdd o (constant S_ .f32 0x00000000#32) Gen.reducesTo_S8192_S_d0 Gen.h_S_ : (⟨S_, .f32⟩ : BufTy).Contents (Elt F)))
      ∗ (((c.tc : Thread nD τ).loc main_cst_0) ↦{fullShare} (constant S_ .f32 0x46000000#32 : (⟨S_, .f32⟩ : BufTy).Contents (Elt F)))
      ∗ (((c.tc : Thread nD τ).loc main_v2) ↦{fullShare} tailOf o))

theorem exitVal_ne (c : Dev nD) (o : Buf (Elt F) ((c.tc : Thread nD τ).loc main_v0)) (r : Ref sig .tc) (h : r ≠ main_v0) :
    exitVal m c o (Proc.devRef .tc r) = m ((c.tc : Thread nD τ).loc r) := by
  unfold exitVal; rw [Function.update_of_ne (StableHlo.devRef_ne_of_ne h)]

theorem held_exit (c : Dev nD) (o : Buf (Elt F) ((c.tc : Thread nD τ).loc main_v0)) :
    (StableHlo.held (c.tc : Thread nD τ) tailSet (exitVal m c o) : sProp 𝕄)
      = iprop((((c.tc : Thread nD τ).loc main_v0) ↦{fullShare} o) ∗ Pipeline.unscopedRest spec0 c (V m c)) := by
  rw [held_tailSet, exitVal_v0, exitVal_ne m c o main_cst (by decide), exitVal_ne m c o main_v1 (by decide),
    exitVal_ne m c o main_cst_0 (by decide), exitVal_ne m c o main_v2 (by decide), unscopedRest0_eq]

theorem held_after (c : Dev nD) (o : Buf (Elt F) ((c.tc : Thread nD τ).loc main_v0)) :
    (StableHlo.held (c.tc : Thread nD τ) tailSet (StableHlo.after hostOps1 (exitVal m c o)) : sProp 𝕄)
      = iprop((((c.tc : Thread nD τ).loc main_v0) ↦{fullShare} o) ∗ tailRest c o) := by
  rw [held_tailSet, after_v0, after_cst, after_v1, after_cst_0, after_v2]; rfl

set_option backward.isDefEq.respectTransparency.types false in
/-- The host operations after the region, run from the kernel's output whole and the four bypassing buffers as
    launched: they leave the output as it was and the four at the constants, the sum and the quotient. -/
theorem tail_run (c : Dev nD) (o : Buf (Elt F) ((c.tc : Thread nD τ).loc main_v0)) (Q' : PUnit → sProp 𝕄) :
    iprop((boundary (c.tc : Thread nD τ) : sProp 𝕄)
        ∗ (((c.tc : Thread nD τ).loc main_v0) ↦{fullShare} o)
        ∗ Pipeline.unscopedRest spec0 c (V m c)
        ∗ (iprop((((c.tc : Thread nD τ).loc main_v0) ↦{fullShare} o) ∗ tailRest c o) -∗ Q' ⟨⟩))
      ⊢ wp frame (wpE (Pipeline.defs (pcfgs (F := F)) defs₀) (Variants.lift Variants.none) (c.tc : Thread nD τ) none) Set.univ
          (Pipeline.chain [StableHlo.seq hostOps1]) Q' := by
  have h := StableHlo.wp_seq (defs := Pipeline.defs (pcfgs (F := F)) defs₀) (Ix := Unit) (Name := ℕ) (U := UR sig nD τ) (Lvl := ℕ)
    (Variants.lift Variants.none) none Set.univ c tailSet (fun _ => pure ⟨⟩) (K := Q')
    hostOps1 hostOps1_tailSet hostOps1_fresh (exitVal m c o)
  rw [held_exit, held_after, wp_pure] at h
  rw [Pipeline.chain_cons, Pipeline.chain_nil]
  iintro ⟨Hb, H0, HR, Hk⟩
  iapply h $$ [Hb H0 HR]
  · isplitl [Hb]; · iexact Hb
    isplitl [H0]; · iexact H0
    iexact HR
  iintro ⟨Hb, H⟩
  imodintro
  iapply Hk
  iexact H

theorem arrAt_in0 (c : Dev nD) (out4 : Fin cfg0.N → S128.Idx → Elt F .f32) (t : ℕ) :
    (mkDat m c out4).arrAt 0 t = m ((c.tc : Thread nD τ).loc main_arg0) :=
  (Pipeline.Dat.arrAt_in (mkDat m c out4) 0 rfl t).trans (mkDat_A m c out4 0)

theorem arrAt_in2 (c : Dev nD) (out4 : Fin cfg0.N → S128.Idx → Elt F .f32) (t : ℕ) :
    (mkDat m c out4).arrAt 2 t = m ((c.tc : Thread nD τ).loc main_arg1) :=
  (Pipeline.Dat.arrAt_in (mkDat m c out4) 2 rfl t).trans (mkDat_A m c out4 2)

/-- From the region's exit — the windows' arrays at their final contents, the argument arrays in halves, and the
    bypassing buffers as launched — the host operations run within the output and the bypassing buffers, the halves
    framed, and hand the arrays back with the bypassing buffers at the results. -/
theorem htail (c : Dev nD) (out4 : Fin cfg0.N → S128.Idx → Elt F .f32) (Q' : PUnit → sProp 𝕄) :
    iprop((iprop((mkDat m c out4).arrays ((mkDat m c out4).arrAt · cfg0.N) ∗ tailRest c ((mkDat m c out4).arrAt 4 cfg0.N)) -∗ Q' ⟨⟩)
        ∗ boundary (c.tc : Thread nD τ) ∗ (mkDat m c out4).arrays ((mkDat m c out4).arrAt · cfg0.N)
        ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_chain]
  iintro ⟨Hk, Hb, ⟨A0, A1, A2, A3, A4⟩, HZ⟩
  iapply (tail_run m c _ Q') $$ [Hb A4 HZ Hk A0 A1 A2 A3]
  isplitl [Hb]; · iexact Hb
  isplitl [A4]; · iexact A4
  isplitl [HZ]; · iexact HZ
  iintro ⟨A4, HR⟩
  iapply Hk
  isplitr [HR]
  · isplitl [A0]; · iexact A0
    isplitl [A1]; · iexact A1
    isplitl [A2]; · iexact A2
    isplitl [A3]; · iexact A3
    iexact A4
  iexact HR

/-- The result buffer's points-to read against the final state. -/
theorem hY (c : Dev nD) (o : Buf (Elt F) ((c.tc : Thread nD τ).loc main_v0)) (s' : Phys nD τ sig (Elt F)) :
    iprop((∃ r, prngReg c r) ∗ tailRest c o ∗ (SI s' : sProp 𝕄))
      ⊢ |={Set.univ}=> iprop(⌜s'.mem.mem ((c.tc : Thread nD τ).loc main_v2) = tailOf o⌝ ∗ SI s') := by
  unfold tailRest
  iintro ⟨-, ⟨-, -, -, H2⟩, HSI⟩
  imodintro
  ihave H := (pointsTo_read_all ({()} : Finset Unit) (fun _ => (c.tc : Thread nD τ).loc main_v2) (fun _ => tailOf o) s') $$ [H2 HSI]
  · rw [bigSep_singleton]; isplitl [H2] <;> iassumption
  icases H with ⟨%h, HSI⟩
  isplitr
  · ipureintro; exact h () (Finset.mem_singleton_self _)
  iexact HSI

/-- The program runs; the result buffer ends at the mean of the kernel's output, the arguments unchanged. -/
theorem run_main (ρ : Dev nD → PrngReg) (out4 : (c : Dev nD) → Fin cfg0.N → S128.Idx → Elt F .f32)
    (hbody : ∀ c, Pipeline.BodyObligationLoose (mkDat m c (out4 c)) (defs₀ (F := F)) Variants.none () Set.univ) :
    θ_run (defs (F := F)) (onTc (τ := τ) (main (F := F))) ⟨m, fun _ => 0, ρ⟩ (fun r => ∀ c : Dev nD,
        r.2.mem ((c.tc : Thread nD τ).loc main_v2) = tailOf ((mkDat m c (out4 c)).arrAt 4 cfg0.N)
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  classical
  have hmain := Pipeline.hmainP_around (Ix := Unit) (Name := ℕ) (U := UR sig nD τ) (Lvl := ℕ) (pcfgs (F := F)) 0 defs₀ Variants.none m main
    [] [hostOps1] trivial trivial (fun c => by rw [main_chain]; rfl)
  unfold defs
  exact Pipeline.θ_run_region_pf_tail (pcfgs (F := F)) (fun p => (cfgs p).toPCfg_adm) (fun _ c => mkDat m c (out4 c)) () cellOf_inj 0
    winFacts₀0 (Pipeline.OwnSemFacts.none spec0) (Pipeline.PreFacts.none spec0) emb₁ defs₀ Variants.none m ρ main
    (fun _ => Pipeline.chain [StableHlo.seq hostOps1]) hbody block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain)
    (hsplit := fun c => hsplit m c (out4 c))
    (hpf := fun _ k => k.elim0)
    (X := fun c => iprop(∃ r, prngReg c r)) (Y := fun c => iprop(∃ r, prngReg c r))
    (Z := fun c => Pipeline.unscopedRest spec0 c (V m c))
    (Z' := fun c => tailRest c ((mkDat m c (out4 c)).arrAt 4 cfg0.N))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      rw [Pipeline.ownSems0_none]
      show Pipeline.ΦA spec0 c ⊢ _
      unfold Pipeline.ΦA
      iintro ⟨Hr, Hp⟩
      isplitl [Hp]; · iexact Hp
      isplitr; · iempintro
      iexact Hr)
    (htail := fun c Q' => htail m c (out4 c) Q')
    (QY := fun c s => s.mem ((c.tc : Thread nD τ).loc main_v2) = tailOf ((mkDat m c (out4 c)).arrAt 4 cfg0.N))
    (hY := fun c s' => hY c _ s')
    (hQ := fun s h c => ⟨(h c).2.2, ((h c).1 0).trans (arrAt_in0 m c (out4 c) _), ((h c).1 2).trans (arrAt_in2 m c (out4 c) _)⟩)

end Cert.KernelIdeal.Tri

end
-- ==== Proof.KI.Body.lean ====
/-
  The kernel body at one grid point.

  At a point the body reads its block of 128 rows and its block of 128 labels, runs twice over the whole embedding
  matrix and all the labels in eight tiles of 1024 rows (the first pass carries, per row of the block, the hardest
  positive: the greatest distance to a row of the same label; the second carries the least distance among the
  semi-hard rows, those of another label farther than the hardest positive, the least distance among all rows of
  another label, and whether a semi-hard row exists), and stores one vector of 128 losses over its whole output
  block. Nothing else is written: each input's staging buffer holds after the body what it held before.

  The stored vector is named here as a function of what the four input buffers hold, and the library's body
  obligation is proved for the proof data that has this vector as the output's contents after each point.
-/
import proofs.«135888_j52630529245412_1_alg».proof.Proof.KI.Data
import Idealize.ShloMosaic.Lib.Pipeline.Value

set_option maxRecDepth 16384

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## Small facts -/

/-- Each of the two passes over the matrix runs from 0 to 0 + 8 by steps of 1: eight trips. -/
theorem eight_trips : Scf.trips (0#32 : BitVec 32) (Scalar.addi 0#32 8#32) 1#32 = 8 := by decide

/-- The zero offsets of a rank-1 and of a rank-2 block, as the constant function. -/
theorem zero_off1 : (![0] : Fin S128.rank → Nat) = fun _ => 0 := funext fun a => by fin_cases a; rfl
theorem zero_off2 : (![0, 0] : Fin S128x512.rank → Nat) = fun _ => 0 := funext fun a => by fin_cases a <;> rfl

/-! ## The staging memrefs at a point -/

/-- The five windows' current staging memrefs at point t, as the pipeline hands them to the body, each a whole buffer. -/
abbrev stg0 (t : Fin cfg0.N) : Memref sig .tc .vmem S128x512 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S8192x512 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S128 .i32 := win0_2.stage (cfg0.slots t 2)
abbrev wh2 (t : Fin cfg0.N) : (stg2 t).IsWhole := hstage0_2 ((cfg0.slots t 2).cast nbuf0_2)
abbrev stg3 (t : Fin cfg0.N) : Memref sig .tc .vmem S8192 .i32 := win0_3.stage (cfg0.slots t 3)
abbrev wh3 (t : Fin cfg0.N) : (stg3 t).IsWhole := hstage0_3 ((cfg0.slots t 3).cast nbuf0_3)
abbrev stg4 (t : Fin cfg0.N) : Memref sig .tc .vmem S128 .f32 := win0_4.stage (cfg0.slots t 4)
abbrev wh4 (t : Fin cfg0.N) : (stg4 t).IsWhole := hstage0_4 ((cfg0.slots t 4).cast nbuf0_4)

/-! ## What an input's staging buffer holds when the body is entered -/

/-- An input window's staging buffer holds the window's block at every point, fetched there or not: the body
    leaves the block in place, and a window that is not fetched at a point has the block index it had at the point
    before (the two whole-array windows are fetched at the first point only and keep one index throughout), so what
    the buffer kept is this point's block. No input window is cut, none is ever idle. -/
theorem before0 (c : Dev nD) (out4 : Fin cfg0.N → S128.Idx → Elt F .f32) (t : Fin cfg0.N) (d) :
    (mkDat m c out4).before 0 t d = iblk m c 0 t := by
  rw [(mkDat m c out4).before_in_eq_fetched 0 rfl (fun _ => rfl) (fun _ _ _ => rfl) ?keeps t d]
  · unfold Dat.fetched Dat.blockOf iblk; rw [mkDat_A]; rfl
  case keeps => intro t'; rw [mkDat_after0]; unfold Dat.blockOf iblk; rw [mkDat_A]

theorem before1 (c : Dev nD) (out4 : Fin cfg0.N → S128.Idx → Elt F .f32) (t : Fin cfg0.N) (d) :
    (mkDat m c out4).before 1 t d = iblk m c 1 t := by
  rw [(mkDat m c out4).before_in_eq_fetched 1 rfl (fun _ => rfl) (fun _ _ _ => rfl) ?keeps t d]
  · unfold Dat.fetched Dat.blockOf iblk; rw [mkDat_A]; rfl
  case keeps => intro t'; rw [mkDat_after1]; unfold Dat.blockOf iblk; rw [mkDat_A]

theorem before2 (c : Dev nD) (out4 : Fin cfg0.N → S128.Idx → Elt F .f32) (t : Fin cfg0.N) (d) :
    (mkDat m c out4).before 2 t d = iblk m c 2 t := by
  rw [(mkDat m c out4).before_in_eq_fetched 2 rfl (fun _ => rfl) (fun _ _ _ => rfl) ?keeps t d]
  · unfold Dat.fetched Dat.blockOf iblk; rw [mkDat_A]; rfl
  case keeps => intro t'; rw [mkDat_after2]; unfold Dat.blockOf iblk; rw [mkDat_A]

theorem before3 (c : Dev nD) (out4 : Fin cfg0.N → S128.Idx → Elt F .f32) (t : Fin cfg0.N) (d) :
    (mkDat m c out4).before 3 t d = iblk m c 3 t := by
  rw [(mkDat m c out4).before_in_eq_fetched 3 rfl (fun _ => rfl) (fun _ _ _ => rfl) ?keeps t d]
  · unfold Dat.fetched Dat.blockOf iblk; rw [mkDat_A]; rfl
  case keeps => intro t'; rw [mkDat_after3]; unfold Dat.blockOf iblk; rw [mkDat_A]

/-! ## The vector the body stores

Over any five whole staging memrefs and any contents x0 (the row block), x1 (the whole matrix), x2 (the label
block), x3 (all labels) of the four inputs'. The two passes only load, so each is the generated recursion on its
trips' yields, taken at the eight trips. -/

/-- The first pass's carried vector after its eight trips: per row of the block, the greatest distance to a row of
    its own label, from the least value. -/
def pass1 (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) : FVec F S128 .f32 :=
  st_k0_t1 Variants.none c none i arg1 harg1 arg2 harg2 arg3 harg3 arg4 harg4 arg5 harg5
    (Scalar.muli (BitVec.ofNat 32 (i 0).val) 128#32) x0 x2 (harg2.unread x1) (harg4.unread x3) (k0_pay3 (F := F)) 8

/-- The second pass's three carried vectors after its eight trips, which read the first pass's result. -/
def pass2 (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) : FVec F S128 .f32 × FVec F S128 .f32 × IVec S128 1 :=
  st_k0_t2 Variants.none c none i arg1 harg1 arg2 harg2 arg3 harg3 arg4 harg4 arg5 harg5
    (Scalar.muli (BitVec.ofNat 32 (i 0).val) 128#32) x0 x2 (pass1 c i arg1 harg1 arg2 harg2 arg3 harg3 arg4 harg4 arg5 harg5 x0 x1 x2 x3)
    (harg2.unread x1) (harg4.unread x3) (k0_pay4 (F := F), k0_pay5 (F := F), k0_pay6) 8

/-- The stored vector: the loss of each row of the block, from the two passes' results. -/
def stored (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) : FVec F S128 .f32 :=
  k0_pay10 (pass1 c i arg1 harg1 arg2 harg2 arg3 harg3 arg4 harg4 arg5 harg5 x0 x1 x2 x3)
    (pass2 c i arg1 harg1 arg2 harg2 arg3 harg3 arg4 harg4 arg5 harg5 x0 x1 x2 x3).1
    (pass2 c i arg1 harg1 arg2 harg2 arg3 harg3 arg4 harg4 arg5 harg5 x0 x1 x2 x3).2.1
    (pass2 c i arg1 harg1 arg2 harg2 arg3 harg3 arg4 harg4 arg5 harg5 x0 x1 x2 x3).2.2

/-! ## The body's run -/

set_option maxHeartbeats 1000000 in
/-- On whole staging memrefs, the four inputs' at contents x0 … x3 and the output's at anything, the body runs to
    any continuation that takes the inputs' back as they were and the output's at the stored vector: its two loads
    of the blocks, the two passes by their generated invariants, a load of the output that nothing reads, and the
    one store, which covers the whole output block. -/
theorem body_run (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) :
    ∀ (E : Set ℕ) (K : PUnit → sProp 𝕄),
      iprop(owns (c : Thread nD τ) arg1 fullShare x0 ∗ owns (c : Thread nD τ) arg2 fullShare x1
          ∗ owns (c : Thread nD τ) arg3 fullShare x2 ∗ owns (c : Thread nD τ) arg4 fullShare x3
          ∗ (∃ d, owns (c : Thread nD τ) arg5 fullShare d)
          ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare (stored c i arg1 harg1 arg2 harg2 arg3 harg3 arg4 harg4 arg5 harg5 x0 x1 x2 x3)) -∗ K ⟨⟩))
        ⊢ wp frame (wpE (defs₀ (F := F)) Variants.none c none) E (cc0__triplet_kernel i arg1 harg1 arg2 harg2 arg3 harg3 arg4 harg4 arg5 harg5) K := by
  intro E K
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  -- the one store covers the block, so the buffer reads as its payload; the payload's two loaded blocks are x0 and x2
  rw [View.read_writes_eq_canon _ _ _ (fun y => ⟨_, List.mem_singleton_self _, View.mem_set_unit_zero zero_off1 inb_S128_S128_0 y⟩),
    View.canon_unit_zero zero_off1]
  sl_unfold_run_names
  simp only [View.readAt_eq_ld, harg1.read_unread, harg3.read_unread, View.ld_unit_zero (S := S128x512) zero_off2,
    View.ld_unit_zero (S := S128) zero_off1, eight_trips]
  rfl

/-! ## What the body leaves in the output block at a point -/

/-- The 128 losses the body stores at point t: the stored vector at the point's staging memrefs, the inputs'
    buffers holding their windows' blocks. -/
def out4 (c : Dev nD) (t : Fin cfg0.N) : S128.Idx → Elt F .f32 :=
  stored c (grid0.coords t) (stg0 t) (wh0 t) (stg1 t) (wh1 t) (stg2 t) (wh2 t) (stg3 t) (wh3 t) (stg4 t) (wh4 t)
    (iblk m c 0 t) (iblk m c 1 t) (iblk m c 2 t) (iblk m c 3 t)

/-- The same with every argument spelled: the last value's definition at the two generated recursions, each at
    its eight trips; the row offset 128 times the point's coordinate, the row block and the label block the
    windows' blocks, the whole matrix and all labels the raw contents of their staging buffers, which read as
    the whole-array windows' blocks. -/
theorem out4_eq (c : Dev nD) (t : Fin cfg0.N) :
    out4 m c t = k0_pay10
      (st_k0_t1 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        ((wh1 t).unread (iblk m c 1 t)) ((wh3 t).unread (iblk m c 3 t)) (k0_pay3 (F := F)) 8)
      (st_k0_t2 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        (st_k0_t1 Variants.none c none (grid0.coords t) (stg0 t) (wh0 t) (stg1 t) (wh1 t) (stg2 t) (wh2 t) (stg3 t) (wh3 t) (stg4 t) (wh4 t)
          (Scalar.muli (BitVec.ofNat 32 ((grid0.coords t) 0).val) 128#32) (iblk m c 0 t) (iblk m c 2 t)
          ((wh1 t).unread (iblk m c 1 t)) ((wh3 t).unread (iblk m c 3 t)) (k0_pay3 (F := F)) 8)
        ((wh1 t).unread (iblk m c 1 t)) ((wh3 t).unread (iblk m c 3 t)) (k0_pay4 (F := F), k0_pay5 (F := F), k0_pay6) 8).1
      (st_k0_t2 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        (st_k0_t1 Variants.none c none (grid0.coords t) (stg0 t) (wh0 t) (stg1 t) (wh1 t) (stg2 t) (wh2 t) (stg3 t) (wh3 t) (stg4 t) (wh4 t)
          (Scalar.muli (BitVec.ofNat 32 ((grid0.coords t) 0).val) 128#32) (iblk m c 0 t) (iblk m c 2 t)
          ((wh1 t).unread (iblk m c 1 t)) ((wh3 t).unread (iblk m c 3 t)) (k0_pay3 (F := F)) 8)
        ((wh1 t).unread (iblk m c 1 t)) ((wh3 t).unread (iblk m c 3 t)) (k0_pay4 (F := F), k0_pay5 (F := F), k0_pay6) 8).2.1
      (st_k0_t2 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        (st_k0_t1 Variants.none c none (grid0.coords t) (stg0 t) (wh0 t) (stg1 t) (wh1 t) (stg2 t) (wh2 t) (stg3 t) (wh3 t) (stg4 t) (wh4 t)
          (Scalar.muli (BitVec.ofNat 32 ((grid0.coords t) 0).val) 128#32) (iblk m c 0 t) (iblk m c 2 t)
          ((wh1 t).unread (iblk m c 1 t)) ((wh3 t).unread (iblk m c 3 t)) (k0_pay3 (F := F)) 8)
        ((wh1 t).unread (iblk m c 1 t)) ((wh3 t).unread (iblk m c 3 t)) (k0_pay4 (F := F), k0_pay5 (F := F), k0_pay6) 8).2.2 := by
  unfold out4 stored pass2 pass1; rfl

/-! ## The body obligation -/

/-- The body at point t, from what the pipeline hands it — the invariant, what the core owes, and each window's
    current staging buffer at what it then holds (the inputs' at their blocks, the output's at anything) — to what
    it hands back: the same, the inputs' buffers as they were and the output's at the point's 128 losses. The
    invariant and the core's debts pass through untouched. -/
theorem body_at (c : Dev nD) (t : Fin cfg0.N) :
    iprop((mkDat m c (out4 m c)).Φ t.castSucc ∗ (mkDat m c (out4 m c)).owesAt () t.castSucc
        ∗ (∃ d, owns (c : Thread nD τ) (stg0 t) fullShare ((mkDat m c (out4 m c)).before 0 t d))
        ∗ (∃ d, owns (c : Thread nD τ) (stg1 t) fullShare ((mkDat m c (out4 m c)).before 1 t d))
        ∗ (∃ d, owns (c : Thread nD τ) (stg2 t) fullShare ((mkDat m c (out4 m c)).before 2 t d))
        ∗ (∃ d, owns (c : Thread nD τ) (stg3 t) fullShare ((mkDat m c (out4 m c)).before 3 t d))
        ∗ (∃ d, owns (c : Thread nD τ) (stg4 t) fullShare ((mkDat m c (out4 m c)).before 4 t d)))
      ⊢ wp frame (wpE (defs₀ (F := F)) Variants.none c none) Set.univ (bodyAt0 t) (fun _ =>
        iprop((mkDat m c (out4 m c)).Φ t.succ ∗ (mkDat m c (out4 m c)).owesAt () t.succ
          ∗ owns (c : Thread nD τ) (stg0 t) fullShare ((mkDat m c (out4 m c)).after 0 t)
          ∗ owns (c : Thread nD τ) (stg1 t) fullShare ((mkDat m c (out4 m c)).after 1 t)
          ∗ owns (c : Thread nD τ) (stg2 t) fullShare ((mkDat m c (out4 m c)).after 2 t)
          ∗ owns (c : Thread nD τ) (stg3 t) fullShare ((mkDat m c (out4 m c)).after 3 t)
          ∗ owns (c : Thread nD τ) (stg4 t) fullShare ((mkDat m c (out4 m c)).after 4 t))) := by
  unfold bodyAt0
  simp only [before0, before1, before2, before3]
  rw [show (mkDat m c (out4 m c)).Φ t.succ = (mkDat m c (out4 m c)).Φ t.castSucc from rfl,
    show (mkDat m c (out4 m c)).owesAt () t.succ = (mkDat m c (out4 m c)).owesAt () t.castSucc from rfl,
    mkDat_after0, mkDat_after1, mkDat_after2, mkDat_after3, mkDat_after4]
  unfold out4
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation in its exact form, at every point: no window of this pipeline is idle or cut, so
    the five windows' clauses are those of the theorem above. -/
theorem body_obligation_exact (c : Dev nD) :
    BodyObligation (mkDat m c (out4 m c)) (defs₀ (F := F)) Variants.none () Set.univ := fun t => by
  rw [bigSep_W0, bigSep_W0]
  exact body_at m c t

/-- The body obligation as the pipeline's loop uses it. -/
theorem body_obligation (c : Dev nD) :
    Pipeline.BodyObligationLoose (mkDat m c (out4 m c)) (defs₀ (F := F)) Variants.none () Set.univ :=
  (body_obligation_exact m c).loose

end Cert.KernelIdeal.Tri

end
-- ==== Proof.KI.Cover.lean ====
/-
  From blocks to the arrays.

  The pipeline's five windows cut two argument arrays and one result array into blocks: the embedding matrix
  (8192 rows of 512) is seen both 128 rows at a time and whole; the labels (8192 words) both 128 at a time
  and whole; the losses (8192) are written 128 at a time. A block's coordinate in its array is always
  (block index) x (block size) + (coordinate inside the block). Here: what each input block holds, entry by entry,
  in terms of its array; and the result array after the run, entry by entry, from what each grid point stores in
  its block: entry r is written by the point r / 128, at place r % 128, and by no other.
-/
import proofs.«135888_j52630529245412_1_alg».proof.Proof.KI.Data
import Idealize.ShloMosaic.Lib.Pipeline.Value
import Idealize.ShloMosaic.Lib.ValueIdx

noncomputable section

namespace Cert.KernelIdeal.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ)

/-- Row p of the block of 128 rows that grid point t sees. -/
def row (t : Fin 64) (p : Fin 128) : Fin 8192 := ⟨128 * t.val + p.val, by omega⟩

/-- A grid point as a number below 64. -/
def pt (t : Fin cfg0.N) : Fin 64 := ⟨t.val, by have h : cfg0.N = 64 := Gen.N_0; have := t.isLt; omega⟩

/-- The printed index maps, decided over the grid: the moving windows' block index is the grid point, the whole
    windows' is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = t.val
    ∧ win0_3.index t (0 : Fin 1) = 0
    ∧ win0_4.index t (0 : Fin 1) = t.val :=
  (by decide +kernel : ∀ t : Fin grid0.N, _)

theorem iblk0_apply (c : Dev nD) (t : Fin cfg0.N) (p : Fin 128) (q : Fin 512) :
    iblk m c 0 t (ValueIdx.ix2 p q) = V m c main_arg0 (ValueIdx.ix2 (row (pt t) p) q) := by
  show V m c main_arg0 (((cfg0.win 0).blk t).view.emb (ValueIdx.ix2 p q)) = V m c main_arg0 (ValueIdx.ix2 (row (pt t) p) q)
  congr 1
  funext a
  apply Fin.ext
  obtain ⟨e0, e1, -⟩ := index_facts t
  match a with
  | ⟨0, _⟩ => show win0_0.index t (0 : Fin 2) * 128 + 1 * p.val = 128 * t.val + p.val; omega
  | ⟨1, _⟩ => show win0_0.index t (1 : Fin 2) * 512 + 1 * q.val = q.val; omega

theorem iblk1_apply (c : Dev nD) (t : Fin cfg0.N) (r : Fin 8192) (q : Fin 512) :
    iblk m c 1 t (ValueIdx.ix2 r q) = V m c main_arg0 (ValueIdx.ix2 r q) := by
  show V m c main_arg0 (((cfg0.win 1).blk t).view.emb (ValueIdx.ix2 r q)) = V m c main_arg0 (ValueIdx.ix2 r q)
  congr 1
  funext a
  apply Fin.ext
  obtain ⟨-, -, e0, e1, -⟩ := index_facts t
  match a with
  | ⟨0, _⟩ => show win0_1.index t (0 : Fin 2) * 8192 + 1 * r.val = r.val; omega
  | ⟨1, _⟩ => show win0_1.index t (1 : Fin 2) * 512 + 1 * q.val = q.val; omega

theorem iblk2_apply (c : Dev nD) (t : Fin cfg0.N) (p : Fin 128) :
    iblk m c 2 t (ValueIdx.ix1 p) = V m c main_arg1 (ValueIdx.ix1 (row (pt t) p)) := by
  show V m c main_arg1 (((cfg0.win 2).blk t).view.emb (ValueIdx.ix1 p)) = V m c main_arg1 (ValueIdx.ix1 (row (pt t) p))
  congr 1
  funext a
  apply Fin.ext
  obtain ⟨-, -, -, -, e0, -⟩ := index_facts t
  match a with
  | ⟨0, _⟩ => show win0_2.index t (0 : Fin 1) * 128 + 1 * p.val = 128 * t.val + p.val; omega

theorem iblk3_apply (c : Dev nD) (t : Fin cfg0.N) (r : Fin 8192) :
    iblk m c 3 t (ValueIdx.ix1 r) = V m c main_arg1 (ValueIdx.ix1 r) := by
  show V m c main_arg1 (((cfg0.win 3).blk t).view.emb (ValueIdx.ix1 r)) = V m c main_arg1 (ValueIdx.ix1 r)
  congr 1
  funext a
  apply Fin.ext
  obtain ⟨-, -, -, -, -, e0, -⟩ := index_facts t
  match a with
  | ⟨0, _⟩ => show win0_3.index t (0 : Fin 1) * 8192 + 1 * r.val = r.val; omega

/-! ## The loss array after the run -/

/-- An entry of the loss array is in point t's block iff it lies in the block's range of 128 entries. -/
theorem mem_lossBlock (t : Fin cfg0.N) (i : S8192.Idx) :
    i ∈ ((cfg0.win 4).blk t).view.set ↔ ∀ a : Fin 1, win0_4.index t a * S128.size a ≤ (i a).val ∧ (i a).val < win0_4.index t a * S128.size a + S128.size a := by
  show i ∈ ((View.whole main_v0).slice (win0_4.rect t)).set ↔ _
  rw [View.set_slice_whole, Rect.mem_set_unit]
  exact Iff.rfl

/-- Every block of 128 entries is some point's. -/
theorem lossBlock_onto : ∀ q : Fin 64, ∃ t : Fin cfg0.N, win0_4.index t (0 : Fin 1) = q.val :=
  (by decide +kernel : ∀ q : Fin 64, ∃ t : Fin grid0.N, win0_4.index t (0 : Fin 1) = q.val)

/-- What point t writes back is block t of the one function G of the entry's number, if what the body stored at
    place p of the block is G at entry 128 t + p. -/
theorem flushed_loss_eq (c : Dev nD) (out4 : Fin cfg0.N → S128.Idx → Elt F .f32) (G : Fin 8192 → Elt F .f32)
    (hout : ∀ (t : Fin cfg0.N) (p : Fin 128), out4 t (ValueIdx.ix1 p) = G (row (pt t) p)) (t : Fin cfg0.N) :
    (mkDat m c out4).flushed 4 t
      = ((cfg0.win 4).blk t).view.read (Elt F) (fun i : S8192.Idx => G ⟨(i 0).val, (i 0).isLt⟩) := by
  show (cfg0.win 4).cut (grid0.coords t) ((mkDat m c out4).after 4 t) = _
  rw [mkDat_after4]
  funext j
  have hj : (j 0).val < 128 := (j 0).isLt
  have e : (cfg0.win 4).xinj (grid0.coords t) j = ValueIdx.ix1 (⟨(j 0).val, hj⟩ : Fin 128) := by
    funext a; match a with | ⟨0, _⟩ => rfl
  show out4 t ((cfg0.win 4).xinj (grid0.coords t) j) = G ⟨((((cfg0.win 4).blk t).view.emb j) 0).val, _⟩
  rw [e, hout]
  congr 1
  apply Fin.ext
  obtain ⟨-, -, -, -, -, -, e4⟩ := index_facts t
  show 128 * t.val + (j 0).val = win0_4.index t (0 : Fin 1) * 128 + 1 * (j 0).val
  omega

/-- Every entry of the loss array is in the block of the point r / 128, which writes its block back. -/
theorem loss_covered (i : S8192.Idx) :
    ∃ t : Fin cfg0.N, (cfg0.win 4).flush t = true ∧ i ∈ ((cfg0.win 4).blk t).view.set := by
  have hi : (i 0).val < 8192 := (i 0).isLt
  obtain ⟨t, ht⟩ := lossBlock_onto ⟨(i 0).val / 128, by omega⟩
  have q0 : win0_4.index t (0 : Fin 1) = (i 0).val / 128 := ht
  refine ⟨t, flush0_4 t, ?_⟩
  rw [mem_lossBlock]
  intro a
  match a with
  | ⟨0, _⟩ => show win0_4.index t (0 : Fin 1) * 128 ≤ (i 0).val ∧ (i 0).val < win0_4.index t (0 : Fin 1) * 128 + 128; omega

/-- The loss array after the run: entry r holds G r. -/
theorem final4 (c : Dev nD) (out4 : Fin cfg0.N → S128.Idx → Elt F .f32) (G : Fin 8192 → Elt F .f32)
    (hout : ∀ (t : Fin cfg0.N) (p : Fin 128), out4 t (ValueIdx.ix1 p) = G (row (pt t) p)) :
    (mkDat m c out4).arrAt 4 cfg0.N = (fun i : S8192.Idx => G ⟨(i 0).val, (i 0).isLt⟩) :=
  (mkDat m c out4).arrAt_eq_of_cover 4 (fun i : S8192.Idx => G ⟨(i 0).val, (i 0).isLt⟩)
    (fun t _ => flushed_loss_eq m c out4 G hout t) loss_covered

/-- The same, read at one entry. -/
theorem final4_apply (c : Dev nD) (out4 : Fin cfg0.N → S128.Idx → Elt F .f32) (G : Fin 8192 → Elt F .f32)
    (hout : ∀ (t : Fin cfg0.N) (p : Fin 128), out4 t (ValueIdx.ix1 p) = G (row (pt t) p)) (r : Fin 8192) :
    (mkDat m c out4).arrAt 4 cfg0.N (ValueIdx.ix1 r) = G r :=
  congrFun (final4 m c out4 G hout) (ValueIdx.ix1 r)

/-! ## The argument arrays after the run -/

/-- The embedding matrix is never written: after the run it is as the region found it. -/
theorem inputKept0 (c : Dev nD) (out4 : Fin cfg0.N → S128.Idx → Elt F .f32) :
    (mkDat m c out4).arrAt 0 cfg0.N = V m c main_arg0 :=
  (mkDat m c out4).arrAt_in 0 rfl cfg0.N

theorem inputKept1 (c : Dev nD) (out4 : Fin cfg0.N → S128.Idx → Elt F .f32) :
    (mkDat m c out4).arrAt 1 cfg0.N = V m c main_arg0 :=
  (mkDat m c out4).arrAt_in 1 rfl cfg0.N

/-- Nor are the labels. -/
theorem inputKept2 (c : Dev nD) (out4 : Fin cfg0.N → S128.Idx → Elt F .f32) :
    (mkDat m c out4).arrAt 2 cfg0.N = V m c main_arg1 :=
  (mkDat m c out4).arrAt_in 2 rfl cfg0.N

theorem inputKept3 (c : Dev nD) (out4 : Fin cfg0.N → S128.Idx → Elt F .f32) :
    (mkDat m c out4).arrAt 3 cfg0.N = V m c main_arg1 :=
  (mkDat m c out4).arrAt_in 3 rfl cfg0.N

end Cert.KernelIdeal.Tri

end
-- ==== Proof.KI.Trips.lean ====
/-
  What the kernel's two counted loops carry, and the vector the body stores, lane by lane.

  Both loops visit the 8192 columns in eight tiles of 1024. Trip k loads rows 1024 k .. 1024 k + 1023 of the matrix
  buffer and the same stretch of the label buffer, and folds what it computes from that tile into the carried value.

  * One trip. The first loop's trip sends the carried vector acc to the lane-wise maximum of acc and the tile's
    row maxima of the positive candidates; the second loop's trip sends the carried triple (a7, a8, a9) to the
    lane-wise minima of a7, a8 with the tile's masked row minima and the disjunction of a9 with "the tile has a
    semi-hard column". Both are stated over the tile as the trip's load reads it off the buffer's contents, and
    the loaded tile is described element by element: its row c is row 1024 k + c of the buffer.
  * Eight trips. The recursion each loop's carried value obeys is the iteration iter of that step.
  * Lanes. A reading of the carried value that every step respects commutes with the iteration. Reading lane p:
    the first loop ends with the hardest positive of row r p taken tile by tile; the second, comparing against
    that, with the triple of tile-by-tile reductions; and the stored vector's lane p is the tiled loss of row r p.
    The lane-wise descriptions of the pure values involved are hypotheses here.
-/
import proofs.«135888_j52630529245412_1_alg».proof.Proof.KI.Data
import proofs.«135888_j52630529245412_1_alg».proof.Proof.Tri.Spec
import Idealize.ShloMosaic.Lib.ValueIdx

set_option maxRecDepth 8192
set_option maxHeartbeats 4000000

noncomputable section

namespace Cert.KernelIdeal.TriVal

open Cert.KernelIdeal Cert.KernelIdeal.Gen Cert.KernelIdeal.Tri Cert.Triplet Idealize.ShloMosaic
open Idealize.ShloMosaic.ValueIdx

variable {F : FTy → Type} [FloatOps F] [Named F]

/-! ## Trips and tiles -/

theorem trips1 : k0_t1_loop.trips = 8 := by decide
theorem trips2 : k0_t2_loop.trips = 8 := by decide

/-- A trip of the first loop as the tile of columns it visits. -/
def tile1 (k : Fin k0_t1_loop.trips) : Fin 8 := ⟨k.val, trips1 ▸ k.isLt⟩
/-- A trip of the second loop as the tile of columns it visits. -/
def tile2 (k : Fin k0_t2_loop.trips) : Fin 8 := ⟨k.val, trips2 ▸ k.isLt⟩
/-- A tile as the trip of the first loop that visits it. -/
def trip1 (kk : Fin 8) : Fin k0_t1_loop.trips := ⟨kk.val, trips1.symm ▸ kk.isLt⟩
/-- A tile as the trip of the second loop that visits it. -/
def trip2 (kk : Fin 8) : Fin k0_t2_loop.trips := ⟨kk.val, trips2.symm ▸ kk.isLt⟩

@[simp] theorem tile1_trip1 (kk : Fin 8) : tile1 (trip1 kk) = kk := rfl
@[simp] theorem tile2_trip2 (kk : Fin 8) : tile2 (trip2 kk) = kk := rfl
@[simp] theorem trip1_tile1 (k : Fin k0_t1_loop.trips) : trip1 (tile1 k) = k := rfl
@[simp] theorem trip2_tile2 (k : Fin k0_t2_loop.trips) : trip2 (tile2 k) = k := rfl

/-! ## What a trip loads -/

/-- The 1024 rows of the matrix buffer that trip k of the first loop loads. -/
abbrev xs1 {arg2 : Memref sig .tc .vmem S8192x512 .f32} (X_arg2 : BufTy.Contents (Elt F) arg2.view.ty) (k : Fin k0_t1_loop.trips) : Vec F S1024x512 .f32 :=
  View.readAt (Elt F) arg2.view (Rect.unit (s := S8192x512) (k0_off1 k) S1024x512.size (k0_off1_inb k)).toLoadRect X_arg2
/-- The 1024 label words that trip k of the first loop loads. -/
abbrev ls1 {arg4 : Memref sig .tc .vmem S8192 .i32} (X_arg4 : BufTy.Contents (Elt F) arg4.view.ty) (k : Fin k0_t1_loop.trips) : Vec F S1024 .i32 :=
  View.readAt (Elt F) arg4.view (Rect.unit (s := S8192) (k0_off2 k) S1024.size (k0_off2_inb k)).toLoadRect X_arg4
/-- The 1024 rows of the matrix buffer that trip k of the second loop loads. -/
abbrev xs2 {arg2 : Memref sig .tc .vmem S8192x512 .f32} (X_arg2 : BufTy.Contents (Elt F) arg2.view.ty) (k : Fin k0_t2_loop.trips) : Vec F S1024x512 .f32 :=
  View.readAt (Elt F) arg2.view (Rect.unit (s := S8192x512) (k0_off3 k) S1024x512.size (k0_off3_inb k)).toLoadRect X_arg2
/-- The 1024 label words that trip k of the second loop loads. -/
abbrev ls2 {arg4 : Memref sig .tc .vmem S8192 .i32} (X_arg4 : BufTy.Contents (Elt F) arg4.view.ty) (k : Fin k0_t2_loop.trips) : Vec F S1024 .i32 :=
  View.readAt (Elt F) arg4.view (Rect.unit (s := S8192) (k0_off4 k) S1024.size (k0_off4_inb k)).toLoadRect X_arg4

/-- Row c of the block trip k loads is row 1024 k + c of the whole buffer. -/
theorem xs1_apply {arg2 : Memref sig .tc .vmem S8192x512 .f32} (X_arg2 : BufTy.Contents (Elt F) arg2.view.ty) (k : Fin k0_t1_loop.trips)
    (c : Fin 1024) (q : Fin 512) :
    xs1 X_arg2 k (ix2 c q) = arg2.view.read (Elt F) X_arg2 (ix2 (col (tile1 k) c) q) := by
  show arg2.view.read (Elt F) X_arg2 _ = _
  congr 1
  funext a
  apply Fin.ext
  match a with
  | ⟨0, _⟩ => simp [LoadRect.idx, k0_off1_eq, col, tile1]
  | ⟨1, _⟩ => simp [LoadRect.idx, k0_off1_eq]

/-- Word c of the labels trip k loads is word 1024 k + c of the whole buffer. -/
theorem ls1_apply {arg4 : Memref sig .tc .vmem S8192 .i32} (X_arg4 : BufTy.Contents (Elt F) arg4.view.ty) (k : Fin k0_t1_loop.trips)
    (c : Fin 1024) :
    ls1 X_arg4 k (ix1 c) = arg4.view.read (Elt F) X_arg4 (ix1 (col (tile1 k) c)) := by
  show arg4.view.read (Elt F) X_arg4 _ = _
  congr 1
  funext a
  apply Fin.ext
  match a with
  | ⟨0, _⟩ => simp [LoadRect.idx, k0_off2_eq, col, tile1]

/-- Row c of the block trip k of the second loop loads is row 1024 k + c of the whole buffer. -/
theorem xs2_apply {arg2 : Memref sig .tc .vmem S8192x512 .f32} (X_arg2 : BufTy.Contents (Elt F) arg2.view.ty) (k : Fin k0_t2_loop.trips)
    (c : Fin 1024) (q : Fin 512) :
    xs2 X_arg2 k (ix2 c q) = arg2.view.read (Elt F) X_arg2 (ix2 (col (tile2 k) c) q) := by
  show arg2.view.read (Elt F) X_arg2 _ = _
  congr 1
  funext a
  apply Fin.ext
  match a with
  | ⟨0, _⟩ => simp [LoadRect.idx, k0_off3_eq, col, tile2]
  | ⟨1, _⟩ => simp [LoadRect.idx, k0_off3_eq]

/-- Word c of the labels trip k of the second loop loads is word 1024 k + c of the whole buffer. -/
theorem ls2_apply {arg4 : Memref sig .tc .vmem S8192 .i32} (X_arg4 : BufTy.Contents (Elt F) arg4.view.ty) (k : Fin k0_t2_loop.trips)
    (c : Fin 1024) :
    ls2 X_arg4 k (ix1 c) = arg4.view.read (Elt F) X_arg4 (ix1 (col (tile2 k) c)) := by
  show arg4.view.read (Elt F) X_arg4 _ = _
  congr 1
  funext a
  apply Fin.ext
  match a with
  | ⟨0, _⟩ => simp [LoadRect.idx, k0_off4_eq, col, tile2]

/-! ## One trip of each loop -/

/-- One trip of the first loop: the running maximum over the tile it loads. -/
theorem tripR1_eq (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec F S128x512 .f32) (v5 : Vec F S128 .i32) (X_arg2 : BufTy.Contents (Elt F) arg2.view.ty) (X_arg4 : BufTy.Contents (Elt F) arg4.view.ty) (k : Fin k0_t1_loop.trips) (acc : FVec F S128 .f32) :
    tripR_k0_t1 (F := F) 𝒱 c bd i arg1 harg1 arg2 harg2 arg3 harg3 arg4 harg4 arg5 harg5 v0 v1 v5 X_arg2 X_arg4 k acc
      = k0_pay11 v0 (k0_pay1 v1) (k0_pay2 v1) v5 0#32 1#32 k acc (xs1 X_arg2 k) (ls1 X_arg4 k) := by
  unfold tripR_k0_t1
  unfold trip_k0_t1
  rfl

/-- One trip of the second loop: the two running minima and the running disjunction over the tile it loads. -/
theorem tripR2_eq (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec F S128x512 .f32) (v5 : Vec F S128 .i32) (v8 : FVec F S128 .f32) (X_arg2 : BufTy.Contents (Elt F) arg2.view.ty) (X_arg4 : BufTy.Contents (Elt F) arg4.view.ty) (k : Fin k0_t2_loop.trips) (a7 a8 : FVec F S128 .f32) (a9 : IVec S128 1) :
    tripR_k0_t2 (F := F) 𝒱 c bd i arg1 harg1 arg2 harg2 arg3 harg3 arg4 harg4 arg5 harg5 v0 v1 v5 v8 X_arg2 X_arg4 k (a7, a8, a9)
      = (k0_pay7 a7 (k0_pay12 v0 (k0_pay1 v1) (k0_pay2 v1) 0#32 1#32 k (xs2 X_arg2 k))
            (k0_pay14 v0 (k0_pay1 v1) (k0_pay2 v1) v5 v8 0#32 1#32 k (xs2 X_arg2 k) (ls2 X_arg4 k))
            (Named.named κ "pos_big" 0x7F61B1E6#32),
         k0_pay8 a8 (k0_pay12 v0 (k0_pay1 v1) (k0_pay2 v1) 0#32 1#32 k (xs2 X_arg2 k)) (k0_pay13 v5 (ls2 X_arg4 k)),
         k0_pay9 (F := F) a9 (k0_pay14 v0 (k0_pay1 v1) (k0_pay2 v1) v5 v8 0#32 1#32 k (xs2 X_arg2 k) (ls2 X_arg4 k))) := by
  unfold tripR_k0_t2
  unfold trip_k0_t2
  rfl

/-! ## The carried values as the eight-trip iteration -/

/-- The first loop's carried value before trip n is the iteration of its trips' step. -/
theorem st1_eq_iter (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec F S128x512 .f32) (v5 : Vec F S128 .i32) (X_arg2 : BufTy.Contents (Elt F) arg2.view.ty) (X_arg4 : BufTy.Contents (Elt F) arg4.view.ty) (s1 : Fin 8 → FVec F S128 .f32 → FVec F S128 .f32)
    (hs : ∀ (k : Fin k0_t1_loop.trips) (acc : FVec F S128 .f32),
      tripR_k0_t1 (F := F) 𝒱 c bd i arg1 harg1 arg2 harg2 arg3 harg3 arg4 harg4 arg5 harg5 v0 v1 v5 X_arg2 X_arg4 k acc = s1 (tile1 k) acc)
    (init : FVec F S128 .f32) (n : ℕ) :
    st_k0_t1 (F := F) 𝒱 c bd i arg1 harg1 arg2 harg2 arg3 harg3 arg4 harg4 arg5 harg5 v0 v1 v5 X_arg2 X_arg4 init n = iter s1 init n := by
  induction n with
  | zero => rfl
  | succ n ih =>
    rw [st_k0_t1.eq_2, ih]
    unfold st_k0_t1Step
    show _ = (if h : n < 8 then s1 ⟨n, h⟩ (iter s1 init n) else iter s1 init n)
    by_cases h : n < 8
    · rw [dif_pos h, dif_pos (show n < k0_t1_loop.trips from trips1.symm ▸ h), hs]; rfl
    · rw [dif_neg h, dif_neg (show ¬ n < k0_t1_loop.trips from trips1.symm ▸ h)]

/-- The second loop's carried triple before trip n is the iteration of its trips' step. -/
theorem st2_eq_iter (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec F S128x512 .f32) (v5 : Vec F S128 .i32) (v8 : FVec F S128 .f32) (X_arg2 : BufTy.Contents (Elt F) arg2.view.ty) (X_arg4 : BufTy.Contents (Elt F) arg4.view.ty)
    (s2 : Fin 8 → FVec F S128 .f32 × FVec F S128 .f32 × IVec S128 1 → FVec F S128 .f32 × FVec F S128 .f32 × IVec S128 1)
    (hs : ∀ (k : Fin k0_t2_loop.trips) (acc : FVec F S128 .f32 × FVec F S128 .f32 × IVec S128 1),
      tripR_k0_t2 (F := F) 𝒱 c bd i arg1 harg1 arg2 harg2 arg3 harg3 arg4 harg4 arg5 harg5 v0 v1 v5 v8 X_arg2 X_arg4 k acc = s2 (tile2 k) acc)
    (init : FVec F S128 .f32 × FVec F S128 .f32 × IVec S128 1) (n : ℕ) :
    st_k0_t2 (F := F) 𝒱 c bd i arg1 harg1 arg2 harg2 arg3 harg3 arg4 harg4 arg5 harg5 v0 v1 v5 v8 X_arg2 X_arg4 init n = iter s2 init n := by
  induction n with
  | zero => rfl
  | succ n ih =>
    rw [st_k0_t2.eq_2, ih]
    unfold st_k0_t2Step
    show _ = (if h : n < 8 then s2 ⟨n, h⟩ (iter s2 init n) else iter s2 init n)
    by_cases h : n < 8
    · rw [dif_pos h, dif_pos (show n < k0_t2_loop.trips from trips2.symm ▸ h), hs]; rfl
    · rw [dif_neg h, dif_neg (show ¬ n < k0_t2_loop.trips from trips2.symm ▸ h)]

/-- A reading of the carried value that every step respects commutes with the iteration. -/
theorem iter_map {α β : Type} (ev : α → β) (s : Fin 8 → α → α) (g : Fin 8 → β → β)
    (h : ∀ k a, ev (s k a) = g k (ev a)) (init : α) (n : ℕ) :
    ev (iter s init n) = iter g (ev init) n := by
  induction n with
  | zero => rfl
  | succ n ih =>
    show ev (if hn : n < 8 then s ⟨n, hn⟩ (iter s init n) else iter s init n)
      = (if hn : n < 8 then g ⟨n, hn⟩ (iter g (ev init) n) else iter g (ev init) n)
    by_cases hn : n < 8
    · rw [dif_pos hn, dif_pos hn, h, ih]
    · rw [dif_neg hn, dif_neg hn, ih]

/-! ## The value stored, lane by lane -/

section Value

variable (X : Fin 8192 → Fin 512 → EReal) (L : Fin 8192 → BitVec 32) (r : Fin 128 → Fin 8192)

/-- After its eight trips the first loop carries, in lane p, the hardest positive of row r p taken tile by tile. -/
theorem st1_apply (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec Ideal S128x512 .f32) (v5 : Vec Ideal S128 .i32) (X_arg2 : BufTy.Contents (Elt Ideal) arg2.view.ty) (X_arg4 : BufTy.Contents (Elt Ideal) arg4.view.ty)
    (h11 : ∀ (k : Fin k0_t1_loop.trips) (acc : FVec Ideal S128 .f32) (p : Fin 128),
      k0_pay11 (F := Ideal) v0 (k0_pay1 v1) (k0_pay2 v1) v5 0#32 1#32 k acc (xs1 X_arg2 k) (ls1 X_arg4 k) (ix1 p)
        = max (acc (ix1 p)) (tilePos X L (r p) (tile1 k)))
    (h3 : ∀ p : Fin 128, k0_pay3 (F := Ideal) (ix1 p) = ⊥) (p : Fin 128) :
    st_k0_t1 (F := Ideal) 𝒱 c bd i arg1 harg1 arg2 harg2 arg3 harg3 arg4 harg4 arg5 harg5 v0 v1 v5 X_arg2 X_arg4 (k0_pay3 (F := Ideal)) 8 (ix1 p) = hposK X L (r p) := by
  rw [st1_eq_iter (F := Ideal) 𝒱 c bd i arg1 harg1 arg2 harg2 arg3 harg3 arg4 harg4 arg5 harg5 v0 v1 v5 X_arg2 X_arg4
    (fun kk acc => k0_pay11 (F := Ideal) v0 (k0_pay1 v1) (k0_pay2 v1) v5 0#32 1#32 (trip1 kk) acc (xs1 X_arg2 (trip1 kk)) (ls1 X_arg4 (trip1 kk)))
    (fun k acc => tripR1_eq (F := Ideal) 𝒱 c bd i arg1 harg1 arg2 harg2 arg3 harg3 arg4 harg4 arg5 harg5 v0 v1 v5 X_arg2 X_arg4 k acc)]
  rw [iter_map (fun v : FVec Ideal S128 .f32 => v (ix1 p)) _ (fun kk a => max a (tilePos X L (r p) kk))
    (fun kk a => h11 (trip1 kk) a p), h3]
  rfl

end Value

section Value

variable (X : Fin 8192 → Fin 512 → EReal) (L : Fin 8192 → BitVec 32) (r : Fin 128 → Fin 8192)

/-- The second loop's carried triple read in lane p. -/
def lane3 (p : Fin 128) (a : FVec Ideal S128 .f32 × FVec Ideal S128 .f32 × IVec S128 1) : EReal × EReal × BitVec 1 :=
  (a.1 (ix1 p), a.2.1 (ix1 p), a.2.2 (ix1 p))

/-- After its eight trips the second loop carries, in lane p, the three tile-by-tile reductions of row r p: the
    least semi-hard distance, the least distance to another label, and whether a semi-hard column was seen;
    given that the vector of hardest positives it compares against holds row r p's in lane p. -/
theorem st2_apply (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec Ideal S128x512 .f32) (v5 : Vec Ideal S128 .i32) (v8 : FVec Ideal S128 .f32) (X_arg2 : BufTy.Contents (Elt Ideal) arg2.view.ty) (X_arg4 : BufTy.Contents (Elt Ideal) arg4.view.ty)
    (hv8 : ∀ p : Fin 128, v8 (ix1 p) = hposK X L (r p))
    (h12 : ∀ (k : Fin k0_t2_loop.trips) (p : Fin 128) (c : Fin 1024),
      (k0_pay12 (F := Ideal) v0 (k0_pay1 v1) (k0_pay2 v1) 0#32 1#32 k (xs2 X_arg2 k)) (ix2 p c) = dist X (r p) (col (tile2 k) c))
    (h13 : ∀ (k : Fin k0_t2_loop.trips) (p : Fin 128) (c : Fin 1024),
      (k0_pay13 (F := Ideal) v5 (ls2 X_arg4 k)) (ix2 p c) = notSame L (r p) (col (tile2 k) c))
    (h14 : ∀ (k : Fin k0_t2_loop.trips) (p : Fin 128) (c : Fin 1024),
      (k0_pay14 (F := Ideal) v0 (k0_pay1 v1) (k0_pay2 v1) v5 v8 0#32 1#32 k (xs2 X_arg2 k) (ls2 X_arg4 k)) (ix2 p c)
        = IntOp.andi ((k0_pay13 (F := Ideal) v5 (ls2 X_arg4 k)) (ix2 p c)) (Ideal.cmp .ogt ((k0_pay12 (F := Ideal) v0 (k0_pay1 v1) (k0_pay2 v1) 0#32 1#32 k (xs2 X_arg2 k)) (ix2 p c)) (v8 (ix1 p))))
    (h7 : ∀ (a7 : FVec Ideal S128 .f32) (v55 : FVec Ideal S128x1024 .f32) (v67 : IVec S128x1024 1) (p : Fin 128),
      k0_pay7 (F := Ideal) a7 v55 v67 (Named.named κ "pos_big" 0x7F61B1E6#32) (ix1 p)
        = min (a7 (ix1 p)) (Finset.univ.fold min ⊤ (fun c : Fin 1024 => Scalar.select (v67 (ix2 p c)) (v55 (ix2 p c)) ⊤)))
    (h8 : ∀ (a8 : FVec Ideal S128 .f32) (v55 : FVec Ideal S128x1024 .f32) (v63 : IVec S128x1024 1) (p : Fin 128),
      k0_pay8 (F := Ideal) a8 v55 v63 (ix1 p)
        = min (a8 (ix1 p)) (Finset.univ.fold min ⊤ (fun c : Fin 1024 => Scalar.select (v63 (ix2 p c)) (v55 (ix2 p c)) ⊤)))
    (h9 : ∀ (a9 : IVec S128 1) (v67 : IVec S128x1024 1) (p : Fin 128),
      k0_pay9 (F := Ideal) a9 v67 (ix1 p)
        = a9 (ix1 p) ||| Ideal.cmp .ogt (Finset.univ.fold max ⊥ (fun c : Fin 1024 => Scalar.select (v67 (ix2 p c)) c1 c0)) c0)
    (h4 : ∀ p : Fin 128, k0_pay4 (F := Ideal) (ix1 p) = ⊤) (h5 : ∀ p : Fin 128, k0_pay5 (F := Ideal) (ix1 p) = ⊤)
    (h6 : ∀ p : Fin 128, k0_pay6 (ix1 p) = 0#1)
    (p : Fin 128) :
    lane3 p (st_k0_t2 (F := Ideal) 𝒱 c bd i arg1 harg1 arg2 harg2 arg3 harg3 arg4 harg4 arg5 harg5 v0 v1 v5 v8 X_arg2 X_arg4 (k0_pay4 (F := Ideal), k0_pay5 (F := Ideal), k0_pay6) 8)
      = phase2K X L (r p) := by
  have hstep : ∀ (kk : Fin 8) (a : FVec Ideal S128 .f32 × FVec Ideal S128 .f32 × IVec S128 1),
      lane3 p (k0_pay7 (F := Ideal) a.1 (k0_pay12 (F := Ideal) v0 (k0_pay1 v1) (k0_pay2 v1) 0#32 1#32 (trip2 kk) (xs2 X_arg2 (trip2 kk))) (k0_pay14 (F := Ideal) v0 (k0_pay1 v1) (k0_pay2 v1) v5 v8 0#32 1#32 (trip2 kk) (xs2 X_arg2 (trip2 kk)) (ls2 X_arg4 (trip2 kk))) (Named.named κ "pos_big" 0x7F61B1E6#32),
               k0_pay8 (F := Ideal) a.2.1 (k0_pay12 (F := Ideal) v0 (k0_pay1 v1) (k0_pay2 v1) 0#32 1#32 (trip2 kk) (xs2 X_arg2 (trip2 kk))) (k0_pay13 (F := Ideal) v5 (ls2 X_arg4 (trip2 kk))),
               k0_pay9 (F := Ideal) a.2.2 (k0_pay14 (F := Ideal) v0 (k0_pay1 v1) (k0_pay2 v1) v5 v8 0#32 1#32 (trip2 kk) (xs2 X_arg2 (trip2 kk)) (ls2 X_arg4 (trip2 kk))))
        = (min (lane3 p a).1 (tileMinSemi X L (r p) kk), min (lane3 p a).2.1 (tileMinAll X L (r p) kk),
            (lane3 p a).2.2 ||| tileAny X L (r p) kk) := by
    intro kk a
    have e14 : ∀ c : Fin 1024, (k0_pay14 (F := Ideal) v0 (k0_pay1 v1) (k0_pay2 v1) v5 v8 0#32 1#32 (trip2 kk) (xs2 X_arg2 (trip2 kk)) (ls2 X_arg4 (trip2 kk))) (ix2 p c) = semiK X L (r p) (col kk c) := fun c => by
      rw [h14, h13, h12, hv8]; rfl
    show (k0_pay7 (F := Ideal) _ _ _ _ (ix1 p), k0_pay8 (F := Ideal) _ _ _ (ix1 p), k0_pay9 (F := Ideal) _ _ (ix1 p)) = _
    rw [h7, h8, h9]
    simp only [e14, h12, h13]
    rfl
  rw [st2_eq_iter (F := Ideal) 𝒱 c bd i arg1 harg1 arg2 harg2 arg3 harg3 arg4 harg4 arg5 harg5 v0 v1 v5 v8 X_arg2 X_arg4
    (fun kk a => (k0_pay7 (F := Ideal) a.1 (k0_pay12 (F := Ideal) v0 (k0_pay1 v1) (k0_pay2 v1) 0#32 1#32 (trip2 kk) (xs2 X_arg2 (trip2 kk))) (k0_pay14 (F := Ideal) v0 (k0_pay1 v1) (k0_pay2 v1) v5 v8 0#32 1#32 (trip2 kk) (xs2 X_arg2 (trip2 kk)) (ls2 X_arg4 (trip2 kk))) (Named.named κ "pos_big" 0x7F61B1E6#32),
               k0_pay8 (F := Ideal) a.2.1 (k0_pay12 (F := Ideal) v0 (k0_pay1 v1) (k0_pay2 v1) 0#32 1#32 (trip2 kk) (xs2 X_arg2 (trip2 kk))) (k0_pay13 (F := Ideal) v5 (ls2 X_arg4 (trip2 kk))),
               k0_pay9 (F := Ideal) a.2.2 (k0_pay14 (F := Ideal) v0 (k0_pay1 v1) (k0_pay2 v1) v5 v8 0#32 1#32 (trip2 kk) (xs2 X_arg2 (trip2 kk)) (ls2 X_arg4 (trip2 kk)))))
    (fun k acc => tripR2_eq (F := Ideal) 𝒱 c bd i arg1 harg1 arg2 harg2 arg3 harg3 arg4 harg4 arg5 harg5 v0 v1 v5 v8 X_arg2 X_arg4 k acc.1 acc.2.1 acc.2.2)]
  rw [iter_map (lane3 p) _ (fun kk a => (min a.1 (tileMinSemi X L (r p) kk), min a.2.1 (tileMinAll X L (r p) kk),
            a.2.2 ||| tileAny X L (r p) kk)) hstep]
  show iter _ (k0_pay4 (F := Ideal) (ix1 p), k0_pay5 (F := Ideal) (ix1 p), k0_pay6 (ix1 p)) 8 = _
  rw [h4, h5, h6]
  rfl

end Value

section Stored

variable (X : Fin 8192 → Fin 512 → EReal) (L : Fin 8192 → BitVec 32) (r : Fin 128 → Fin 8192)

/-- The vector the body stores, made of what the two loops carry after their eight trips, holds in lane p the loss
    of row r p with every maximum, minimum and disjunction taken tile by tile. -/
theorem stored_apply (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec Ideal S128x512 .f32) (v5 : Vec Ideal S128 .i32) (X_arg2 : BufTy.Contents (Elt Ideal) arg2.view.ty) (X_arg4 : BufTy.Contents (Elt Ideal) arg4.view.ty)
    (h11 : ∀ (k : Fin k0_t1_loop.trips) (acc : FVec Ideal S128 .f32) (p : Fin 128),
      k0_pay11 (F := Ideal) v0 (k0_pay1 v1) (k0_pay2 v1) v5 0#32 1#32 k acc (xs1 X_arg2 k) (ls1 X_arg4 k) (ix1 p)
        = max (acc (ix1 p)) (tilePos X L (r p) (tile1 k)))
    (h3 : ∀ p : Fin 128, k0_pay3 (F := Ideal) (ix1 p) = ⊥)
    (h12 : ∀ (k : Fin k0_t2_loop.trips) (p : Fin 128) (c : Fin 1024),
      (k0_pay12 (F := Ideal) v0 (k0_pay1 v1) (k0_pay2 v1) 0#32 1#32 k (xs2 X_arg2 k)) (ix2 p c) = dist X (r p) (col (tile2 k) c))
    (h13 : ∀ (k : Fin k0_t2_loop.trips) (p : Fin 128) (c : Fin 1024),
      (k0_pay13 (F := Ideal) v5 (ls2 X_arg4 k)) (ix2 p c) = notSame L (r p) (col (tile2 k) c))
    (h14 : ∀ (v8 : FVec Ideal S128 .f32) (k : Fin k0_t2_loop.trips) (p : Fin 128) (c : Fin 1024),
      (k0_pay14 (F := Ideal) v0 (k0_pay1 v1) (k0_pay2 v1) v5 v8 0#32 1#32 k (xs2 X_arg2 k) (ls2 X_arg4 k)) (ix2 p c)
        = IntOp.andi ((k0_pay13 (F := Ideal) v5 (ls2 X_arg4 k)) (ix2 p c)) (Ideal.cmp .ogt ((k0_pay12 (F := Ideal) v0 (k0_pay1 v1) (k0_pay2 v1) 0#32 1#32 k (xs2 X_arg2 k)) (ix2 p c)) (v8 (ix1 p))))
    (h7 : ∀ (a7 : FVec Ideal S128 .f32) (v55 : FVec Ideal S128x1024 .f32) (v67 : IVec S128x1024 1) (p : Fin 128),
      k0_pay7 (F := Ideal) a7 v55 v67 (Named.named κ "pos_big" 0x7F61B1E6#32) (ix1 p)
        = min (a7 (ix1 p)) (Finset.univ.fold min ⊤ (fun c : Fin 1024 => Scalar.select (v67 (ix2 p c)) (v55 (ix2 p c)) ⊤)))
    (h8 : ∀ (a8 : FVec Ideal S128 .f32) (v55 : FVec Ideal S128x1024 .f32) (v63 : IVec S128x1024 1) (p : Fin 128),
      k0_pay8 (F := Ideal) a8 v55 v63 (ix1 p)
        = min (a8 (ix1 p)) (Finset.univ.fold min ⊤ (fun c : Fin 1024 => Scalar.select (v63 (ix2 p c)) (v55 (ix2 p c)) ⊤)))
    (h9 : ∀ (a9 : IVec S128 1) (v67 : IVec S128x1024 1) (p : Fin 128),
      k0_pay9 (F := Ideal) a9 v67 (ix1 p)
        = a9 (ix1 p) ||| Ideal.cmp .ogt (Finset.univ.fold max ⊥ (fun c : Fin 1024 => Scalar.select (v67 (ix2 p c)) c1 c0)) c0)
    (h4 : ∀ p : Fin 128, k0_pay4 (F := Ideal) (ix1 p) = ⊤) (h5 : ∀ p : Fin 128, k0_pay5 (F := Ideal) (ix1 p) = ⊤)
    (h6 : ∀ p : Fin 128, k0_pay6 (ix1 p) = 0#1)
    (h10 : ∀ (v8 a b : FVec Ideal S128 .f32) (s : IVec S128 1) (p : Fin 128),
      k0_pay10 (F := Ideal) v8 a b s (ix1 p)
        = max (v8 (ix1 p) - Scalar.select (s (ix1 p)) (a (ix1 p)) (b (ix1 p)) + cMargin) c0)
    (p : Fin 128) :
    k0_pay10 (F := Ideal) (st_k0_t1 (F := Ideal) 𝒱 c bd i arg1 harg1 arg2 harg2 arg3 harg3 arg4 harg4 arg5 harg5 v0 v1 v5 X_arg2 X_arg4 (k0_pay3 (F := Ideal)) 8) (st_k0_t2 (F := Ideal) 𝒱 c bd i arg1 harg1 arg2 harg2 arg3 harg3 arg4 harg4 arg5 harg5 v0 v1 v5 (st_k0_t1 (F := Ideal) 𝒱 c bd i arg1 harg1 arg2 harg2 arg3 harg3 arg4 harg4 arg5 harg5 v0 v1 v5 X_arg2 X_arg4 (k0_pay3 (F := Ideal)) 8) X_arg2 X_arg4 (k0_pay4 (F := Ideal), k0_pay5 (F := Ideal), k0_pay6) 8).1 (st_k0_t2 (F := Ideal) 𝒱 c bd i arg1 harg1 arg2 harg2 arg3 harg3 arg4 harg4 arg5 harg5 v0 v1 v5 (st_k0_t1 (F := Ideal) 𝒱 c bd i arg1 harg1 arg2 harg2 arg3 harg3 arg4 harg4 arg5 harg5 v0 v1 v5 X_arg2 X_arg4 (k0_pay3 (F := Ideal)) 8) X_arg2 X_arg4 (k0_pay4 (F := Ideal), k0_pay5 (F := Ideal), k0_pay6) 8).2.1 (st_k0_t2 (F := Ideal) 𝒱 c bd i arg1 harg1 arg2 harg2 arg3 harg3 arg4 harg4 arg5 harg5 v0 v1 v5 (st_k0_t1 (F := Ideal) 𝒱 c bd i arg1 harg1 arg2 harg2 arg3 harg3 arg4 harg4 arg5 harg5 v0 v1 v5 X_arg2 X_arg4 (k0_pay3 (F := Ideal)) 8) X_arg2 X_arg4 (k0_pay4 (F := Ideal), k0_pay5 (F := Ideal), k0_pay6) 8).2.2 (ix1 p) = lossK X L (r p) := by
  have hv8 : ∀ p : Fin 128, (st_k0_t1 (F := Ideal) 𝒱 c bd i arg1 harg1 arg2 harg2 arg3 harg3 arg4 harg4 arg5 harg5 v0 v1 v5 X_arg2 X_arg4 (k0_pay3 (F := Ideal)) 8) (ix1 p) = hposK X L (r p) :=
    st1_apply X L r 𝒱 c bd i arg1 harg1 arg2 harg2 arg3 harg3 arg4 harg4 arg5 harg5 v0 v1 v5 X_arg2 X_arg4 h11 h3
  have h2 := st2_apply X L r 𝒱 c bd i arg1 harg1 arg2 harg2 arg3 harg3 arg4 harg4 arg5 harg5 v0 v1 v5 (st_k0_t1 (F := Ideal) 𝒱 c bd i arg1 harg1 arg2 harg2 arg3 harg3 arg4 harg4 arg5 harg5 v0 v1 v5 X_arg2 X_arg4 (k0_pay3 (F := Ideal)) 8) X_arg2 X_arg4 hv8 h12 h13 (h14 _) h7 h8 h9 h4 h5 h6 p
  rw [h10, hv8]
  unfold lossK
  rw [← h2]
  rfl

/-- The same with the trip counts as the loops state them. -/
theorem stored_apply_trips (𝒱 : Variants) (c : Dev nD) (bd : Option 𝒱.V) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole) (v0 : BitVec 32) (v1 : Vec Ideal S128x512 .f32) (v5 : Vec Ideal S128 .i32) (X_arg2 : BufTy.Contents (Elt Ideal) arg2.view.ty) (X_arg4 : BufTy.Contents (Elt Ideal) arg4.view.ty)
    (h11 : ∀ (k : Fin k0_t1_loop.trips) (acc : FVec Ideal S128 .f32) (p : Fin 128),
      k0_pay11 (F := Ideal) v0 (k0_pay1 v1) (k0_pay2 v1) v5 0#32 1#32 k acc (xs1 X_arg2 k) (ls1 X_arg4 k) (ix1 p)
        = max (acc (ix1 p)) (tilePos X L (r p) (tile1 k)))
    (h3 : ∀ p : Fin 128, k0_pay3 (F := Ideal) (ix1 p) = ⊥)
    (h12 : ∀ (k : Fin k0_t2_loop.trips) (p : Fin 128) (c : Fin 1024),
      (k0_pay12 (F := Ideal) v0 (k0_pay1 v1) (k0_pay2 v1) 0#32 1#32 k (xs2 X_arg2 k)) (ix2 p c) = dist X (r p) (col (tile2 k) c))
    (h13 : ∀ (k : Fin k0_t2_loop.trips) (p : Fin 128) (c : Fin 1024),
      (k0_pay13 (F := Ideal) v5 (ls2 X_arg4 k)) (ix2 p c) = notSame L (r p) (col (tile2 k) c))
    (h14 : ∀ (v8 : FVec Ideal S128 .f32) (k : Fin k0_t2_loop.trips) (p : Fin 128) (c : Fin 1024),
      (k0_pay14 (F := Ideal) v0 (k0_pay1 v1) (k0_pay2 v1) v5 v8 0#32 1#32 k (xs2 X_arg2 k) (ls2 X_arg4 k)) (ix2 p c)
        = IntOp.andi ((k0_pay13 (F := Ideal) v5 (ls2 X_arg4 k)) (ix2 p c)) (Ideal.cmp .ogt ((k0_pay12 (F := Ideal) v0 (k0_pay1 v1) (k0_pay2 v1) 0#32 1#32 k (xs2 X_arg2 k)) (ix2 p c)) (v8 (ix1 p))))
    (h7 : ∀ (a7 : FVec Ideal S128 .f32) (v55 : FVec Ideal S128x1024 .f32) (v67 : IVec S128x1024 1) (p : Fin 128),
      k0_pay7 (F := Ideal) a7 v55 v67 (Named.named κ "pos_big" 0x7F61B1E6#32) (ix1 p)
        = min (a7 (ix1 p)) (Finset.univ.fold min ⊤ (fun c : Fin 1024 => Scalar.select (v67 (ix2 p c)) (v55 (ix2 p c)) ⊤)))
    (h8 : ∀ (a8 : FVec Ideal S128 .f32) (v55 : FVec Ideal S128x1024 .f32) (v63 : IVec S128x1024 1) (p : Fin 128),
      k0_pay8 (F := Ideal) a8 v55 v63 (ix1 p)
        = min (a8 (ix1 p)) (Finset.univ.fold min ⊤ (fun c : Fin 1024 => Scalar.select (v63 (ix2 p c)) (v55 (ix2 p c)) ⊤)))
    (h9 : ∀ (a9 : IVec S128 1) (v67 : IVec S128x1024 1) (p : Fin 128),
      k0_pay9 (F := Ideal) a9 v67 (ix1 p)
        = a9 (ix1 p) ||| Ideal.cmp .ogt (Finset.univ.fold max ⊥ (fun c : Fin 1024 => Scalar.select (v67 (ix2 p c)) c1 c0)) c0)
    (h4 : ∀ p : Fin 128, k0_pay4 (F := Ideal) (ix1 p) = ⊤) (h5 : ∀ p : Fin 128, k0_pay5 (F := Ideal) (ix1 p) = ⊤)
    (h6 : ∀ p : Fin 128, k0_pay6 (ix1 p) = 0#1)
    (h10 : ∀ (v8 a b : FVec Ideal S128 .f32) (s : IVec S128 1) (p : Fin 128),
      k0_pay10 (F := Ideal) v8 a b s (ix1 p)
        = max (v8 (ix1 p) - Scalar.select (s (ix1 p)) (a (ix1 p)) (b (ix1 p)) + cMargin) c0)
    (p : Fin 128) :
    k0_pay10 (F := Ideal) (st_k0_t1 (F := Ideal) 𝒱 c bd i arg1 harg1 arg2 harg2 arg3 harg3 arg4 harg4 arg5 harg5 v0 v1 v5 X_arg2 X_arg4 (k0_pay3 (F := Ideal)) k0_t1_loop.trips) (st_k0_t2 (F := Ideal) 𝒱 c bd i arg1 harg1 arg2 harg2 arg3 harg3 arg4 harg4 arg5 harg5 v0 v1 v5 (st_k0_t1 (F := Ideal) 𝒱 c bd i arg1 harg1 arg2 harg2 arg3 harg3 arg4 harg4 arg5 harg5 v0 v1 v5 X_arg2 X_arg4 (k0_pay3 (F := Ideal)) k0_t1_loop.trips) X_arg2 X_arg4 (k0_pay4 (F := Ideal), k0_pay5 (F := Ideal), k0_pay6) k0_t2_loop.trips).1 (st_k0_t2 (F := Ideal) 𝒱 c bd i arg1 harg1 arg2 harg2 arg3 harg3 arg4 harg4 arg5 harg5 v0 v1 v5 (st_k0_t1 (F := Ideal) 𝒱 c bd i arg1 harg1 arg2 harg2 arg3 harg3 arg4 harg4 arg5 harg5 v0 v1 v5 X_arg2 X_arg4 (k0_pay3 (F := Ideal)) k0_t1_loop.trips) X_arg2 X_arg4 (k0_pay4 (F := Ideal), k0_pay5 (F := Ideal), k0_pay6) k0_t2_loop.trips).2.1 (st_k0_t2 (F := Ideal) 𝒱 c bd i arg1 harg1 arg2 harg2 arg3 harg3 arg4 harg4 arg5 harg5 v0 v1 v5 (st_k0_t1 (F := Ideal) 𝒱 c bd i arg1 harg1 arg2 harg2 arg3 harg3 arg4 harg4 arg5 harg5 v0 v1 v5 X_arg2 X_arg4 (k0_pay3 (F := Ideal)) k0_t1_loop.trips) X_arg2 X_arg4 (k0_pay4 (F := Ideal), k0_pay5 (F := Ideal), k0_pay6) k0_t2_loop.trips).2.2 (ix1 p) = lossK X L (r p) :=
  stored_apply X L r 𝒱 c bd i arg1 harg1 arg2 harg2 arg3 harg3 arg4 harg4 arg5 harg5 v0 v1 v5 X_arg2 X_arg4 h11 h3 h12 h13 h14 h7 h8 h9 h4 h5 h6 h10 p

end Stored

end Cert.KernelIdeal.TriVal

end
-- ==== Proof.KI.PayDist.lean ====
/-
  The kernel's distance block and label block, read at one entry.

  At a grid point t and a trip k of either counted loop the body holds a block of 128 rows of the embedding
  matrix (rows 128 t + p), a tile of 1024 rows (rows 1024 k + c), and the labels of both. From them it forms,
  entry by entry (p, c): the two squared norms (row sums of squares), the inner product (a matrix product with
  the transposed tile), the clamped squared distance |x_r|^2 + |x_j|^2 - 2 x_r.x_j, set to zero where the global
  row index equals the global column index, the mask of its positive entries, the root on that mask, and the
  comparison of the two labels. This file reads each of those at (p, c) and identifies it with the
  specification's function of the rows r = 128 t + p and j = 1024 k + c.
-/
import proofs.«135888_j52630529245412_1_alg».proof.Proof.Gen.KernelIdeal.Skeleton
import proofs.«135888_j52630529245412_1_alg».proof.Proof.Tri.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TriDist

open Cert.KernelIdeal Cert.KernelIdeal.Gen Cert.Triplet Idealize.ShloMosaic Idealize.ShloMosaic.ValueIdx

/-! ## Rows and columns -/

/-- Row p of the block of 128 rows at grid point t. -/
def row (t : Fin 64) (p : Fin 128) : Fin 8192 := ⟨128 * t.val + p.val, by omega⟩

theorem row_val (t : Fin 64) (p : Fin 128) : (row t p).val = 128 * t.val + p.val := rfl
theorem col_val (k : Fin 8) (c : Fin 1024) : (col k c).val = 1024 * k.val + c.val := rfl

/-- A trip of the first loop as a tile number. -/
def tile1 (k : Fin k0_t1_loop.trips) : Fin 8 := ⟨k.val, Nat.lt_of_lt_of_le k.isLt k0_t1_abs.2.1⟩
/-- A trip of the second loop as a tile number. -/
def tile2 (k : Fin k0_t2_loop.trips) : Fin 8 := ⟨k.val, Nat.lt_of_lt_of_le k.isLt k0_t2_abs.2.1⟩

theorem tile1_val (k : Fin k0_t1_loop.trips) : (tile1 k).val = k.val := rfl
theorem tile2_val (k : Fin k0_t2_loop.trips) : (tile2 k).val = k.val := rfl

/-! ## Layout: a vector as a column, a vector as a row, each spread over the block -/

section Layout
variable {α : Type}

/-- An [a] vector cast to [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 128 spread down the columns of the 128 x 1024 block reads, at (p, c), the vector at p. -/
theorem colSpread_apply (x : S128.Idx → α) (p : Fin 128) (c : Fin 1024) :
    broadcastTo S128x1024 (shapeCast S128x1 x shapeCasts_S128_S128x1) broadcasts_S128x1_S128x1024 (ix2 p c) = x (ix1 p) :=
  (broadcastTo_a1_ab_apply _ broadcasts_S128x1_S128x1024 p c).trans (shapeCast_a_a1_apply x shapeCasts_S128_S128x1 p 0)

/-- A vector of 1024 spread along the rows of the 128 x 1024 block reads, at (p, c), the vector at c. -/
theorem rowSpread_apply (y : S1024.Idx → α) (p : Fin 128) (c : Fin 1024) :
    broadcastTo S128x1024 (shapeCast S1x1024 y shapeCasts_S1024_S1x1024) broadcasts_S1x1024_S128x1024 (ix2 p c) = y (ix1 c) :=
  (broadcastTo_1b_ab_apply _ broadcasts_S1x1024_S128x1024 p c).trans (shapeCast_a_1a_apply y shapeCasts_S1024_S1x1024 0 c)

end Layout

/-! ## The labels -/

section Labels
variable (L : Fin 8192 → BitVec 32) (t : Fin 64) (kk : Fin 8)
variable (lrow : Vec Ideal S128 .i32) (lcol : Vec Ideal S1024 .i32)

/-- The comparison of the row labels, spread down the columns, with the tile's labels, spread along the rows, is at
    (p, c) the specification's "same label" bit of rows 128 t + p and 1024 k + c. -/
theorem sameBlk_apply (hlrow : ∀ p : Fin 128, lrow (ix1 p) = L (row t p)) (hlcol : ∀ c : Fin 1024, lcol (ix1 c) = L (col kk c))
    (p : Fin 128) (c : Fin 1024) :
    cmpi .eq (broadcastTo S128x1024 (shapeCast S128x1 lrow shapeCasts_S128_S128x1) broadcasts_S128x1_S128x1024)
        (broadcastTo S128x1024 (shapeCast S1x1024 lcol shapeCasts_S1024_S1x1024) broadcasts_S1x1024_S128x1024) (ix2 p c)
      = same L (row t p) (col kk c) := by
  show IntOp.cmpi .eq (broadcastTo S128x1024 (shapeCast S128x1 lrow shapeCasts_S128_S128x1) broadcasts_S128x1_S128x1024 (ix2 p c))
        (broadcastTo S128x1024 (shapeCast S1x1024 lcol shapeCasts_S1024_S1x1024) broadcasts_S1x1024_S128x1024 (ix2 p c)) = _
  rw [colSpread_apply lrow p c, rowSpread_apply lcol p c, hlrow p, hlcol c]
  rfl

/-- A bit xor-ed with the set bit is its complement. -/
theorem xori_one (b : BitVec 1) : IntOp.xori b 1#1 = ~~~ b := by
  rcases BitVec.eq_zero_or_eq_one b with h | h <;> subst h <;> decide

/-- The "different label" block at (p, c). -/
theorem pay13_apply (hlrow : ∀ p : Fin 128, lrow (ix1 p) = L (row t p)) (hlcol : ∀ c : Fin 1024, lcol (ix1 c) = L (col kk c))
    (p : Fin 128) (c : Fin 1024) :
    k0_pay13 (F := Ideal) lrow lcol (ix2 p c) = notSame L (row t p) (col kk c) := by
  unfold k0_pay13
  show IntOp.xori (cmpi .eq (broadcastTo S128x1024 (shapeCast S128x1 lrow shapeCasts_S128_S128x1) broadcasts_S128x1_S128x1024)
        (broadcastTo S128x1024 (shapeCast S1x1024 lcol shapeCasts_S1024_S1x1024) broadcasts_S1x1024_S128x1024) (ix2 p c)) 1#1 = _
  rw [sameBlk_apply L t kk lrow lcol hlrow hlcol p c, xori_one]
  rfl

end Labels

/-! ## The blocks of the distance computation, as functions of what they are formed from -/

section Blocks

/-- The squared norms of the tile's 1024 rows: the row sums of the squares. -/
def colSq (xcol : Vec Ideal S1024x512 .f32) : FVec Ideal S1024 .f32 :=
  multiReduction .add [1] S1024 (mulf xcol xcol) 0x00000000#32 reduces_S1024x512_S1024 (.inl rfl) rfl

/-- The inner products of the 128 rows with the tile's 1024 rows: the product with the transposed tile. -/
def dotBlk (v2 : FVec Ideal S128x512 .bf16) (xcol : Vec Ideal S1024x512 .f32) : FVec Ideal S128x1024 .f32 :=
  matmul dot_S128x512_S512x1024_S128x1024_1_0_0_1_n_n none v2
    (transpose S512x1024 [1, 0] (truncf .bf16 xcol bitsLt_bf16_f32) transposes_S1024x512_p1_0_S512x1024)
    (constant (F := Ideal) S128x1024 .f32 0x00000000#32)

/-- Where the global row index (first word plus the row number) equals the global column index (second word plus the
    column number). -/
def diagBlk (v0 v22 : BitVec 32) : IVec S128x1024 1 :=
  cmpi .eq (addi (broadcast S128x1024 v0) (iota .tc S128x1024 32 [0] iota_S128x1024_d0_w32))
    (addi (broadcast S128x1024 v22) (iota .tc S128x1024 32 [1] iota_S128x1024_d1_w32))

/-- The clamped squared distances, zero on the diagonal. -/
def sqBlk (v0 v22 : BitVec 32) (sqr : FVec Ideal S128 .f32) (sqc : FVec Ideal S1024 .f32) (dot : FVec Ideal S128x1024 .f32) :
    FVec Ideal S128x1024 .f32 :=
  select (diagBlk v0 v22) (broadcast S128x1024 (Scalar.ofBits (F := Ideal) .f32 0x00000000#32))
    (maximumf
      (subf
        (addf (broadcastTo S128x1024 (shapeCast S128x1 sqr shapeCasts_S128_S128x1) broadcasts_S128x1_S128x1024)
          (broadcastTo S128x1024 (shapeCast S1x1024 sqc shapeCasts_S1024_S1x1024) broadcasts_S1x1024_S128x1024))
        (mulf (broadcast S128x1024 (Scalar.ofBits (F := Ideal) .f32 0x40000000#32)) dot))
      (broadcast S128x1024 (Scalar.ofBits (F := Ideal) .f32 0x00000000#32)))

/-- Where a block of squared distances is positive. -/
def nzBlk (v48 : FVec Ideal S128x1024 .f32) : IVec S128x1024 1 :=
  cmpf .ogt v48 (broadcast S128x1024 (Scalar.ofBits (F := Ideal) .f32 0x00000000#32))

/-- The distances: the root where the square is positive, else zero. -/
def distBlk (v48 : FVec Ideal S128x1024 .f32) : FVec Ideal S128x1024 .f32 :=
  select (nzBlk v48)
    (sqrt (select (nzBlk v48) v48 (broadcast S128x1024 (Scalar.ofBits (F := Ideal) .f32 0x3F800000#32))))
    (broadcast S128x1024 (Scalar.ofBits (F := Ideal) .f32 0x00000000#32))

/-- Where the row's label equals the column's. -/
def sameBlk (lrow : Vec Ideal S128 .i32) (lcol : Vec Ideal S1024 .i32) : IVec S128x1024 1 :=
  cmpi .eq (broadcastTo S128x1024 (shapeCast S128x1 lrow shapeCasts_S128_S128x1) broadcasts_S128x1_S128x1024)
    (broadcastTo S128x1024 (shapeCast S1x1024 lcol shapeCasts_S1024_S1x1024) broadcasts_S1x1024_S128x1024)

/-- The distance payload of the second loop is the distance block of the squared-distance block. -/
theorem pay12_eq (v0 : BitVec 32) (v2 : FVec Ideal S128x512 .bf16) (v4 : FVec Ideal S128 .f32) (c0 c1 : BitVec 32)
    (k : Fin k0_t2_loop.trips) (xcol : Vec Ideal S1024x512 .f32) :
    k0_pay12 (F := Ideal) v0 v2 v4 c0 c1 k xcol
      = distBlk (sqBlk v0 (Scalar.muli (Scf.iv c0 c1 k) 1024#32) v4 (colSq xcol) (dotBlk v2 xcol)) := rfl

/-- The label payload of the second loop is the complement of the same-label block. -/
theorem pay13_eq (lrow : Vec Ideal S128 .i32) (lcol : Vec Ideal S1024 .i32) :
    k0_pay13 (F := Ideal) lrow lcol = xori (sameBlk lrow lcol) (constantI S128x1024 1 1#1) := rfl

/-- The first loop's payload: the running maximum with the tile's maximum of the distances over the entries of the
    same label and positive squared distance. -/
theorem pay11_eq (v0 : BitVec 32) (v2 : FVec Ideal S128x512 .bf16) (v4 : FVec Ideal S128 .f32) (lrow : Vec Ideal S128 .i32)
    (c0 c1 : BitVec 32) (k : Fin k0_t1_loop.trips) (arg7 : FVec Ideal S128 .f32) (xcol : Vec Ideal S1024x512 .f32)
    (lcol : Vec Ideal S1024 .i32) :
    k0_pay11 (F := Ideal) v0 v2 v4 lrow c0 c1 k arg7 xcol lcol
      = maximumf arg7
          (multiReduction .maximumf [1] S128
            (select
              (andi (sameBlk lrow lcol) (nzBlk (sqBlk v0 (Scalar.muli (Scf.iv c0 c1 k) 1024#32) v4 (colSq xcol) (dotBlk v2 xcol))))
              (distBlk (sqBlk v0 (Scalar.muli (Scf.iv c0 c1 k) 1024#32) v4 (colSq xcol) (dotBlk v2 xcol)))
              (broadcast S128x1024 (Named.named (F := Ideal) κ "neg_big" 0xFF61B1E6#32)))
            0xFF800000#32 reduces_S128x1024_S128 (.inl rfl) rfl) := rfl

end Blocks

/-! ## Squared norms and inner products at an entry -/

section Norms
variable (X : Fin 8192 → Fin 512 → EReal) (t : Fin 64) (kk : Fin 8)
variable (xrow : Vec Ideal S128x512 .f32) (xcol : Vec Ideal S1024x512 .f32)

/-- The index of the 128 x 512 block over row p with q put on the summed axis is (p, q). -/
theorem lift_row (p : Fin 128) (q : Fin 512) : reduces_S128x512_S128.lift (ix1 p) q = ix2 p q :=
  funext fun a => match a with | ⟨0, _⟩ => rfl | ⟨1, _⟩ => rfl

/-- The index of the 1024 x 512 tile over row c with q put on the summed axis is (c, q). -/
theorem lift_col (c : Fin 1024) (q : Fin 512) : reduces_S1024x512_S1024.lift (ix1 c) q = ix2 c q :=
  funext fun a => match a with | ⟨0, _⟩ => rfl | ⟨1, _⟩ => rfl

/-- The row sums of squares of the block of 128 rows are those rows' squared norms. -/
theorem rowSq_apply (hrow : ∀ (p : Fin 128) (q : Fin 512), xrow (ix2 p q) = X (row t p) q) (p : Fin 128) :
    k0_pay2 (F := Ideal) xrow (ix1 p) = sqn X (row t p) := by
  unfold k0_pay2
  refine (Ideal.multiReduction_add_single (mulf xrow xrow) 0x00000000#32 reduces_S128x512_S128 (.inl rfl) rfl (ix1 p)).trans ?_
  unfold sqn
  refine Finset.sum_congr rfl fun q _ => ?_
  rw [lift_row p q]
  show xrow (ix2 p q) * xrow (ix2 p q) = _
  rw [hrow p q]

/-- The row sums of squares of the tile are its rows' squared norms. -/
theorem colSq_apply (hcol : ∀ (c : Fin 1024) (q : Fin 512), xcol (ix2 c q) = X (col kk c) q) (c : Fin 1024) :
    colSq xcol (ix1 c) = sqn X (col kk c) := by
  unfold colSq
  refine (Ideal.multiReduction_add_single (mulf xcol xcol) 0x00000000#32 reduces_S1024x512_S1024 (.inl rfl) rfl (ix1 c)).trans ?_
  unfold sqn
  refine Finset.sum_congr rfl fun q _ => ?_
  rw [lift_col c q]
  show xcol (ix2 c q) * xcol (ix2 c q) = _
  rw [hcol c q]

/-! The operand indices of the matrix product, axis by axis. -/

theorem lhs_dot_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide),
    dif_pos (show (0 : Fin S128x512.rank) ∈ dot_S128x512_S512x1024_S128x1024_1_0_0_1_n_n.lhsNonContracting by decide)]
  rfl
theorem lhs_dot_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem rhs_dot_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem rhs_dot_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide),
    dif_pos (show (1 : Fin S512x1024.rank) ∈ dot_S128x512_S512x1024_S128x1024_1_0_0_1_n_n.rhsNonContracting by decide)]
  rfl

/-- The product of the block of 128 rows with the transposed tile is, at (p, c), the inner product of row 128 t + p
    with row 1024 k + c. -/
theorem dotBlk_apply (hrow : ∀ (p : Fin 128) (q : Fin 512), xrow (ix2 p q) = X (row t p) q)
    (hcol : ∀ (c : Fin 1024) (q : Fin 512), xcol (ix2 c q) = X (col kk c) q) (p : Fin 128) (c : Fin 1024) :
    dotBlk (k0_pay1 (F := Ideal) xrow) xcol (ix2 p c) = dotp X (row t p) (col kk c) := by
  unfold dotBlk
  refine (Ideal.matmul_constant_zero_apply dot_S128x512_S512x1024_S128x1024_1_0_0_1_n_n none _ _ (ix2 p c)).trans ?_
  rw [← Equiv.sum_comp (ValueIdx.contrEquiv1 dot_S128x512_S512x1024_S128x1024_1_0_0_1_n_n 512 rfl rfl).symm]
  unfold dotp
  refine Finset.sum_congr rfl fun q _ => ?_
  have hk := ValueIdx.contrEquiv1_symm_val dot_S128x512_S512x1024_S128x1024_1_0_0_1_n_n 512 rfl rfl q
  have el : dot_S128x512_S512x1024_S128x1024_1_0_0_1_n_n.lhsIdx (ix2 p c)
      ((ValueIdx.contrEquiv1 dot_S128x512_S512x1024_S128x1024_1_0_0_1_n_n 512 rfl rfl).symm q) = ix2 p q :=
    funext fun a => Fin.ext (by
      match a with
      | ⟨0, _⟩ => exact lhs_dot_0 _ _
      | ⟨1, _⟩ => exact (lhs_dot_1 _ _).trans hk)
  have er : dot_S128x512_S512x1024_S128x1024_1_0_0_1_n_n.rhsIdx (ix2 p c)
      ((ValueIdx.contrEquiv1 dot_S128x512_S512x1024_S128x1024_1_0_0_1_n_n 512 rfl rfl).symm q) = ix2 q c :=
    funext fun a => Fin.ext (by
      match a with
      | ⟨0, _⟩ => exact (rhs_dot_0 _ _).trans hk
      | ⟨1, _⟩ => exact rhs_dot_1 _ _)
  rw [el, er, transpose_ix2_apply]
  show xrow (ix2 p q) * xcol (ix2 c q) = _
  rw [hrow p q, hcol c q]

end Norms

/-! ## The diagonal mask: global row index against global column index, as 32-bit words -/

section Diagonal

theorem ofBool_eq_one_iff' (b : Bool) : BitVec.ofBool b = 1#1 ↔ b = true := by cases b <;> decide

/-- The comparison for equality gives the set bit exactly on equal words. -/
theorem cmpi_eq_one_iff {w : Nat} (a b : BitVec w) : IntOp.cmpi .eq a b = 1#1 ↔ a = b := by
  show BitVec.ofBool (a == b) = 1#1 ↔ a = b
  rw [ofBool_eq_one_iff']
  exact beq_iff_eq

/-- The word 128 t + p: no wrap, all below 8192. -/
theorem rowWord_toNat (t : Fin 64) (p : Fin 128) :
    (IntOp.addi (Scalar.muli (BitVec.ofNat 32 t.val) 128#32) (BitVec.ofNat 32 p.val)).toNat = 128 * t.val + p.val := by
  have ht := t.isLt
  have hp := p.isLt
  simp only [IntOp.addi, Scalar.muli, IntOp.muli, BitVec.toNat_add, BitVec.toNat_mul, BitVec.toNat_ofNat, Nat.reducePow, Nat.reduceMod]
  omega

/-- The word 1024 n + c for a trip n below 8: no wrap. -/
theorem colWord_toNat (n : ℕ) (hn : n < 8) (c : Fin 1024) :
    (IntOp.addi (Scalar.muli (Scf.iv 0#32 1#32 n) 1024#32) (BitVec.ofNat 32 c.val)).toNat = 1024 * n + c.val := by
  have hc := c.isLt
  simp only [IntOp.addi, Scalar.muli, IntOp.muli, Scf.iv, BitVec.toNat_add, BitVec.toNat_mul, BitVec.toNat_ofNat, Nat.reducePow,
    Nat.reduceMod]
  omega

/-- The mask is set at (p, c) exactly when row 128 t + p is row 1024 n + c. -/
theorem diagBlk_iff (t : Fin 64) (n : ℕ) (hn : n < 8) (p : Fin 128) (c : Fin 1024) :
    diagBlk (Scalar.muli (BitVec.ofNat 32 t.val) 128#32) (Scalar.muli (Scf.iv 0#32 1#32 n) 1024#32) (ix2 p c) = 1#1
      ↔ row t p = col ⟨n, hn⟩ c := by
  unfold diagBlk
  show IntOp.cmpi .eq
      (IntOp.addi (Scalar.muli (BitVec.ofNat 32 t.val) 128#32) (iota .tc S128x1024 32 [0] iota_S128x1024_d0_w32 (ix2 p c)))
      (IntOp.addi (Scalar.muli (Scf.iv 0#32 1#32 n) 1024#32) (iota .tc S128x1024 32 [1] iota_S128x1024_d1_w32 (ix2 p c))) = 1#1 ↔ _
  rw [iota_single_apply, iota_single_apply, cmpi_eq_one_iff, ← BitVec.toNat_inj]
  show (IntOp.addi (Scalar.muli (BitVec.ofNat 32 t.val) 128#32) (BitVec.ofNat 32 p.val)).toNat
      = (IntOp.addi (Scalar.muli (Scf.iv 0#32 1#32 n) 1024#32) (BitVec.ofNat 32 c.val)).toNat ↔ _
  rw [rowWord_toNat, colWord_toNat n hn, Fin.ext_iff]
  rfl

end Diagonal

/-! ## The squared distance, its positivity mask and the distance at an entry -/

section Distance
variable (X : Fin 8192 → Fin 512 → EReal) (t : Fin 64)
variable (xrow : Vec Ideal S128x512 .f32) (xcol : Vec Ideal S1024x512 .f32)

/-- The block of clamped squared distances at (p, c), for the tile of a trip n below 8. -/
theorem sqBlk_apply (n : ℕ) (hn : n < 8) (hrow : ∀ (p : Fin 128) (q : Fin 512), xrow (ix2 p q) = X (row t p) q)
    (hcol : ∀ (c : Fin 1024) (q : Fin 512), xcol (ix2 c q) = X (col ⟨n, hn⟩ c) q) (p : Fin 128) (c : Fin 1024) :
    sqBlk (Scalar.muli (BitVec.ofNat 32 t.val) 128#32) (Scalar.muli (Scf.iv 0#32 1#32 n) 1024#32) (k0_pay2 (F := Ideal) xrow)
        (colSq xcol) (dotBlk (k0_pay1 (F := Ideal) xrow) xcol) (ix2 p c)
      = d2 X (row t p) (col ⟨n, hn⟩ c) := by
  unfold sqBlk d2
  simp only [select_apply, broadcast_apply, maximumf_apply, subf_apply, addf_apply, mulf_apply, colSpread_apply, rowSpread_apply,
    rowSq_apply X t xrow hrow, colSq_apply X ⟨n, hn⟩ xcol hcol, dotBlk_apply X t ⟨n, hn⟩ xrow xcol hrow hcol]
  by_cases h : row t p = col ⟨n, hn⟩ c
  · rw [(diagBlk_iff t n hn p c).2 h, select_one, if_pos h]
    rfl
  · rw [eq_zero_of_ne_one (fun e => h ((diagBlk_iff t n hn p c).1 e)), select_zero, if_neg h]
    rfl

variable (v48 : FVec Ideal S128x1024 .f32) (r j : Fin 8192) (p : Fin 128) (c : Fin 1024)

/-- Where a block holds the squared distance of rows r and j, its positivity mask holds theirs. -/
theorem nzBlk_apply_of (h : v48 (ix2 p c) = d2 X r j) : nzBlk v48 (ix2 p c) = nz X r j := by
  show Ideal.cmp .ogt (v48 (ix2 p c)) c0 = Ideal.cmp .ogt (d2 X r j) c0
  rw [h]

/-- Where a block holds the squared distance of rows r and j, its distance block holds their distance. -/
theorem distBlk_apply_of (h : v48 (ix2 p c) = d2 X r j) : distBlk v48 (ix2 p c) = dist X r j := by
  show Scalar.select (nzBlk v48 (ix2 p c)) (Ideal.sqrt (Scalar.select (nzBlk v48 (ix2 p c)) (v48 (ix2 p c)) c1)) c0 = _
  rw [nzBlk_apply_of X v48 r j p c h, h]
  rfl

end Distance

/-! ## The payloads at an entry -/

section Payloads
variable (X : Fin 8192 → Fin 512 → EReal) (t : Fin 64)
variable (xrow : Vec Ideal S128x512 .f32) (xcol : Vec Ideal S1024x512 .f32)

/-- Second loop, trip k: the block of squared distances at (p, c). -/
theorem sqBlk2_apply (k : Fin k0_t2_loop.trips) (hrow : ∀ (p : Fin 128) (q : Fin 512), xrow (ix2 p q) = X (row t p) q)
    (hcol : ∀ (c : Fin 1024) (q : Fin 512), xcol (ix2 c q) = X (col (tile2 k) c) q) (p : Fin 128) (c : Fin 1024) :
    sqBlk (Scalar.muli (BitVec.ofNat 32 t.val) 128#32) (Scalar.muli (Scf.iv 0#32 1#32 k) 1024#32) (k0_pay2 (F := Ideal) xrow)
        (colSq xcol) (dotBlk (k0_pay1 (F := Ideal) xrow) xcol) (ix2 p c)
      = d2 X (row t p) (col (tile2 k) c) :=
  sqBlk_apply X t xrow xcol k.val (tile2 k).isLt hrow hcol p c

/-- First loop, trip k: the block of squared distances at (p, c). -/
theorem sqBlk1_apply (k : Fin k0_t1_loop.trips) (hrow : ∀ (p : Fin 128) (q : Fin 512), xrow (ix2 p q) = X (row t p) q)
    (hcol : ∀ (c : Fin 1024) (q : Fin 512), xcol (ix2 c q) = X (col (tile1 k) c) q) (p : Fin 128) (c : Fin 1024) :
    sqBlk (Scalar.muli (BitVec.ofNat 32 t.val) 128#32) (Scalar.muli (Scf.iv 0#32 1#32 k) 1024#32) (k0_pay2 (F := Ideal) xrow)
        (colSq xcol) (dotBlk (k0_pay1 (F := Ideal) xrow) xcol) (ix2 p c)
      = d2 X (row t p) (col (tile1 k) c) :=
  sqBlk_apply X t xrow xcol k.val (tile1 k).isLt hrow hcol p c

/-- Second loop, trip k: the mask of positive squared distances at (p, c). -/
theorem nzBlk_apply (k : Fin k0_t2_loop.trips) (hrow : ∀ (p : Fin 128) (q : Fin 512), xrow (ix2 p q) = X (row t p) q)
    (hcol : ∀ (c : Fin 1024) (q : Fin 512), xcol (ix2 c q) = X (col (tile2 k) c) q) (p : Fin 128) (c : Fin 1024) :
    nzBlk (sqBlk (Scalar.muli (BitVec.ofNat 32 t.val) 128#32) (Scalar.muli (Scf.iv 0#32 1#32 k) 1024#32) (k0_pay2 (F := Ideal) xrow)
        (colSq xcol) (dotBlk (k0_pay1 (F := Ideal) xrow) xcol)) (ix2 p c)
      = nz X (row t p) (col (tile2 k) c) :=
  nzBlk_apply_of X _ _ _ p c (sqBlk2_apply X t xrow xcol k hrow hcol p c)

/-- First loop, trip k: the mask of positive squared distances at (p, c). -/
theorem nzBlk1_apply (k : Fin k0_t1_loop.trips) (hrow : ∀ (p : Fin 128) (q : Fin 512), xrow (ix2 p q) = X (row t p) q)
    (hcol : ∀ (c : Fin 1024) (q : Fin 512), xcol (ix2 c q) = X (col (tile1 k) c) q) (p : Fin 128) (c : Fin 1024) :
    nzBlk (sqBlk (Scalar.muli (BitVec.ofNat 32 t.val) 128#32) (Scalar.muli (Scf.iv 0#32 1#32 k) 1024#32) (k0_pay2 (F := Ideal) xrow)
        (colSq xcol) (dotBlk (k0_pay1 (F := Ideal) xrow) xcol)) (ix2 p c)
      = nz X (row t p) (col (tile1 k) c) :=
  nzBlk_apply_of X _ _ _ p c (sqBlk1_apply X t xrow xcol k hrow hcol p c)

/-- First loop, trip k: the block of distances at (p, c). -/
theorem distBlk1_apply (k : Fin k0_t1_loop.trips) (hrow : ∀ (p : Fin 128) (q : Fin 512), xrow (ix2 p q) = X (row t p) q)
    (hcol : ∀ (c : Fin 1024) (q : Fin 512), xcol (ix2 c q) = X (col (tile1 k) c) q) (p : Fin 128) (c : Fin 1024) :
    distBlk (sqBlk (Scalar.muli (BitVec.ofNat 32 t.val) 128#32) (Scalar.muli (Scf.iv 0#32 1#32 k) 1024#32) (k0_pay2 (F := Ideal) xrow)
        (colSq xcol) (dotBlk (k0_pay1 (F := Ideal) xrow) xcol)) (ix2 p c)
      = dist X (row t p) (col (tile1 k) c) :=
  distBlk_apply_of X _ _ _ p c (sqBlk1_apply X t xrow xcol k hrow hcol p c)

/-- Second loop, trip k: the distance payload at (p, c) is the distance of rows 128 t + p and 1024 k + c. -/
theorem pay12_apply (k : Fin k0_t2_loop.trips) (hrow : ∀ (p : Fin 128) (q : Fin 512), xrow (ix2 p q) = X (row t p) q)
    (hcol : ∀ (c : Fin 1024) (q : Fin 512), xcol (ix2 c q) = X (col (tile2 k) c) q) (p : Fin 128) (c : Fin 1024) :
    k0_pay12 (F := Ideal) (Scalar.muli (BitVec.ofNat 32 t.val) 128#32) (k0_pay1 (F := Ideal) xrow) (k0_pay2 (F := Ideal) xrow)
        0#32 1#32 k xcol (ix2 p c)
      = dist X (row t p) (col (tile2 k) c) := by
  rw [pay12_eq]
  exact distBlk_apply_of X _ _ _ p c (sqBlk2_apply X t xrow xcol k hrow hcol p c)

/-- The same-label block at (p, c), for the tile kk. -/
theorem sameBlk_eq_same (L : Fin 8192 → BitVec 32) (kk : Fin 8) (lrow : Vec Ideal S128 .i32) (lcol : Vec Ideal S1024 .i32)
    (hlrow : ∀ p : Fin 128, lrow (ix1 p) = L (row t p)) (hlcol : ∀ c : Fin 1024, lcol (ix1 c) = L (col kk c))
    (p : Fin 128) (c : Fin 1024) : sameBlk lrow lcol (ix2 p c) = same L (row t p) (col kk c) :=
  sameBlk_apply L t kk lrow lcol hlrow hlcol p c

end Payloads

end Cert.KernelIdeal.TriDist

end
-- ==== Proof.KI.PayRed.lean ====
/-
  What the reductions of the kernel body make of a tile's blocks.

  The body keeps, per row of its 128-row block, a running maximum (first loop) and two running minima and a
  running disjunction (second loop). Each trip reduces a 128 x 1024 block along its columns and folds the result
  into the carried value. Read at one row p, a column reduction is the fold of max (from -inf) or of min (from
  +inf) over the 1024 columns of that row; the fill value of a masked-out column is the fold's neutral element,
  so the masked fold is the fold of the select.

  Each reduction is first read for arbitrary blocks; then, with the blocks' entries identified with the specification's
  distance, label equality and positivity of a pair of rows, each carried value after a trip is the specification's
  tile step applied to the carried value before it.
-/
import proofs.«135888_j52630529245412_1_alg».proof.Proof.Gen.KernelIdeal.Skeleton
import proofs.«135888_j52630529245412_1_alg».proof.Proof.Tri.Spec
import proofs.«135888_j52630529245412_1_alg».proof.Proof.KI.PayDist
import Idealize.ShloMosaic.Lib.ValueIdx
import Idealize.ShloMosaic.PureOps.Ideal.Laws
import Idealize.ShloMosaic.PureOps.IdealRules

noncomputable section

namespace Cert.KernelIdeal.TriVal

open Cert.KernelIdeal Cert.KernelIdeal.Gen Cert.KernelIdeal.TriDist Cert.Triplet Idealize.ShloMosaic Idealize.ShloMosaic.ValueIdx

/-! ## Words and named constants -/

/-- The pattern of -inf denotes the bottom element. -/
theorem ofBits_ninf : Ideal.ofBits .f32 0xFF800000#32 = ⊥ := by
  simp [Ideal.ofBits, Ideal.ieee]

/-- The pattern of +inf denotes the top element. -/
theorem ofBits_pinf : Ideal.ofBits .f32 0x7F800000#32 = ⊤ := by
  simp [Ideal.ofBits, Ideal.ieee]

/-- The large negative fill is named the bottom element. -/
theorem named_neg_big : Named.named (F := Ideal) κ "neg_big" (φ := .f32) 0xFF61B1E6#32 = (⊥ : EReal) :=
  IdealRules.named_const.ideal_named_scalar _ _ _ _ rfl

/-- The large positive fill is named the top element. -/
theorem named_pos_big : Named.named (F := Ideal) κ "pos_big" (φ := .f32) 0x7F61B1E6#32 = (⊤ : EReal) :=
  IdealRules.named_const.ideal_named_scalar _ _ _ _ rfl

/-! ## A column reduction read at a row -/

/-- A minimum reduction over one axis is the fold of min from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row p of the reduced shape with column c put back is the entry (p, c). -/
theorem lift_ix (h : S128x1024.Reduces [1] S128) (p : Fin 128) (c : Fin 1024) :
    h.lift (ix1 p) c = ix2 p c := by
  funext d
  apply Fin.ext
  match d with
  | ⟨0, _⟩ => rfl
  | ⟨1, _⟩ => rfl

/-- The column maximum of a block at row p. -/
theorem rowMax (src : FVec Ideal S128x1024 .f32) (p : Fin 128) :
    multiReduction .maximumf [1] S128 src 0xFF800000#32 reduces_S128x1024_S128 (.inl rfl) rfl (ix1 p)
      = Finset.univ.fold max ⊥ (fun c : Fin 1024 => src (ix2 p c)) := by
  refine (Ideal.multiReduction_maximumf_single src _ reduces_S128x1024_S128 (.inl rfl) rfl (ix1 p)).trans ?_
  show Finset.univ.fold max (Ideal.ofBits .f32 0xFF800000#32) _ = _
  rw [ofBits_ninf]
  refine congrArg (Finset.univ.fold max ⊥) (funext fun c => ?_)
  exact congrArg src (lift_ix _ p c)

/-- The column minimum of a block at row p. -/
theorem rowMin (src : FVec Ideal S128x1024 .f32) (p : Fin 128) :
    multiReduction .minimumf [1] S128 src 0x7F800000#32 reduces_S128x1024_S128 (.inl rfl) rfl (ix1 p)
      = Finset.univ.fold min ⊤ (fun c : Fin 1024 => src (ix2 p c)) := by
  refine (multiReduction_minimumf_single src _ reduces_S128x1024_S128 (.inl rfl) rfl (ix1 p)).trans ?_
  show Finset.univ.fold min (Ideal.ofBits .f32 0x7F800000#32) _ = _
  rw [ofBits_pinf]
  refine congrArg (Finset.univ.fold min ⊤) (funext fun c => ?_)
  exact congrArg src (lift_ix _ p c)

/-! ## The loops' initial values -/

theorem pay3_apply (p : Fin 128) : k0_pay3 (F := Ideal) (ix1 p) = (⊥ : EReal) := named_neg_big
theorem pay4_apply (p : Fin 128) : k0_pay4 (F := Ideal) (ix1 p) = (⊤ : EReal) := named_pos_big
theorem pay5_apply (p : Fin 128) : k0_pay5 (F := Ideal) (ix1 p) = (⊤ : EReal) := named_pos_big
theorem pay6_apply (p : Fin 128) : k0_pay6 (ix1 p) = 0#1 := rfl

/-! ## The second loop's three carried values after a trip -/

/-- The running minimum over the masked block: the carried value against the row's minimum of the distances on the
    masked columns. -/
theorem pay7_apply (a7 : FVec Ideal S128 .f32) (v55 : FVec Ideal S128x1024 .f32) (v67 : IVec S128x1024 1) (p : Fin 128) :
    k0_pay7 (F := Ideal) a7 v55 v67 (Named.named κ "pos_big" 0x7F61B1E6#32) (ix1 p)
      = min (a7 (ix1 p)) (Finset.univ.fold min ⊤ (fun c : Fin 1024 => Scalar.select (v67 (ix2 p c)) (v55 (ix2 p c)) ⊤)) := by
  unfold k0_pay7
  show min (a7 (ix1 p)) (multiReduction .minimumf [1] S128 _ 0x7F800000#32 reduces_S128x1024_S128 (.inl rfl) rfl (ix1 p)) = _
  rw [rowMin]
  refine congrArg (min (a7 (ix1 p))) (congrArg (Finset.univ.fold min ⊤) (funext fun c => ?_))
  show Scalar.select (v67 (ix2 p c)) (v55 (ix2 p c)) (Named.named (F := Ideal) κ "pos_big" (φ := .f32) 0x7F61B1E6#32) = _
  rw [named_pos_big]

/-- The same with the other mask; the fill is the payload's own constant. -/
theorem pay8_apply (a8 : FVec Ideal S128 .f32) (v55 : FVec Ideal S128x1024 .f32) (v63 : IVec S128x1024 1) (p : Fin 128) :
    k0_pay8 (F := Ideal) a8 v55 v63 (ix1 p)
      = min (a8 (ix1 p)) (Finset.univ.fold min ⊤ (fun c : Fin 1024 => Scalar.select (v63 (ix2 p c)) (v55 (ix2 p c)) ⊤)) := by
  unfold k0_pay8
  show min (a8 (ix1 p)) (multiReduction .minimumf [1] S128 _ 0x7F800000#32 reduces_S128x1024_S128 (.inl rfl) rfl (ix1 p)) = _
  rw [rowMin]
  refine congrArg (min (a8 (ix1 p))) (congrArg (Finset.univ.fold min ⊤) (funext fun c => ?_))
  show Scalar.select (v63 (ix2 p c)) (v55 (ix2 p c)) (Named.named (F := Ideal) κ "pos_big" (φ := .f32) 0x7F61B1E6#32) = _
  rw [named_pos_big]

/-- The running disjunction: whether the row's maximum of the mask's indicator is positive. -/
theorem pay9_apply (a9 : IVec S128 1) (v67 : IVec S128x1024 1) (p : Fin 128) :
    k0_pay9 (F := Ideal) a9 v67 (ix1 p)
      = a9 (ix1 p) ||| Ideal.cmp .ogt (Finset.univ.fold max ⊥ (fun c : Fin 1024 => Scalar.select (v67 (ix2 p c)) c1 c0)) c0 := by
  have h0 : k0_pay9 (F := Ideal) a9 v67 (ix1 p)
      = a9 (ix1 p) ||| FloatOps.cmpf .ogt (multiReduction .maximumf [1] S128
          (select v67 (broadcast S128x1024 (Scalar.ofBits (F := Ideal) .f32 0x3F800000#32))
            (broadcast S128x1024 (Scalar.ofBits (F := Ideal) .f32 0x00000000#32)))
          0xFF800000#32 reduces_S128x1024_S128 (.inl rfl) rfl (ix1 p)) (Scalar.ofBits (F := Ideal) .f32 0x00000000#32) := rfl
  rw [h0, rowMax]
  rfl

/-- The row's loss from the carried values. -/
theorem pay10_apply (v8 a b : FVec Ideal S128 .f32) (s : IVec S128 1) (p : Fin 128) :
    k0_pay10 (F := Ideal) v8 a b s (ix1 p)
      = max (v8 (ix1 p) - Scalar.select (s (ix1 p)) (a (ix1 p)) (b (ix1 p)) + cMargin) c0 := rfl

/-! ## The second loop's mask: another label and farther than the hardest positive -/

/-- Entry (p, c) of the mask: the label mask there, and the distance there above row p's carried maximum. -/
theorem pay14_apply (v0 : BitVec 32) (v2 : FVec Ideal S128x512 .bf16) (v4 : FVec Ideal S128 .f32) (v5 : Vec Ideal S128 .i32)
    (v8 : FVec Ideal S128 .f32) (c0w c1w : BitVec 32) (k : Fin k0_t2_loop.trips) (v24 : Vec Ideal S1024x512 .f32)
    (v57 : Vec Ideal S1024 .i32) (p : Fin 128) (c : Fin 1024) :
    k0_pay14 (F := Ideal) v0 v2 v4 v5 v8 c0w c1w k v24 v57 (ix2 p c)
      = IntOp.andi (k0_pay13 (F := Ideal) v5 v57 (ix2 p c))
          (Ideal.cmp .ogt (k0_pay12 (F := Ideal) v0 v2 v4 c0w c1w k v24 (ix2 p c)) (v8 (ix1 p))) := by
  unfold k0_pay14
  show IntOp.andi (k0_pay13 (F := Ideal) v5 v57 (ix2 p c))
      (Ideal.cmp .ogt (k0_pay12 (F := Ideal) v0 v2 v4 c0w c1w k v24 (ix2 p c))
        (broadcastTo S128x1024 (shapeCast S128x1 v8 shapeCasts_S128_S128x1) broadcasts_S128x1_S128x1024 (ix2 p c))) = _
  rw [colSpread_apply]

/-! ## Against the specification: one trip's step on a row -/

section Against

variable (X : Fin 8192 → Fin 512 → EReal) (L : Fin 8192 → BitVec 32)

/-- Second loop, semi-hard minimum: where along row p the distance block holds the distances of row r to the tile's
    columns and the mask their semi-hard bits, the carried minimum becomes its minimum with the tile's. -/
theorem pay7_spec (r : Fin 8192) (kk : Fin 8) (a7 : FVec Ideal S128 .f32) (v55 : FVec Ideal S128x1024 .f32)
    (v67 : IVec S128x1024 1) (p : Fin 128)
    (hdist : ∀ c : Fin 1024, v55 (ix2 p c) = dist X r (col kk c))
    (hsemi : ∀ c : Fin 1024, v67 (ix2 p c) = semiK X L r (col kk c)) :
    k0_pay7 (F := Ideal) a7 v55 v67 (Named.named κ "pos_big" 0x7F61B1E6#32) (ix1 p)
      = min (a7 (ix1 p)) (tileMinSemi X L r kk) := by
  rw [pay7_apply]
  unfold tileMinSemi
  refine congrArg (min (a7 (ix1 p))) (congrArg (Finset.univ.fold min ⊤) (funext fun c => ?_))
  rw [hdist, hsemi]

/-- Second loop, minimum over the columns of another label. -/
theorem pay8_spec (r : Fin 8192) (kk : Fin 8) (a8 : FVec Ideal S128 .f32) (v55 : FVec Ideal S128x1024 .f32)
    (v63 : IVec S128x1024 1) (p : Fin 128)
    (hdist : ∀ c : Fin 1024, v55 (ix2 p c) = dist X r (col kk c))
    (hns : ∀ c : Fin 1024, v63 (ix2 p c) = notSame L r (col kk c)) :
    k0_pay8 (F := Ideal) a8 v55 v63 (ix1 p) = min (a8 (ix1 p)) (tileMinAll X L r kk) := by
  rw [pay8_apply]
  unfold tileMinAll
  refine congrArg (min (a8 (ix1 p))) (congrArg (Finset.univ.fold min ⊤) (funext fun c => ?_))
  rw [hdist, hns]

/-- Second loop, whether a semi-hard column has been seen. -/
theorem pay9_spec (r : Fin 8192) (kk : Fin 8) (a9 : IVec S128 1) (v67 : IVec S128x1024 1) (p : Fin 128)
    (hsemi : ∀ c : Fin 1024, v67 (ix2 p c) = semiK X L r (col kk c)) :
    k0_pay9 (F := Ideal) a9 v67 (ix1 p) = a9 (ix1 p) ||| tileAny X L r kk := by
  rw [pay9_apply]
  unfold tileAny
  refine congrArg (fun x => a9 (ix1 p) ||| Ideal.cmp .ogt x c0) (congrArg (Finset.univ.fold max ⊥) (funext fun c => ?_))
  rw [hsemi]

/-- The stored loss of a row whose carried values are the specification's. -/
theorem pay10_spec (r : Fin 8192) (v8 a b : FVec Ideal S128 .f32) (s : IVec S128 1) (p : Fin 128)
    (hv8 : v8 (ix1 p) = hposK X L r) (ha : a (ix1 p) = (phase2K X L r).1) (hb : b (ix1 p) = (phase2K X L r).2.1)
    (hs : s (ix1 p) = (phase2K X L r).2.2) :
    k0_pay10 (F := Ideal) v8 a b s (ix1 p) = lossK X L r := by
  rw [pay10_apply, hv8, ha, hb, hs]
  rfl

/-- First loop: where along row p the blocks hold the specification's distance, label equality and positivity of row r
    against the tile's columns, the carried maximum becomes its maximum with the tile's hardest positive. -/
theorem pay11_apply_of (r : Fin 8192) (kk : Fin 8)
    (v0 : BitVec 32) (v2 : FVec Ideal S128x512 .bf16) (v4 : FVec Ideal S128 .f32) (lrow : Vec Ideal S128 .i32)
    (c0w c1w : BitVec 32) (k : Fin k0_t1_loop.trips) (arg7 : FVec Ideal S128 .f32) (xcol : Vec Ideal S1024x512 .f32)
    (lcol : Vec Ideal S1024 .i32) (p : Fin 128)
    (hdist : ∀ c : Fin 1024,
      distBlk (sqBlk v0 (Scalar.muli (Scf.iv c0w c1w k) 1024#32) v4 (colSq xcol) (dotBlk v2 xcol)) (ix2 p c) = dist X r (col kk c))
    (hsame : ∀ c : Fin 1024, sameBlk lrow lcol (ix2 p c) = same L r (col kk c))
    (hnz : ∀ c : Fin 1024,
      nzBlk (sqBlk v0 (Scalar.muli (Scf.iv c0w c1w k) 1024#32) v4 (colSq xcol) (dotBlk v2 xcol)) (ix2 p c) = nz X r (col kk c)) :
    k0_pay11 (F := Ideal) v0 v2 v4 lrow c0w c1w k arg7 xcol lcol (ix1 p) = max (arg7 (ix1 p)) (tilePos X L r kk) := by
  rw [pay11_eq]
  show max (arg7 (ix1 p)) (multiReduction .maximumf [1] S128 _ 0xFF800000#32 reduces_S128x1024_S128 (.inl rfl) rfl (ix1 p)) = _
  rw [rowMax]
  unfold tilePos
  refine congrArg (max (arg7 (ix1 p))) (congrArg (Finset.univ.fold max ⊥) (funext fun c => ?_))
  show Scalar.select
      (IntOp.andi (sameBlk lrow lcol (ix2 p c))
        (nzBlk (sqBlk v0 (Scalar.muli (Scf.iv c0w c1w k) 1024#32) v4 (colSq xcol) (dotBlk v2 xcol)) (ix2 p c)))
      (distBlk (sqBlk v0 (Scalar.muli (Scf.iv c0w c1w k) 1024#32) v4 (colSq xcol) (dotBlk v2 xcol)) (ix2 p c))
      (Named.named (F := Ideal) κ "neg_big" (φ := .f32) 0xFF61B1E6#32) = _
  rw [hsame, hnz, hdist, named_neg_big]
  rfl

variable (t : Fin 64) (xrow : Vec Ideal S128x512 .f32) (xcol : Vec Ideal S1024x512 .f32)
variable (lrow : Vec Ideal S128 .i32) (lcol : Vec Ideal S1024 .i32)

/-- First loop, trip k at grid point t, from what the loaded blocks hold: the carried maximum of row 128 t + p becomes
    its maximum with the hardest positive of tile k. -/
theorem pay11_apply (k : Fin k0_t1_loop.trips) (arg7 : FVec Ideal S128 .f32)
    (hrow : ∀ (p : Fin 128) (q : Fin 512), xrow (ix2 p q) = X (row t p) q)
    (hcol : ∀ (c : Fin 1024) (q : Fin 512), xcol (ix2 c q) = X (col (tile1 k) c) q)
    (hlrow : ∀ p : Fin 128, lrow (ix1 p) = L (row t p)) (hlcol : ∀ c : Fin 1024, lcol (ix1 c) = L (col (tile1 k) c))
    (p : Fin 128) :
    k0_pay11 (F := Ideal) (Scalar.muli (BitVec.ofNat 32 t.val) 128#32) (k0_pay1 (F := Ideal) xrow) (k0_pay2 (F := Ideal) xrow)
        lrow 0#32 1#32 k arg7 xcol lcol (ix1 p)
      = max (arg7 (ix1 p)) (tilePos X L (row t p) (tile1 k)) :=
  pay11_apply_of X L (row t p) (tile1 k) _ _ _ lrow 0#32 1#32 k arg7 xcol lcol p
    (fun c => distBlk1_apply X t xrow xcol k hrow hcol p c)
    (fun c => sameBlk_eq_same t L (tile1 k) lrow lcol hlrow hlcol p c)
    (fun c => nzBlk1_apply X t xrow xcol k hrow hcol p c)

/-- Second loop, trip k at grid point t: where the first loop's result at row p is the specification's hardest positive,
    entry (p, c) of the mask is the specification's semi-hard bit of rows 128 t + p and 1024 k + c. -/
theorem pay14_spec (k : Fin k0_t2_loop.trips) (v8 : FVec Ideal S128 .f32)
    (hrow : ∀ (p : Fin 128) (q : Fin 512), xrow (ix2 p q) = X (row t p) q)
    (hcol : ∀ (c : Fin 1024) (q : Fin 512), xcol (ix2 c q) = X (col (tile2 k) c) q)
    (hlrow : ∀ p : Fin 128, lrow (ix1 p) = L (row t p)) (hlcol : ∀ c : Fin 1024, lcol (ix1 c) = L (col (tile2 k) c))
    (p : Fin 128) (c : Fin 1024) (hv8 : v8 (ix1 p) = hposK X L (row t p)) :
    k0_pay14 (F := Ideal) (Scalar.muli (BitVec.ofNat 32 t.val) 128#32) (k0_pay1 (F := Ideal) xrow) (k0_pay2 (F := Ideal) xrow)
        lrow v8 0#32 1#32 k xcol lcol (ix2 p c)
      = semiK X L (row t p) (col (tile2 k) c) := by
  rw [pay14_apply, pay13_apply L t (tile2 k) lrow lcol hlrow hlcol p c, pay12_apply X t xrow xcol k hrow hcol p c, hv8]
  rfl

end Against

/-! ## The second loop's trip at a grid point, from what the loaded blocks hold -/

section Trip2

variable (X : Fin 8192 → Fin 512 → EReal) (L : Fin 8192 → BitVec 32)
variable (t : Fin 64) (xrow : Vec Ideal S128x512 .f32) (xcol : Vec Ideal S1024x512 .f32)
variable (lrow : Vec Ideal S128 .i32) (lcol : Vec Ideal S1024 .i32)

/-- Trip k: the carried semi-hard minimum of row 128 t + p becomes its minimum with tile k's. -/
theorem pay7_step (k : Fin k0_t2_loop.trips) (v8 a7 : FVec Ideal S128 .f32)
    (hrow : ∀ (p : Fin 128) (q : Fin 512), xrow (ix2 p q) = X (row t p) q)
    (hcol : ∀ (c : Fin 1024) (q : Fin 512), xcol (ix2 c q) = X (col (tile2 k) c) q)
    (hlrow : ∀ p : Fin 128, lrow (ix1 p) = L (row t p)) (hlcol : ∀ c : Fin 1024, lcol (ix1 c) = L (col (tile2 k) c))
    (p : Fin 128) (hv8 : v8 (ix1 p) = hposK X L (row t p)) :
    k0_pay7 (F := Ideal) a7
        (k0_pay12 (F := Ideal) (Scalar.muli (BitVec.ofNat 32 t.val) 128#32) (k0_pay1 (F := Ideal) xrow) (k0_pay2 (F := Ideal) xrow)
          0#32 1#32 k xcol)
        (k0_pay14 (F := Ideal) (Scalar.muli (BitVec.ofNat 32 t.val) 128#32) (k0_pay1 (F := Ideal) xrow) (k0_pay2 (F := Ideal) xrow)
          lrow v8 0#32 1#32 k xcol lcol)
        (Named.named κ "pos_big" 0x7F61B1E6#32) (ix1 p)
      = min (a7 (ix1 p)) (tileMinSemi X L (row t p) (tile2 k)) :=
  pay7_spec X L (row t p) (tile2 k) a7 _ _ p
    (fun c => pay12_apply X t xrow xcol k hrow hcol p c)
    (fun c => pay14_spec X L t xrow xcol lrow lcol k v8 hrow hcol hlrow hlcol p c hv8)

/-- Trip k: the carried minimum over the columns of another label becomes its minimum with tile k's. -/
theorem pay8_step (k : Fin k0_t2_loop.trips) (a8 : FVec Ideal S128 .f32)
    (hrow : ∀ (p : Fin 128) (q : Fin 512), xrow (ix2 p q) = X (row t p) q)
    (hcol : ∀ (c : Fin 1024) (q : Fin 512), xcol (ix2 c q) = X (col (tile2 k) c) q)
    (hlrow : ∀ p : Fin 128, lrow (ix1 p) = L (row t p)) (hlcol : ∀ c : Fin 1024, lcol (ix1 c) = L (col (tile2 k) c))
    (p : Fin 128) :
    k0_pay8 (F := Ideal) a8
        (k0_pay12 (F := Ideal) (Scalar.muli (BitVec.ofNat 32 t.val) 128#32) (k0_pay1 (F := Ideal) xrow) (k0_pay2 (F := Ideal) xrow)
          0#32 1#32 k xcol)
        (k0_pay13 (F := Ideal) lrow lcol) (ix1 p)
      = min (a8 (ix1 p)) (tileMinAll X L (row t p) (tile2 k)) :=
  pay8_spec X L (row t p) (tile2 k) a8 _ _ p
    (fun c => pay12_apply X t xrow xcol k hrow hcol p c)
    (fun c => pay13_apply L t (tile2 k) lrow lcol hlrow hlcol p c)

/-- Trip k: the carried disjunction takes in whether tile k has a semi-hard column for row 128 t + p. -/
theorem pay9_step (k : Fin k0_t2_loop.trips) (v8 : FVec Ideal S128 .f32) (a9 : IVec S128 1)
    (hrow : ∀ (p : Fin 128) (q : Fin 512), xrow (ix2 p q) = X (row t p) q)
    (hcol : ∀ (c : Fin 1024) (q : Fin 512), xcol (ix2 c q) = X (col (tile2 k) c) q)
    (hlrow : ∀ p : Fin 128, lrow (ix1 p) = L (row t p)) (hlcol : ∀ c : Fin 1024, lcol (ix1 c) = L (col (tile2 k) c))
    (p : Fin 128) (hv8 : v8 (ix1 p) = hposK X L (row t p)) :
    k0_pay9 (F := Ideal) a9
        (k0_pay14 (F := Ideal) (Scalar.muli (BitVec.ofNat 32 t.val) 128#32) (k0_pay1 (F := Ideal) xrow) (k0_pay2 (F := Ideal) xrow)
          lrow v8 0#32 1#32 k xcol lcol) (ix1 p)
      = a9 (ix1 p) ||| tileAny X L (row t p) (tile2 k) :=
  pay9_spec X L (row t p) (tile2 k) a9 _ p
    (fun c => pay14_spec X L t xrow xcol lrow lcol k v8 hrow hcol hlrow hlcol p c hv8)

end Trip2

end Cert.KernelIdeal.TriVal

end
-- ==== Proof.KI.Value.lean ====
/-
  The kernel's result, entry by entry.

  At grid point t the body sees rows 128 t .. 128 t + 127 of the embedding matrix and their labels as its two
  moving blocks, and the whole matrix and all labels as its two fixed blocks. Each trip of either loop loads
  rows 1024 k .. 1024 k + 1023 of the whole matrix and the same stretch of the labels. With X the matrix and L
  the labels as the region finds them, every block the body's arithmetic reads is therefore a block of X or of L,
  the vector the body stores holds in lane p the tiled loss of row 128 t + p, and the loss array after the run
  holds at entry r the tiled loss of row r.
-/
import proofs.«135888_j52630529245412_1_alg».proof.Proof.KI.Body
import proofs.«135888_j52630529245412_1_alg».proof.Proof.KI.Cover
import proofs.«135888_j52630529245412_1_alg».proof.Proof.KI.Trips
import proofs.«135888_j52630529245412_1_alg».proof.Proof.KI.PayRed
import proofs.«135888_j52630529245412_1_alg».proof.Proof.KI.PayDist

set_option maxRecDepth 8192

noncomputable section

namespace Cert.KernelIdeal.TriVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tri Cert.Triplet
open Idealize.ShloMosaic.ValueIdx

/-! ## One grid point, over any staging buffers -/

section Point
variable (X : Fin 8192 → Fin 512 → EReal) (L : Fin 8192 → BitVec 32) (t : Fin 64)

/-- The vector stored at grid point t: where the moving blocks hold rows 128 t + p of X and of L, and the fixed
    blocks hold all of X and all of L, lane p holds the tiled loss of row 128 t + p. -/
theorem stored_loss (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (v0 : BitVec 32) (hv0 : v0 = Scalar.muli (BitVec.ofNat 32 t.val) 128#32)
    (x0 : Vec Ideal S128x512 .f32) (x1 : Vec Ideal S8192x512 .f32) (x2 : Vec Ideal S128 .i32) (x3 : Vec Ideal S8192 .i32)
    (h0 : ∀ (p : Fin 128) (q : Fin 512), x0 (ix2 p q) = X (Tri.row t p) q)
    (h1 : ∀ (r : Fin 8192) (q : Fin 512), x1 (ix2 r q) = X r q)
    (h2 : ∀ p : Fin 128, x2 (ix1 p) = L (Tri.row t p))
    (h3 : ∀ r : Fin 8192, x3 (ix1 r) = L r) (p : Fin 128) :
    k0_pay10 (F := Ideal)
        (st_k0_t1 (F := Ideal) Variants.none c none i arg1 harg1 arg2 harg2 arg3 harg3 arg4 harg4 arg5 harg5 v0 x0 x2 (harg2.unread x1) (harg4.unread x3) (k0_pay3 (F := Ideal)) 8)
        (st_k0_t2 (F := Ideal) Variants.none c none i arg1 harg1 arg2 harg2 arg3 harg3 arg4 harg4 arg5 harg5 v0 x0 x2
          (st_k0_t1 (F := Ideal) Variants.none c none i arg1 harg1 arg2 harg2 arg3 harg3 arg4 harg4 arg5 harg5 v0 x0 x2 (harg2.unread x1) (harg4.unread x3) (k0_pay3 (F := Ideal)) 8)
          (harg2.unread x1) (harg4.unread x3) (k0_pay4 (F := Ideal), k0_pay5 (F := Ideal), k0_pay6) 8).1
        (st_k0_t2 (F := Ideal) Variants.none c none i arg1 harg1 arg2 harg2 arg3 harg3 arg4 harg4 arg5 harg5 v0 x0 x2
          (st_k0_t1 (F := Ideal) Variants.none c none i arg1 harg1 arg2 harg2 arg3 harg3 arg4 harg4 arg5 harg5 v0 x0 x2 (harg2.unread x1) (harg4.unread x3) (k0_pay3 (F := Ideal)) 8)
          (harg2.unread x1) (harg4.unread x3) (k0_pay4 (F := Ideal), k0_pay5 (F := Ideal), k0_pay6) 8).2.1
        (st_k0_t2 (F := Ideal) Variants.none c none i arg1 harg1 arg2 harg2 arg3 harg3 arg4 harg4 arg5 harg5 v0 x0 x2
          (st_k0_t1 (F := Ideal) Variants.none c none i arg1 harg1 arg2 harg2 arg3 harg3 arg4 harg4 arg5 harg5 v0 x0 x2 (harg2.unread x1) (harg4.unread x3) (k0_pay3 (F := Ideal)) 8)
          (harg2.unread x1) (harg4.unread x3) (k0_pay4 (F := Ideal), k0_pay5 (F := Ideal), k0_pay6) 8).2.2
        (ix1 p)
      = lossK X L (Tri.row t p) := by
  subst hv0
  -- what a trip's loads hold: rows 1024 k + c of X, words 1024 k + c of L
  have hx1 : ∀ (k : Fin k0_t1_loop.trips) (c : Fin 1024) (q : Fin 512),
      xs1 (harg2.unread x1) k (ix2 c q) = X (col (tile1 k) c) q := fun k c q =>
    (xs1_apply (harg2.unread x1) k c q).trans ((congrFun (harg2.read_unread x1) _).trans (h1 _ q))
  have hl1 : ∀ (k : Fin k0_t1_loop.trips) (c : Fin 1024),
      ls1 (harg4.unread x3) k (ix1 c) = L (col (tile1 k) c) := fun k c =>
    (ls1_apply (harg4.unread x3) k c).trans ((congrFun (harg4.read_unread x3) _).trans (h3 _))
  have hx2 : ∀ (k : Fin k0_t2_loop.trips) (c : Fin 1024) (q : Fin 512),
      xs2 (harg2.unread x1) k (ix2 c q) = X (col (tile2 k) c) q := fun k c q =>
    (xs2_apply (harg2.unread x1) k c q).trans ((congrFun (harg2.read_unread x1) _).trans (h1 _ q))
  have hl2 : ∀ (k : Fin k0_t2_loop.trips) (c : Fin 1024),
      ls2 (harg4.unread x3) k (ix1 c) = L (col (tile2 k) c) := fun k c =>
    (ls2_apply (harg4.unread x3) k c).trans ((congrFun (harg4.read_unread x3) _).trans (h3 _))
  exact stored_apply X L (Tri.row t) Variants.none c none i arg1 harg1 arg2 harg2 arg3 harg3 arg4 harg4 arg5 harg5
    (Scalar.muli (BitVec.ofNat 32 t.val) 128#32) x0 x2 (harg2.unread x1) (harg4.unread x3)
    (fun k acc p => pay11_apply X L t x0 (xs1 (harg2.unread x1) k) x2 (ls1 (harg4.unread x3) k) k acc h0 (hx1 k) h2 (hl1 k) p)
    pay3_apply
    (fun k p c => TriDist.pay12_apply X t x0 (xs2 (harg2.unread x1) k) k h0 (hx2 k) p c)
    (fun k p c => TriDist.pay13_apply L t (tile2 k) x2 (ls2 (harg4.unread x3) k) h2 (hl2 k) p c)
    (fun v8 k p c => pay14_apply _ _ _ x2 v8 0#32 1#32 k (xs2 (harg2.unread x1) k) (ls2 (harg4.unread x3) k) p c)
    pay7_apply pay8_apply pay9_apply pay4_apply pay5_apply pay6_apply pay10_apply p

end Point

/-! ## The run's arrays -/

section Arrays
variable (m : (ℓ : Loc nD τ sig) → Buf (Elt Ideal) ℓ)

/-- The embedding matrix as the region finds it on core c, entry (r, q). -/
def Xof (c : Dev nD) : Fin 8192 → Fin 512 → EReal := fun r q => V m c main_arg0 (ix2 r q)
/-- The labels as the region finds them on core c, word r. -/
def Lof (c : Dev nD) : Fin 8192 → BitVec 32 := fun r => V m c main_arg1 (ix1 r)

/-- The grid's one coordinate at point t is t. -/
theorem coord_eq : ∀ t : Fin cfg0.N, ((grid0.coords t) 0).val = t.val :=
  (by decide +kernel : ∀ t : Fin grid0.N, ((grid0.coords t) 0).val = t.val)

/-- What point t stores, lane p: the tiled loss of row 128 t + p. -/
theorem out4_apply (c : Dev nD) (t : Fin cfg0.N) (p : Fin 128) :
    Tri.out4 (F := Ideal) m c t (ix1 p) = lossK (Xof m c) (Lof m c) (Tri.row (Tri.pt t) p) := by
  rw [Tri.out4_eq]
  exact stored_loss (Xof m c) (Lof m c) (Tri.pt t) c (grid0.coords t) (stg0 t) (wh0 t) (stg1 t) (wh1 t) (stg2 t) (wh2 t)
    (stg3 t) (wh3 t) (stg4 t) (wh4 t) (Scalar.muli (BitVec.ofNat 32 ((grid0.coords t) 0).val) 128#32)
    (congrArg (fun n : ℕ => Scalar.muli (BitVec.ofNat 32 n) 128#32) (coord_eq t))
    (iblk m c 0 t) (iblk m c 1 t) (iblk m c 2 t) (iblk m c 3 t)
    (fun p q => iblk0_apply m c t p q) (fun r q => iblk1_apply m c t r q)
    (fun p => iblk2_apply m c t p) (fun r => iblk3_apply m c t r) p

/-- The loss array after the run: entry r holds the tiled loss of row r. -/
theorem arr4_apply (c : Dev nD) (r : Fin 8192) :
    (mkDat m c (Tri.out4 (F := Ideal) m c)).arrAt 4 cfg0.N (ix1 r) = lossK (Xof m c) (Lof m c) r :=
  final4_apply m c (Tri.out4 (F := Ideal) m c) (lossK (Xof m c) (Lof m c)) (fun t p => out4_apply m c t p) r

end Arrays

end Cert.KernelIdeal.TriVal

end
-- ==== Proof.K.Data.lean ====
/-
  The proof data of the one pipeline, shared by the launch and by the body's run.

  The kernel is handed the embedding matrix through two windows (a block of 128 rows that moves with the grid
  point, and the whole matrix, fetched once) and the labels likewise through two windows; so each of the two
  argument arrays is held by two input windows at once, half of the full share each. The fifth window is the
  output: 128 losses per grid point, written back at every point.

  After the body at a point each input's staging buffer holds what it held before (its block of the array as the
  region found it); the output's holds what the body stored there, a parameter here.
-/
import proofs.«135888_j52630529245412_1_alg».proof.Proof.Gen.Kernel.Launch
import proofs.«135888_j52630529245412_1_alg».proof.Proof.Gen.Kernel.Skeleton
import proofs.«135888_j52630529245412_1_alg».proof.Proof.Gen.Kernel.Loops
import proofs.«135888_j52630529245412_1_alg».proof.Proof.Gen.Kernel.Points
import Idealize.ShloMosaic.Lib.Pipeline.FrameBody
import Idealize.ShloMosaic.Lib.Pipeline.FrameSuffix
import Idealize.ShloMosaic.Lib.Tactic

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core c's TensorCore buffers when the region is entered: as launched (the region is the first line of the program). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share each window holds of its array: the two windows on the embedding matrix a half each, the two on
    the labels a half each, the output outright. -/
def shareOf : Fin 5 → PosShare TreeShare
  | ⟨0, _⟩ => fullShare.left
  | ⟨1, _⟩ => fullShare.right
  | ⟨2, _⟩ => fullShare.left
  | ⟨3, _⟩ => fullShare.right
  | _ => fullShare

/-- The proof data on core c, for a given account out4 of what the body stores into the output block at each point. -/
def mkDat (c : Dev nD) (out4 : Fin cfg0.N → S128.Idx → Elt F .f32) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 t
  Φ _ := Pipeline.ΦA spec0 c
  q := shareOf
  owed _ := 0

theorem mkDat_A (c : Dev nD) (out4 : Fin cfg0.N → S128.Idx → Elt F .f32) (w : Fin cfg0.W) :
    (mkDat m c out4).A w = V m c (Pipeline.arrRef spec0 w) := by dsimp only [mkDat]

theorem mkDat_after0 (c : Dev nD) (out4 : Fin cfg0.N → S128.Idx → Elt F .f32) (t : Fin cfg0.N) : (mkDat m c out4).after 0 t = iblk m c 0 t := by dsimp only [mkDat]
theorem mkDat_after1 (c : Dev nD) (out4 : Fin cfg0.N → S128.Idx → Elt F .f32) (t : Fin cfg0.N) : (mkDat m c out4).after 1 t = iblk m c 1 t := by dsimp only [mkDat]
theorem mkDat_after2 (c : Dev nD) (out4 : Fin cfg0.N → S128.Idx → Elt F .f32) (t : Fin cfg0.N) : (mkDat m c out4).after 2 t = iblk m c 2 t := by dsimp only [mkDat]
theorem mkDat_after3 (c : Dev nD) (out4 : Fin cfg0.N → S128.Idx → Elt F .f32) (t : Fin cfg0.N) : (mkDat m c out4).after 3 t = iblk m c 3 t := by dsimp only [mkDat]
theorem mkDat_after4 (c : Dev nD) (out4 : Fin cfg0.N → S128.Idx → Elt F .f32) (t : Fin cfg0.N) : (mkDat m c out4).after 4 t = out4 t := by dsimp only [mkDat]

end Cert.Kernel.Tri

end
-- ==== Proof.K.Launch.lean ====
/-
  The launch of the program: one kernel region over 64 grid points followed by four host operations
  (a zero constant, the sum of the 8192 per-row losses, the constant 8192, and their quotient).

  Two windows read the embedding matrix and two read the labels, so each argument array is held by two
  windows at once, half of the full share each; the launch splits each argument's points-to in two at the
  region's entry, keeps the halves framed while the host operations run after the region (they read only
  the kernel's output and the buffers that bypass the region), and reads the final memory off them.
-/
import proofs.«135888_j52630529245412_1_alg».proof.Proof.K.Data

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

local notation "𝕄" => MT nD τ sig Unit (Elt F) ℕ (UR sig nD τ) ℕ

theorem share0 (c : Dev nD) (out4 : Fin cfg0.N → S128.Idx → Elt F .f32) : (mkDat m c out4).share 0 = fullShare.left := rfl
theorem share1 (c : Dev nD) (out4 : Fin cfg0.N → S128.Idx → Elt F .f32) : (mkDat m c out4).share 1 = fullShare.right := rfl
theorem share2 (c : Dev nD) (out4 : Fin cfg0.N → S128.Idx → Elt F .f32) : (mkDat m c out4).share 2 = fullShare.left := rfl
theorem share3 (c : Dev nD) (out4 : Fin cfg0.N → S128.Idx → Elt F .f32) : (mkDat m c out4).share 3 = fullShare.right := rfl
theorem share4 (c : Dev nD) (out4 : Fin cfg0.N → S128.Idx → Elt F .f32) : (mkDat m c out4).share 4 = fullShare := rfl

/-- The proof data's arrays, window by window: the two halves of each argument array and the output whole. -/
theorem arrays_chain (c : Dev nD) (out4 : Fin cfg0.N → S128.Idx → Elt F .f32)
    (G : (w : Fin cfg0.W) → Buf (Elt F) ((cfg0.win w).arr.view.loc (c.tc : Thread nD τ))) :
    ((mkDat m c out4).arrays G : sProp 𝕄)
      = iprop((((c.tc : Thread nD τ).loc main_arg0) ↦{fullShare.left} G 0)
          ∗ (((c.tc : Thread nD τ).loc main_arg0) ↦{fullShare.right} G 1)
          ∗ (((c.tc : Thread nD τ).loc main_arg1) ↦{fullShare.left} G 2)
          ∗ (((c.tc : Thread nD τ).loc main_arg1) ↦{fullShare.right} G 3)
          ∗ (((c.tc : Thread nD τ).loc main_v0) ↦{fullShare} G 4)) := by
  unfold Dat.arrays
  rw [bigSep_W0, share0, share1, share2, share3, share4,
    (arr_whole0 0).set_eq_univ, (arr_whole0 2).set_eq_univ, (arr_whole0 4).set_eq_univ]

/-- The three distinct buffers behind the windows' arrays. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] (by decide) (by decide) _

/-- At the region's entry each argument array's points-to splits into the halves its two windows hold. -/
theorem hsplit (c : Dev nD) (out4 : Fin cfg0.N → S128.Idx → Elt F .f32) :
    (Pipeline.arrBufs spec0 c (V m c) : sProp 𝕄) ⊢ (mkDat m c out4).arrays ((mkDat m c out4).arrAt · 0) := by
  rw [arrays_chain, arrBufs_chain]
  iintro ⟨H0, H1, H4⟩
  icases (pointsTo_share (PosShare.mem_left_op_right fullShare)).1 $$ H0 with ⟨H0l, H0r⟩
  icases (pointsTo_share (PosShare.mem_left_op_right fullShare)).1 $$ H1 with ⟨H1l, H1r⟩
  isplitl [H0l]; · iexact H0l
  isplitl [H0r]; · iexact H0r
  isplitl [H1l]; · iexact H1l
  isplitl [H1r]; · iexact H1r
  iexact H4

/-- What the four host operations compute from the kernel's output: the sum of the 8192 losses over 8192. -/
def tailOf (o : (⟨S8192, .f32⟩ : BufTy).Contents (Elt F)) : (⟨S_, .f32⟩ : BufTy).Contents (Elt F) :=
  Host.divf (Host.reduceAdd o (constant S_ .f32 0x00000000#32) Gen.reducesTo_S8192_S_d0 Gen.h_S_) (constant S_ .f32 0x46000000#32)

/-- The buffers the host operations touch: the kernel's output and the four buffers that bypass the region. -/
def tailList : List (Ref sig .tc) := [main_v0, main_cst, main_v1, main_cst_0, main_v2]

def tailSet : Finset (DevRef τ sig) := tailList.toFinset.map ⟨Proc.devRef (sig := sig) .tc, Proc.devRef_injective _⟩

theorem mem_tailSet (r : Ref sig .tc) (h : r ∈ tailList) : Proc.devRef (τ := τ) .tc r ∈ tailSet :=
  Finset.mem_map_of_mem _ (List.mem_toFinset.mpr h)

/-- The device's buffer contents at the region's exit as far as the host operations read them: the output array at
    o, every other buffer as launched. -/
def exitVal (c : Dev nD) (o : Buf (Elt F) ((c.tc : Thread nD τ).loc main_v0)) : Valuation τ sig (Elt F) :=
  Function.update (fun b => m (c, b)) (Proc.devRef .tc main_v0) o

theorem held_tailSet (c : Dev nD) (W : Valuation τ sig (Elt F)) :
    (StableHlo.held (c.tc : Thread nD τ) tailSet W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held tailSet
  rw [bigSep_map]
  exact bigSep_eq_bigSepL tailList (by decide) _

theorem hostOps1_tailSet : ∀ op ∈ (hostOps1 : List (HloOp τ sig (Elt F))), op.bufs ⊆ tailSet :=
  List.forall_iff_forall_mem.mp (show (hostOps1 : List (HloOp τ sig (Elt F))).Forall fun op => op.bufs ⊆ tailSet from
    ⟨Finset.singleton_subset_iff.mpr (mem_tailSet _ (by decide)),
     Finset.insert_subset (mem_tailSet _ (by decide)) (Finset.insert_subset (mem_tailSet _ (by decide)) (Finset.singleton_subset_iff.mpr (mem_tailSet _ (by decide)))),
     Finset.singleton_subset_iff.mpr (mem_tailSet _ (by decide)),
     Finset.insert_subset (mem_tailSet _ (by decide)) (Finset.insert_subset (mem_tailSet _ (by decide)) (Finset.singleton_subset_iff.mpr (mem_tailSet _ (by decide))))⟩)

theorem hostOps1_fresh : ∀ op ∈ (hostOps1 : List (HloOp τ sig (Elt F))), op.fresh = ∅ :=
  List.forall_iff_forall_mem.mp (show (hostOps1 : List (HloOp τ sig (Elt F))).Forall fun op => op.fresh = ∅ from ⟨rfl, rfl, rfl, rfl⟩)

section After
variable (c : Dev nD) (o : Buf (Elt F) ((c.tc : Thread nD τ).loc main_v0))

theorem exitVal_v0 : exitVal m c o (Proc.devRef .tc main_v0) = o := by
  unfold exitVal; rw [Function.update_self]

theorem after_v0 : StableHlo.after (hostOps1 : List (HloOp τ sig (Elt F))) (exitVal m c o) (Proc.devRef .tc main_v0) = o := by
  after_results
  exact exitVal_v0 m c o

theorem after_cst : StableHlo.after (hostOps1 : List (HloOp τ sig (Elt F))) (exitVal m c o) (Proc.devRef .tc main_cst)
    = constant S_ .f32 0x00000000#32 := by
  after_results

theorem after_v1 : StableHlo.after (hostOps1 : List (HloOp τ sig (Elt F))) (exitVal m c o) (Proc.devRef .tc main_v1)
    = Host.reduceAdd o (constant S_ .f32 0x00000000#32) Gen.reducesTo_S8192_S_d0 Gen.h_S_ := by
  after_results
  rw [exitVal_v0]

theorem after_cst_0 : StableHlo.after (hostOps1 : List (HloOp τ sig (Elt F))) (exitVal m c o) (Proc.devRef .tc main_cst_0)
    = constant S_ .f32 0x46000000#32 := by
  after_results

theorem after_v2 : StableHlo.after (hostOps1 : List (HloOp τ sig (Elt F))) (exitVal m c o) (Proc.devRef .tc main_v2) = tailOf o := by
  after_results
  rw [exitVal_v0]
  rfl

end After

/-- The four buffers that bypass the region after the host operations have run from the output o. -/
def tailRest (c : Dev nD) (o : Buf (Elt F) ((c.tc : Thread nD τ).loc main_v0)) : sProp 𝕄 :=
  iprop((((c.tc : Thread nD τ).loc main_cst) ↦{fullShare} (constant S_ .f32 0x00000000#32 : (⟨S_, .f32⟩ : BufTy).Contents (Elt F)))
      ∗ (((c.tc : Thread nD τ).loc main_v1) ↦{fullShare} (Host.reduceAdd o (constant S_ .f32 0x00000000#32) Gen.reducesTo_S8192_S_d0 Gen.h_S_ : (⟨S_, .f32⟩ : BufTy).Contents (Elt F)))
      ∗ (((c.tc : Thread nD τ).loc main_cst_0) ↦{fullShare} (constant S_ .f32 0x46000000#32 : (⟨S_, .f32⟩ : BufTy).Contents (Elt F)))
      ∗ (((c.tc : Thread nD τ).loc main_v2) ↦{fullShare} tailOf o))

theorem exitVal_ne (c : Dev nD) (o : Buf (Elt F) ((c.tc : Thread nD τ).loc main_v0)) (r : Ref sig .tc) (h : r ≠ main_v0) :
    exitVal m c o (Proc.devRef .tc r) = m ((c.tc : Thread nD τ).loc r) := by
  unfold exitVal; rw [Function.update_of_ne (StableHlo.devRef_ne_of_ne h)]

theorem held_exit (c : Dev nD) (o : Buf (Elt F) ((c.tc : Thread nD τ).loc main_v0)) :
    (StableHlo.held (c.tc : Thread nD τ) tailSet (exitVal m c o) : sProp 𝕄)
      = iprop((((c.tc : Thread nD τ).loc main_v0) ↦{fullShare} o) ∗ Pipeline.unscopedRest spec0 c (V m c)) := by
  rw [held_tailSet, exitVal_v0, exitVal_ne m c o main_cst (by decide), exitVal_ne m c o main_v1 (by decide),
    exitVal_ne m c o main_cst_0 (by decide), exitVal_ne m c o main_v2 (by decide), unscopedRest0_eq]

theorem held_after (c : Dev nD) (o : Buf (Elt F) ((c.tc : Thread nD τ).loc main_v0)) :
    (StableHlo.held (c.tc : Thread nD τ) tailSet (StableHlo.after hostOps1 (exitVal m c o)) : sProp 𝕄)
      = iprop((((c.tc : Thread nD τ).loc main_v0) ↦{fullShare} o) ∗ tailRest c o) := by
  rw [held_tailSet, after_v0, after_cst, after_v1, after_cst_0, after_v2]; rfl

set_option backward.isDefEq.respectTransparency.types false in
/-- The host operations after the region, run from the kernel's output whole and the four bypassing buffers as
    launched: they leave the output as it was and the four at the constants, the sum and the quotient. -/
theorem tail_run (c : Dev nD) (o : Buf (Elt F) ((c.tc : Thread nD τ).loc main_v0)) (Q' : PUnit → sProp 𝕄) :
    iprop((boundary (c.tc : Thread nD τ) : sProp 𝕄)
        ∗ (((c.tc : Thread nD τ).loc main_v0) ↦{fullShare} o)
        ∗ Pipeline.unscopedRest spec0 c (V m c)
        ∗ (iprop((((c.tc : Thread nD τ).loc main_v0) ↦{fullShare} o) ∗ tailRest c o) -∗ Q' ⟨⟩))
      ⊢ wp frame (wpE (Pipeline.defs (pcfgs (F := F)) defs₀) (Variants.lift Variants.none) (c.tc : Thread nD τ) none) Set.univ
          (Pipeline.chain [StableHlo.seq hostOps1]) Q' := by
  have h := StableHlo.wp_seq (defs := Pipeline.defs (pcfgs (F := F)) defs₀) (Ix := Unit) (Name := ℕ) (U := UR sig nD τ) (Lvl := ℕ)
    (Variants.lift Variants.none) none Set.univ c tailSet (fun _ => pure ⟨⟩) (K := Q')
    hostOps1 hostOps1_tailSet hostOps1_fresh (exitVal m c o)
  rw [held_exit, held_after, wp_pure] at h
  rw [Pipeline.chain_cons, Pipeline.chain_nil]
  iintro ⟨Hb, H0, HR, Hk⟩
  iapply h $$ [Hb H0 HR]
  · isplitl [Hb]; · iexact Hb
    isplitl [H0]; · iexact H0
    iexact HR
  iintro ⟨Hb, H⟩
  imodintro
  iapply Hk
  iexact H

theorem arrAt_in0 (c : Dev nD) (out4 : Fin cfg0.N → S128.Idx → Elt F .f32) (t : ℕ) :
    (mkDat m c out4).arrAt 0 t = m ((c.tc : Thread nD τ).loc main_arg0) :=
  (Pipeline.Dat.arrAt_in (mkDat m c out4) 0 rfl t).trans (mkDat_A m c out4 0)

theorem arrAt_in2 (c : Dev nD) (out4 : Fin cfg0.N → S128.Idx → Elt F .f32) (t : ℕ) :
    (mkDat m c out4).arrAt 2 t = m ((c.tc : Thread nD τ).loc main_arg1) :=
  (Pipeline.Dat.arrAt_in (mkDat m c out4) 2 rfl t).trans (mkDat_A m c out4 2)

/-- From the region's exit — the windows' arrays at their final contents, the argument arrays in halves, and the
    bypassing buffers as launched — the host operations run within the output and the bypassing buffers, the halves
    framed, and hand the arrays back with the bypassing buffers at the results. -/
theorem htail (c : Dev nD) (out4 : Fin cfg0.N → S128.Idx → Elt F .f32) (Q' : PUnit → sProp 𝕄) :
    iprop((iprop((mkDat m c out4).arrays ((mkDat m c out4).arrAt · cfg0.N) ∗ tailRest c ((mkDat m c out4).arrAt 4 cfg0.N)) -∗ Q' ⟨⟩)
        ∗ boundary (c.tc : Thread nD τ) ∗ (mkDat m c out4).arrays ((mkDat m c out4).arrAt · cfg0.N)
        ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_chain]
  iintro ⟨Hk, Hb, ⟨A0, A1, A2, A3, A4⟩, HZ⟩
  iapply (tail_run m c _ Q') $$ [Hb A4 HZ Hk A0 A1 A2 A3]
  isplitl [Hb]; · iexact Hb
  isplitl [A4]; · iexact A4
  isplitl [HZ]; · iexact HZ
  iintro ⟨A4, HR⟩
  iapply Hk
  isplitr [HR]
  · isplitl [A0]; · iexact A0
    isplitl [A1]; · iexact A1
    isplitl [A2]; · iexact A2
    isplitl [A3]; · iexact A3
    iexact A4
  iexact HR

/-- The result buffer's points-to read against the final state. -/
theorem hY (c : Dev nD) (o : Buf (Elt F) ((c.tc : Thread nD τ).loc main_v0)) (s' : Phys nD τ sig (Elt F)) :
    iprop((∃ r, prngReg c r) ∗ tailRest c o ∗ (SI s' : sProp 𝕄))
      ⊢ |={Set.univ}=> iprop(⌜s'.mem.mem ((c.tc : Thread nD τ).loc main_v2) = tailOf o⌝ ∗ SI s') := by
  unfold tailRest
  iintro ⟨-, ⟨-, -, -, H2⟩, HSI⟩
  imodintro
  ihave H := (pointsTo_read_all ({()} : Finset Unit) (fun _ => (c.tc : Thread nD τ).loc main_v2) (fun _ => tailOf o) s') $$ [H2 HSI]
  · rw [bigSep_singleton]; isplitl [H2] <;> iassumption
  icases H with ⟨%h, HSI⟩
  isplitr
  · ipureintro; exact h () (Finset.mem_singleton_self _)
  iexact HSI

/-- The program runs; the result buffer ends at the mean of the kernel's output, the arguments unchanged. -/
theorem run_main (ρ : Dev nD → PrngReg) (out4 : (c : Dev nD) → Fin cfg0.N → S128.Idx → Elt F .f32)
    (hbody : ∀ c, Pipeline.BodyObligationLoose (mkDat m c (out4 c)) (defs₀ (F := F)) Variants.none () Set.univ) :
    θ_run (defs (F := F)) (onTc (τ := τ) (main (F := F))) ⟨m, fun _ => 0, ρ⟩ (fun r => ∀ c : Dev nD,
        r.2.mem ((c.tc : Thread nD τ).loc main_v2) = tailOf ((mkDat m c (out4 c)).arrAt 4 cfg0.N)
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  classical
  have hmain := Pipeline.hmainP_around (Ix := Unit) (Name := ℕ) (U := UR sig nD τ) (Lvl := ℕ) (pcfgs (F := F)) 0 defs₀ Variants.none m main
    [] [hostOps1] trivial trivial (fun c => by rw [main_chain]; rfl)
  unfold defs
  exact Pipeline.θ_run_region_pf_tail (pcfgs (F := F)) (fun p => (cfgs p).toPCfg_adm) (fun _ c => mkDat m c (out4 c)) () cellOf_inj 0
    winFacts₀0 (Pipeline.OwnSemFacts.none spec0) (Pipeline.PreFacts.none spec0) emb₁ defs₀ Variants.none m ρ main
    (fun _ => Pipeline.chain [StableHlo.seq hostOps1]) hbody block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain)
    (hsplit := fun c => hsplit m c (out4 c))
    (hpf := fun _ k => k.elim0)
    (X := fun c => iprop(∃ r, prngReg c r)) (Y := fun c => iprop(∃ r, prngReg c r))
    (Z := fun c => Pipeline.unscopedRest spec0 c (V m c))
    (Z' := fun c => tailRest c ((mkDat m c (out4 c)).arrAt 4 cfg0.N))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr]; · iexact Hr
      iexact Hp)
    (hout := fun c => by
      rw [Pipeline.ownSems0_none]
      show Pipeline.ΦA spec0 c ⊢ _
      unfold Pipeline.ΦA
      iintro ⟨Hr, Hp⟩
      isplitl [Hp]; · iexact Hp
      isplitr; · iempintro
      iexact Hr)
    (htail := fun c Q' => htail m c (out4 c) Q')
    (QY := fun c s => s.mem ((c.tc : Thread nD τ).loc main_v2) = tailOf ((mkDat m c (out4 c)).arrAt 4 cfg0.N))
    (hY := fun c s' => hY c _ s')
    (hQ := fun s h c => ⟨(h c).2.2, ((h c).1 0).trans (arrAt_in0 m c (out4 c) _), ((h c).1 2).trans (arrAt_in2 m c (out4 c) _)⟩)

end Cert.Kernel.Tri

end
-- ==== Proof.K.Body.lean ====
/-
  The kernel body at one grid point.

  At a point the body reads its block of 128 rows and its block of 128 labels, runs twice over the whole embedding
  matrix and all the labels in eight tiles of 1024 rows (the first pass carries, per row of the block, the hardest
  positive: the greatest distance to a row of the same label; the second carries the least distance among the
  semi-hard rows, those of another label farther than the hardest positive, the least distance among all rows of
  another label, and whether a semi-hard row exists), and stores one vector of 128 losses over its whole output
  block. Nothing else is written: each input's staging buffer holds after the body what it held before.

  The stored vector is named here as a function of what the four input buffers hold, and the library's body
  obligation is proved for the proof data that has this vector as the output's contents after each point.
-/
import proofs.«135888_j52630529245412_1_alg».proof.Proof.K.Data
import Idealize.ShloMosaic.Lib.Pipeline.Value

set_option maxRecDepth 16384

noncomputable section

namespace Cert.Kernel.Tri

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## Small facts -/

/-- Each of the two passes over the matrix runs from 0 to 0 + 8 by steps of 1: eight trips. -/
theorem eight_trips : Scf.trips (0#32 : BitVec 32) (Scalar.addi 0#32 8#32) 1#32 = 8 := by decide

/-- The zero offsets of a rank-1 and of a rank-2 block, as the constant function. -/
theorem zero_off1 : (![0] : Fin S128.rank → Nat) = fun _ => 0 := funext fun a => by fin_cases a; rfl
theorem zero_off2 : (![0, 0] : Fin S128x512.rank → Nat) = fun _ => 0 := funext fun a => by fin_cases a <;> rfl

/-! ## The staging memrefs at a point -/

/-- The five windows' current staging memrefs at point t, as the pipeline hands them to the body, each a whole buffer. -/
abbrev stg0 (t : Fin cfg0.N) : Memref sig .tc .vmem S128x512 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S8192x512 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S128 .i32 := win0_2.stage (cfg0.slots t 2)
abbrev wh2 (t : Fin cfg0.N) : (stg2 t).IsWhole := hstage0_2 ((cfg0.slots t 2).cast nbuf0_2)
abbrev stg3 (t : Fin cfg0.N) : Memref sig .tc .vmem S8192 .i32 := win0_3.stage (cfg0.slots t 3)
abbrev wh3 (t : Fin cfg0.N) : (stg3 t).IsWhole := hstage0_3 ((cfg0.slots t 3).cast nbuf0_3)
abbrev stg4 (t : Fin cfg0.N) : Memref sig .tc .vmem S128 .f32 := win0_4.stage (cfg0.slots t 4)
abbrev wh4 (t : Fin cfg0.N) : (stg4 t).IsWhole := hstage0_4 ((cfg0.slots t 4).cast nbuf0_4)

/-! ## What an input's staging buffer holds when the body is entered -/

/-- An input window's staging buffer holds the window's block at every point, fetched there or not: the body
    leaves the block in place, and a window that is not fetched at a point has the block index it had at the point
    before (the two whole-array windows are fetched at the first point only and keep one index throughout), so what
    the buffer kept is this point's block. No input window is cut, none is ever idle. -/
theorem before0 (c : Dev nD) (out4 : Fin cfg0.N → S128.Idx → Elt F .f32) (t : Fin cfg0.N) (d) :
    (mkDat m c out4).before 0 t d = iblk m c 0 t := by
  rw [(mkDat m c out4).before_in_eq_fetched 0 rfl (fun _ => rfl) (fun _ _ _ => rfl) ?keeps t d]
  · unfold Dat.fetched Dat.blockOf iblk; rw [mkDat_A]; rfl
  case keeps => intro t'; rw [mkDat_after0]; unfold Dat.blockOf iblk; rw [mkDat_A]

theorem before1 (c : Dev nD) (out4 : Fin cfg0.N → S128.Idx → Elt F .f32) (t : Fin cfg0.N) (d) :
    (mkDat m c out4).before 1 t d = iblk m c 1 t := by
  rw [(mkDat m c out4).before_in_eq_fetched 1 rfl (fun _ => rfl) (fun _ _ _ => rfl) ?keeps t d]
  · unfold Dat.fetched Dat.blockOf iblk; rw [mkDat_A]; rfl
  case keeps => intro t'; rw [mkDat_after1]; unfold Dat.blockOf iblk; rw [mkDat_A]

theorem before2 (c : Dev nD) (out4 : Fin cfg0.N → S128.Idx → Elt F .f32) (t : Fin cfg0.N) (d) :
    (mkDat m c out4).before 2 t d = iblk m c 2 t := by
  rw [(mkDat m c out4).before_in_eq_fetched 2 rfl (fun _ => rfl) (fun _ _ _ => rfl) ?keeps t d]
  · unfold Dat.fetched Dat.blockOf iblk; rw [mkDat_A]; rfl
  case keeps => intro t'; rw [mkDat_after2]; unfold Dat.blockOf iblk; rw [mkDat_A]

theorem before3 (c : Dev nD) (out4 : Fin cfg0.N → S128.Idx → Elt F .f32) (t : Fin cfg0.N) (d) :
    (mkDat m c out4).before 3 t d = iblk m c 3 t := by
  rw [(mkDat m c out4).before_in_eq_fetched 3 rfl (fun _ => rfl) (fun _ _ _ => rfl) ?keeps t d]
  · unfold Dat.fetched Dat.blockOf iblk; rw [mkDat_A]; rfl
  case keeps => intro t'; rw [mkDat_after3]; unfold Dat.blockOf iblk; rw [mkDat_A]

/-! ## The vector the body stores

Over any five whole staging memrefs and any contents x0 (the row block), x1 (the whole matrix), x2 (the label
block), x3 (all labels) of the four inputs'. The two passes only load, so each is the generated recursion on its
trips' yields, taken at the eight trips. -/

/-- The first pass's carried vector after its eight trips: per row of the block, the greatest distance to a row of
    its own label, from the least value. -/
def pass1 (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) : FVec F S128 .f32 :=
  st_k0_t1 Variants.none c none i arg1 harg1 arg2 harg2 arg3 harg3 arg4 harg4 arg5 harg5
    (Scalar.muli (BitVec.ofNat 32 (i 0).val) 128#32) x0 x2 (harg2.unread x1) (harg4.unread x3) (k0_pay3 (F := F)) 8

/-- The second pass's three carried vectors after its eight trips, which read the first pass's result. -/
def pass2 (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) : FVec F S128 .f32 × FVec F S128 .f32 × IVec S128 1 :=
  st_k0_t2 Variants.none c none i arg1 harg1 arg2 harg2 arg3 harg3 arg4 harg4 arg5 harg5
    (Scalar.muli (BitVec.ofNat 32 (i 0).val) 128#32) x0 x2 (pass1 c i arg1 harg1 arg2 harg2 arg3 harg3 arg4 harg4 arg5 harg5 x0 x1 x2 x3)
    (harg2.unread x1) (harg4.unread x3) (k0_pay4 (F := F), k0_pay5 (F := F), k0_pay6) 8

/-- The stored vector: the loss of each row of the block, from the two passes' results. -/
def stored (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) : FVec F S128 .f32 :=
  k0_pay10 (pass1 c i arg1 harg1 arg2 harg2 arg3 harg3 arg4 harg4 arg5 harg5 x0 x1 x2 x3)
    (pass2 c i arg1 harg1 arg2 harg2 arg3 harg3 arg4 harg4 arg5 harg5 x0 x1 x2 x3).1
    (pass2 c i arg1 harg1 arg2 harg2 arg3 harg3 arg4 harg4 arg5 harg5 x0 x1 x2 x3).2.1
    (pass2 c i arg1 harg1 arg2 harg2 arg3 harg3 arg4 harg4 arg5 harg5 x0 x1 x2 x3).2.2

/-! ## The body's run -/

set_option maxHeartbeats 1000000 in
/-- On whole staging memrefs, the four inputs' at contents x0 … x3 and the output's at anything, the body runs to
    any continuation that takes the inputs' back as they were and the output's at the stored vector: its two loads
    of the blocks, the two passes by their generated invariants, a load of the output that nothing reads, and the
    one store, which covers the whole output block. -/
theorem body_run (c : Dev nD) (i : grid0.Coords) (arg1 : Memref sig .tc .vmem S128x512 .f32) (harg1 : arg1.IsWhole) (arg2 : Memref sig .tc .vmem S8192x512 .f32) (harg2 : arg2.IsWhole) (arg3 : Memref sig .tc .vmem S128 .i32) (harg3 : arg3.IsWhole) (arg4 : Memref sig .tc .vmem S8192 .i32) (harg4 : arg4.IsWhole) (arg5 : Memref sig .tc .vmem S128 .f32) (harg5 : arg5.IsWhole)
    (x0 : Vec F S128x512 .f32) (x1 : Vec F S8192x512 .f32) (x2 : Vec F S128 .i32) (x3 : Vec F S8192 .i32) :
    ∀ (E : Set ℕ) (K : PUnit → sProp 𝕄),
      iprop(owns (c : Thread nD τ) arg1 fullShare x0 ∗ owns (c : Thread nD τ) arg2 fullShare x1
          ∗ owns (c : Thread nD τ) arg3 fullShare x2 ∗ owns (c : Thread nD τ) arg4 fullShare x3
          ∗ (∃ d, owns (c : Thread nD τ) arg5 fullShare d)
          ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare (stored c i arg1 harg1 arg2 harg2 arg3 harg3 arg4 harg4 arg5 harg5 x0 x1 x2 x3)) -∗ K ⟨⟩))
        ⊢ wp frame (wpE (defs₀ (F := F)) Variants.none c none) E (cc0__triplet_kernel i arg1 harg1 arg2 harg2 arg3 harg3 arg4 harg4 arg5 harg5) K := by
  intro E K
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1
  obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  -- the one store covers the block, so the buffer reads as its payload; the payload's two loaded blocks are x0 and x2
  rw [View.read_writes_eq_canon _ _ _ (fun y => ⟨_, List.mem_singleton_self _, View.mem_set_unit_zero zero_off1 inb_S128_S128_0 y⟩),
    View.canon_unit_zero zero_off1]
  sl_unfold_run_names
  simp only [View.readAt_eq_ld, harg1.read_unread, harg3.read_unread, View.ld_unit_zero (S := S128x512) zero_off2,
    View.ld_unit_zero (S := S128) zero_off1, eight_trips]
  rfl

/-! ## What the body leaves in the output block at a point -/

/-- The 128 losses the body stores at point t: the stored vector at the point's staging memrefs, the inputs'
    buffers holding their windows' blocks. -/
def out4 (c : Dev nD) (t : Fin cfg0.N) : S128.Idx → Elt F .f32 :=
  stored c (grid0.coords t) (stg0 t) (wh0 t) (stg1 t) (wh1 t) (stg2 t) (wh2 t) (stg3 t) (wh3 t) (stg4 t) (wh4 t)
    (iblk m c 0 t) (iblk m c 1 t) (iblk m c 2 t) (iblk m c 3 t)

/-- The same with every argument spelled: the last value's definition at the two generated recursions, each at
    its eight trips; the row offset 128 times the point's coordinate, the row block and the label block the
    windows' blocks, the whole matrix and all labels the raw contents of their staging buffers, which read as
    the whole-array windows' blocks. -/
theorem out4_eq (c : Dev nD) (t : Fin cfg0.N) :
    out4 m c t = k0_pay10
      (st_k0_t1 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        ((wh1 t).unread (iblk m c 1 t)) ((wh3 t).unread (iblk m c 3 t)) (k0_pay3 (F := F)) 8)
      (st_k0_t2 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        (st_k0_t1 Variants.none c none (grid0.coords t) (stg0 t) (wh0 t) (stg1 t) (wh1 t) (stg2 t) (wh2 t) (stg3 t) (wh3 t) (stg4 t) (wh4 t)
          (Scalar.muli (BitVec.ofNat 32 ((grid0.coords t) 0).val) 128#32) (iblk m c 0 t) (iblk m c 2 t)
          ((wh1 t).unread (iblk m c 1 t)) ((wh3 t).unread (iblk m c 3 t)) (k0_pay3 (F := F)) 8)
        ((wh1 t).unread (iblk m c 1 t)) ((wh3 t).unread (iblk m c 3 t)) (k0_pay4 (F := F), k0_pay5 (F := F), k0_pay6) 8).1
      (st_k0_t2 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        (st_k0_t1 Variants.none c none (grid0.coords t) (stg0 t) (wh0 t) (stg1 t) (wh1 t) (stg2 t) (wh2 t) (stg3 t) (wh3 t) (stg4 t) (wh4 t)
          (Scalar.muli (BitVec.ofNat 32 ((grid0.coords t) 0).val) 128#32) (iblk m c 0 t) (iblk m c 2 t)
          ((wh1 t).unread (iblk m c 1 t)) ((wh3 t).unread (iblk m c 3 t)) (k0_pay3 (F := F)) 8)
        ((wh1 t).unread (iblk m c 1 t)) ((wh3 t).unread (iblk m c 3 t)) (k0_pay4 (F := F), k0_pay5 (F := F), k0_pay6) 8).2.1
      (st_k0_t2 Variants.none c none (grid0.coords t) (stg0 t) (wh0 t) (stg1 t) (wh1 t) (stg2 t) (wh2 t) (stg3 t) (wh3 t) (stg4 t) (wh4 t)
        (Scalar.muli (BitVec.ofNat 32 ((grid0.coords t) 0).val) 128#32) (iblk m c 0 t) (iblk m c 2 t)
        (st_k0_t1 Variants.none c none (grid0.coords t) (stg0 t) (wh0 t) (stg1 t) (wh1 t) (stg2 t) (wh2 t) (stg3 t) (wh3 t) (stg4 t) (wh4 t)
          (Scalar.muli (BitVec.ofNat 32 ((grid0.coords t) 0).val) 128#32) (iblk m c 0 t) (iblk m c 2 t)
          ((wh1 t).unread (iblk m c 1 t)) ((wh3 t).unread (iblk m c 3 t)) (k0_pay3 (F := F)) 8)
        ((wh1 t).unread (iblk m c 1 t)) ((wh3 t).unread (iblk m c 3 t)) (k0_pay4 (F := F), k0_pay5 (F := F), k0_pay6) 8).2.2 := by
  unfold out4 stored pass2 pass1; rfl

/-! ## The body obligation -/

/-- The body at point t, from what the pipeline hands it — the invariant, what the core owes, and each window's
    current staging buffer at what it then holds (the inputs' at their blocks, the output's at anything) — to what
    it hands back: the same, the inputs' buffers as they were and the output's at the point's 128 losses. The
    invariant and the core's debts pass through untouched. -/
theorem body_at (c : Dev nD) (t : Fin cfg0.N) :
    iprop((mkDat m c (out4 m c)).Φ t.castSucc ∗ (mkDat m c (out4 m c)).owesAt () t.castSucc
        ∗ (∃ d, owns (c : Thread nD τ) (stg0 t) fullShare ((mkDat m c (out4 m c)).before 0 t d))
        ∗ (∃ d, owns (c : Thread nD τ) (stg1 t) fullShare ((mkDat m c (out4 m c)).before 1 t d))
        ∗ (∃ d, owns (c : Thread nD τ) (stg2 t) fullShare ((mkDat m c (out4 m c)).before 2 t d))
        ∗ (∃ d, owns (c : Thread nD τ) (stg3 t) fullShare ((mkDat m c (out4 m c)).before 3 t d))
        ∗ (∃ d, owns (c : Thread nD τ) (stg4 t) fullShare ((mkDat m c (out4 m c)).before 4 t d)))
      ⊢ wp frame (wpE (defs₀ (F := F)) Variants.none c none) Set.univ (bodyAt0 t) (fun _ =>
        iprop((mkDat m c (out4 m c)).Φ t.succ ∗ (mkDat m c (out4 m c)).owesAt () t.succ
          ∗ owns (c : Thread nD τ) (stg0 t) fullShare ((mkDat m c (out4 m c)).after 0 t)
          ∗ owns (c : Thread nD τ) (stg1 t) fullShare ((mkDat m c (out4 m c)).after 1 t)
          ∗ owns (c : Thread nD τ) (stg2 t) fullShare ((mkDat m c (out4 m c)).after 2 t)
          ∗ owns (c : Thread nD τ) (stg3 t) fullShare ((mkDat m c (out4 m c)).after 3 t)
          ∗ owns (c : Thread nD τ) (stg4 t) fullShare ((mkDat m c (out4 m c)).after 4 t))) := by
  unfold bodyAt0
  simp only [before0, before1, before2, before3]
  rw [show (mkDat m c (out4 m c)).Φ t.succ = (mkDat m c (out4 m c)).Φ t.castSucc from rfl,
    show (mkDat m c (out4 m c)).owesAt () t.succ = (mkDat m c (out4 m c)).owesAt () t.castSucc from rfl,
    mkDat_after0, mkDat_after1, mkDat_after2, mkDat_after3, mkDat_after4]
  unfold out4
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation in its exact form, at every point: no window of this pipeline is idle or cut, so
    the five windows' clauses are those of the theorem above. -/
theorem body_obligation_exact (c : Dev nD) :
    BodyObligation (mkDat m c (out4 m c)) (defs₀ (F := F)) Variants.none () Set.univ := fun t => by
  rw [bigSep_W0, bigSep_W0]
  exact body_at m c t

/-- The body obligation as the pipeline's loop uses it. -/
theorem body_obligation (c : Dev nD) :
    Pipeline.BodyObligationLoose (mkDat m c (out4 m c)) (defs₀ (F := F)) Variants.none () Set.univ :=
  (body_obligation_exact m c).loose

end Cert.Kernel.Tri

end
-- ==== Proof.Ref.Imports.lean ====
/-
  The reference's run, and its value read one operation at a time: the two generated modules, in the copies that
  build (the run's closing step needed a deeper recursion limit than the generated option gives it).
-/
import proofs.«135888_j52630529245412_1_alg».proof.Proof.Ref.RunP
import proofs.«135888_j52630529245412_1_alg».proof.Proof.Ref.ReadP
-- ==== Proof.Ref.RunHand.lean ====
/-
  The reference's run, read stage by stage.

  The reference is a straight line of 91 host operations in single-assignment form: each writes one buffer that
  no later operation writes again. Its value at the last buffer, as ONE composed term of the two arguments, repeats
  every shared intermediate (the distance matrix is read four times, the positive mask three) and is too large to
  handle. Instead the line is cut into eleven consecutive stretches; for each stretch, and for ANY contents W of
  the buffers before it, the buffers the stretch writes that a later stretch reads hold, after it, their staged
  values (each the operation applied to the staged values of its operands) provided the buffers the stretch
  reads held theirs in W; and a buffer the stretch does not write holds after it what it held in W. Threading the
  eleven stretches from the launch contents gives the last buffer's staged value; the arguments are written by no
  operation.
-/
import proofs.«135888_j52630529245412_1_alg».proof.Proof.Ref.Imports
import Idealize.ShloMosaic.Lib.StableHlo.Run
import Idealize.ShloMosaic.Lib.Pipeline.Frame

noncomputable section

namespace Cert.ReferenceIdeal.TriRef

open Cert.ReferenceIdeal Cert.ReferenceIdeal.Gen Idealize.ShloMosaic Idealize.ShloMosaic.TcCoe Idealize.SL.Sem Idealize.ShloMosaic.StableHlo

variable {F : FTy → Type} [FloatOps F]

/-! ## The eleven stretches of the line -/

/-! The operations of a called function stand in the line at their call's place, written there over the call's typed
references; here they are written as plain operations on the same buffers with the same functions (the typed form
only transports a function along an equation of types that holds by computation). -/

/-- Operations 1 to 8: the rows' squared norms and their sum along rows and columns. -/
abbrev ops1 : List (HloOp τ sig (Elt F)) :=
  [ binary main_arg0 main_arg0 main_v0 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v0 main_cst main_v1 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v1 main_v3 (broadcastInDim S1x8192 ![1] bcast_S8192_S1x8192_1 : (⟨S8192, .f32⟩ : BufTy).Contents (Elt F) → (⟨S1x8192, .f32⟩ : BufTy).Contents (Elt F)),
    unary main_v2 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)) ]

/-- Operations 9 to 17: the Gram matrix and the clamped squared distances. -/
abbrev ops2 : List (HloOp τ sig (Elt F)) :=
  [ unary main_arg0 main_v7 ((transpose S512x8192 [1, 0] · transposes_S8192x512_S512x8192_1_0) : (⟨S8192x512, .f32⟩ : BufTy).Contents (Elt F) → (⟨S512x8192, .f32⟩ : BufTy).Contents (Elt F)),
    binary main_arg0 main_v7 main_v8 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_0 (constant S_ .f32 0x40000000#32),
    unary main_cst_0 main_v9 (broadcastInDim S8192x8192 ![] bcast_S_S8192x8192 : (⟨S_, .f32⟩ : BufTy).Contents (Elt F) → (⟨S8192x8192, .f32⟩ : BufTy).Contents (Elt F)),
    binary main_v9 main_v8 main_v10 (mulf : (⟨S8192x8192, .f32⟩ : BufTy).Contents (Elt F) → (⟨S8192x8192, .f32⟩ : BufTy).Contents (Elt F) → (⟨S8192x8192, .f32⟩ : BufTy).Contents (Elt F)),
    binary main_v6 main_v10 main_v11 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v12 (broadcastInDim S8192x8192 ![] bcast_S_S8192x8192 : (⟨S_, .f32⟩ : BufTy).Contents (Elt F) → (⟨S8192x8192, .f32⟩ : BufTy).Contents (Elt F)),
    binary main_v11 main_v12 main_v13 (maximumf : (⟨S8192x8192, .f32⟩ : BufTy).Contents (Elt F) → (⟨S8192x8192, .f32⟩ : BufTy).Contents (Elt F) → (⟨S8192x8192, .f32⟩ : BufTy).Contents (Elt F)) ]

/-- Operations 18 to 25: the row numbers and the first coordinate of the diagonal's index pairs. -/
abbrev ops3 : List (HloOp τ sig (Elt F)) :=
  [ nullary main_v14 (iotaInDim S8192 32 0),
    nullary main_c (constantI S_ 32 0#32),
    unary main_c main_v15 (broadcastInDim S8192 ![] bcast_S_S8192 : (⟨S_, .i32⟩ : BufTy).Contents (Elt F) → (⟨S8192, .i32⟩ : BufTy).Contents (Elt F)),
    binary main_v14 main_v15 main_v16 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v17 (broadcastInDim S8192 ![] bcast_S_S8192 : (⟨S_, .i32⟩ : BufTy).Contents (Elt F) → (⟨S8192, .i32⟩ : BufTy).Contents (Elt F)),
    binary main_v14 main_v17 main_v18 (addi : (⟨S8192, .i32⟩ : BufTy).Contents (Elt F) → (⟨S8192, .i32⟩ : BufTy).Contents (Elt F) → (⟨S8192, .i32⟩ : BufTy).Contents (Elt F)),
    ternary main_v16 main_v18 main_v14 main_v19 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ]

/-- Operations 26 to 35: the second coordinate and the index pairs. -/
abbrev ops4 : List (HloOp τ sig (Elt F)) :=
  [ nullary main_c_3 (constantI S_ 32 0#32),
    unary main_c_3 main_v20 (broadcastInDim S8192 ![] bcast_S_S8192 : (⟨S_, .i32⟩ : BufTy).Contents (Elt F) → (⟨S8192, .i32⟩ : BufTy).Contents (Elt F)),
    binary main_v14 main_v20 main_v21 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v22 (broadcastInDim S8192 ![] bcast_S_S8192 : (⟨S_, .i32⟩ : BufTy).Contents (Elt F) → (⟨S8192, .i32⟩ : BufTy).Contents (Elt F)),
    binary main_v14 main_v22 main_v23 (addi : (⟨S8192, .i32⟩ : BufTy).Contents (Elt F) → (⟨S8192, .i32⟩ : BufTy).Contents (Elt F) → (⟨S8192, .i32⟩ : BufTy).Contents (Elt F)),
    ternary main_v21 main_v23 main_v14 main_v24 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v19 main_v25 (broadcastInDim S8192x1 ![0] bcast_S8192_S8192x1_0 : (⟨S8192, .i32⟩ : BufTy).Contents (Elt F) → (⟨S8192x1, .i32⟩ : BufTy).Contents (Elt F)),
    unary main_v24 main_v26 (broadcastInDim S8192x1 ![0] bcast_S8192_S8192x1_0 : (⟨S8192, .i32⟩ : BufTy).Contents (Elt F) → (⟨S8192x1, .i32⟩ : BufTy).Contents (Elt F)),
    binary main_v25 main_v26 main_v27 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]

/-- Operations 36 to 41: the diagonal set to zero, and positivity. -/
abbrev ops5 : List (HloOp τ sig (Elt F)) :=
  [ nullary main_cst_5 (constant S_ .f32 0x00000000#32),
    unary main_cst_5 main_v28 (broadcastInDim S8192 ![] bcast_S_S8192 : (⟨S_, .f32⟩ : BufTy).Contents (Elt F) → (⟨S8192, .f32⟩ : BufTy).Contents (Elt F)),
    ternary main_v13 main_v27 main_v28 main_v29 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    nullary main_cst_6 (constant S_ .f32 0x00000000#32),
    unary main_cst_6 main_v30 (broadcastInDim S8192x8192 ![] bcast_S_S8192x8192 : (⟨S_, .f32⟩ : BufTy).Contents (Elt F) → (⟨S8192x8192, .f32⟩ : BufTy).Contents (Elt F)),
    binary main_v29 main_v30 main_v31 (cmpf .ogt : (⟨S8192x8192, .f32⟩ : BufTy).Contents (Elt F) → (⟨S8192x8192, .f32⟩ : BufTy).Contents (Elt F) → (⟨S8192x8192, .i1⟩ : BufTy).Contents (Elt F)) ]

/-- Operations 42 to 50: the distances. -/
abbrev ops6 : List (HloOp τ sig (Elt F)) :=
  [ nullary main_cst_7 (constant S_ .f32 0x3F800000#32),
    unary main_cst_7 main_call0_v0 (id : (⟨S_, .f32⟩ : BufTy).Contents (Elt F) → (⟨S_, .f32⟩ : BufTy).Contents (Elt F)),
    unary main_call0_v0 main_call0_v1 (broadcastInDim S8192x8192 ![] bcast_S_S8192x8192 : (⟨S_, .f32⟩ : BufTy).Contents (Elt F) → (⟨S8192x8192, .f32⟩ : BufTy).Contents (Elt F)),
    ternary main_v31 main_v29 main_call0_v1 main_v32 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    unary main_v32 main_v33 (Host.sqrt : (⟨S8192x8192, .f32⟩ : BufTy).Contents (Elt F) → (⟨S8192x8192, .f32⟩ : BufTy).Contents (Elt F)),
    nullary main_cst_8 (constant S_ .f32 0x00000000#32),
    unary main_cst_8 main_call1_v0 (id : (⟨S_, .f32⟩ : BufTy).Contents (Elt F) → (⟨S_, .f32⟩ : BufTy).Contents (Elt F)),
    unary main_call1_v0 main_call1_v1 (broadcastInDim S8192x8192 ![] bcast_S_S8192x8192 : (⟨S_, .f32⟩ : BufTy).Contents (Elt F) → (⟨S8192x8192, .f32⟩ : BufTy).Contents (Elt F)),
    ternary main_v31 main_v33 main_call1_v1 main_v34 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) ]

/-- Operations 51 to 60: the labels' agreement and the positive candidates. -/
abbrev ops7 : List (HloOp τ sig (Elt F)) :=
  [ unary main_arg1 main_v35 (broadcastInDim S8192x1 ![0] bcast_S8192_S8192x1_0 : (⟨S8192, .i32⟩ : BufTy).Contents (Elt F) → (⟨S8192x1, .i32⟩ : BufTy).Contents (Elt F)),
    unary main_arg1 main_v36 (broadcastInDim S1x8192 ![1] bcast_S8192_S1x8192_1 : (⟨S8192, .i32⟩ : BufTy).Contents (Elt F) → (⟨S1x8192, .i32⟩ : BufTy).Contents (Elt F)),
    unary main_v35 main_v37 (broadcastInDim S8192x8192 ![0, 1] bcast_S8192x1_S8192x8192_0_1 : (⟨S8192x1, .i32⟩ : BufTy).Contents (Elt F) → (⟨S8192x8192, .i32⟩ : BufTy).Contents (Elt F)),
    unary main_v36 main_v38 (broadcastInDim S8192x8192 ![0, 1] bcast_S1x8192_S8192x8192_0_1 : (⟨S1x8192, .i32⟩ : BufTy).Contents (Elt F) → (⟨S8192x8192, .i32⟩ : BufTy).Contents (Elt F)),
    binary main_v37 main_v38 main_v39 (cmpi .eq : (⟨S8192x8192, .i32⟩ : BufTy).Contents (Elt F) → (⟨S8192x8192, .i32⟩ : BufTy).Contents (Elt F) → (⟨S8192x8192, .i1⟩ : BufTy).Contents (Elt F)),
    binary main_v39 main_v31 main_v40 (andi : (⟨S8192x8192, .i1⟩ : BufTy).Contents (Elt F) → (⟨S8192x8192, .i1⟩ : BufTy).Contents (Elt F) → (⟨S8192x8192, .i1⟩ : BufTy).Contents (Elt F)),
    nullary main_cst_9 (constant S_ .f32 0x7F800000#32),
    unary main_cst_9 main_v41 (Host.negf : (⟨S_, .f32⟩ : BufTy).Contents (Elt F) → (⟨S_, .f32⟩ : BufTy).Contents (Elt F)),
    unary main_v41 main_call2_v0 (broadcastInDim S8192x8192 ![] bcast_S_S8192x8192 : (⟨S_, .f32⟩ : BufTy).Contents (Elt F) → (⟨S8192x8192, .f32⟩ : BufTy).Contents (Elt F)),
    ternary main_v40 main_v34 main_call2_v0 main_v42 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) ]

/-- Operations 61 to 67: the hardest positive, the labels' disagreement, the semi-hard columns. -/
abbrev ops8 : List (HloOp τ sig (Elt F)) :=
  [ nullary main_cst_10 (constant S_ .f32 0xFF800000#32),
    binary main_v42 main_cst_10 main_v43 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v39 main_v44 (noti : (⟨S8192x8192, .i1⟩ : BufTy).Contents (Elt F) → (⟨S8192x8192, .i1⟩ : BufTy).Contents (Elt F)),
    unary main_v43 main_v45 (broadcastInDim S8192x1 ![0] bcast_S8192_S8192x1_0 : (⟨S8192, .f32⟩ : BufTy).Contents (Elt F) → (⟨S8192x1, .f32⟩ : BufTy).Contents (Elt F)),
    unary main_v45 main_v46 (broadcastInDim S8192x8192 ![0, 1] bcast_S8192x1_S8192x8192_0_1 : (⟨S8192x1, .f32⟩ : BufTy).Contents (Elt F) → (⟨S8192x8192, .f32⟩ : BufTy).Contents (Elt F)),
    binary main_v34 main_v46 main_v47 (cmpf .ogt : (⟨S8192x8192, .f32⟩ : BufTy).Contents (Elt F) → (⟨S8192x8192, .f32⟩ : BufTy).Contents (Elt F) → (⟨S8192x8192, .i1⟩ : BufTy).Contents (Elt F)),
    binary main_v44 main_v47 main_v48 (andi : (⟨S8192x8192, .i1⟩ : BufTy).Contents (Elt F) → (⟨S8192x8192, .i1⟩ : BufTy).Contents (Elt F) → (⟨S8192x8192, .i1⟩ : BufTy).Contents (Elt F)) ]

/-- Operations 68 to 77: the nearest semi-hard negative and the nearest negative. -/
abbrev ops9 : List (HloOp τ sig (Elt F)) :=
  [ nullary main_cst_11 (constant S_ .f32 0x7F800000#32),
    unary main_cst_11 main_call3_v0 (broadcastInDim S8192x8192 ![] bcast_S_S8192x8192 : (⟨S_, .f32⟩ : BufTy).Contents (Elt F) → (⟨S8192x8192, .f32⟩ : BufTy).Contents (Elt F)),
    ternary main_v48 main_v34 main_call3_v0 main_v49 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_12 (constant S_ .f32 0x7F800000#32),
    binary main_v49 main_cst_12 main_v50 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x7F800000#32),
    unary main_cst_13 main_call4_v0 (broadcastInDim S8192x8192 ![] bcast_S_S8192x8192 : (⟨S_, .f32⟩ : BufTy).Contents (Elt F) → (⟨S8192x8192, .f32⟩ : BufTy).Contents (Elt F)),
    ternary main_v44 main_v34 main_call4_v0 main_v51 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x7F800000#32),
    binary main_v51 main_cst_14 main_v52 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- Operations 78 to 84: the choice between them, the difference and the margin. -/
abbrev ops10 : List (HloOp τ sig (Elt F)) :=
  [ nullary main_c_15 (constantI S_ 1 0#1),
    binary main_v48 main_c_15 main_v53 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    ternary main_v53 main_v50 main_v52 main_v54 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    binary main_v43 main_v54 main_v55 (subf : (⟨S8192, .f32⟩ : BufTy).Contents (Elt F) → (⟨S8192, .f32⟩ : BufTy).Contents (Elt F) → (⟨S8192, .f32⟩ : BufTy).Contents (Elt F)),
    nullary main_cst_16 (constant S_ .f32 0x3E4CCCCD#32),
    unary main_cst_16 main_v56 (broadcastInDim S8192 ![] bcast_S_S8192 : (⟨S_, .f32⟩ : BufTy).Contents (Elt F) → (⟨S8192, .f32⟩ : BufTy).Contents (Elt F)),
    binary main_v55 main_v56 main_v57 (addf : (⟨S8192, .f32⟩ : BufTy).Contents (Elt F) → (⟨S8192, .f32⟩ : BufTy).Contents (Elt F) → (⟨S8192, .f32⟩ : BufTy).Contents (Elt F)) ]

/-- Operations 85 to 91: the clamp at zero and the mean. -/
abbrev ops11 : List (HloOp τ sig (Elt F)) :=
  [ nullary main_call6_cst (constant S_ .f32 0x00000000#32),
    unary main_call6_cst main_call6_v0 (broadcastInDim S8192 ![] bcast_S_S8192 : (⟨S_, .f32⟩ : BufTy).Contents (Elt F) → (⟨S8192, .f32⟩ : BufTy).Contents (Elt F)),
    binary main_v57 main_call6_v0 main_v58 (maximumf : (⟨S8192, .f32⟩ : BufTy).Contents (Elt F) → (⟨S8192, .f32⟩ : BufTy).Contents (Elt F) → (⟨S8192, .f32⟩ : BufTy).Contents (Elt F)),
    nullary main_cst_17 (constant S_ .f32 0x00000000#32),
    binary main_v58 main_cst_17 main_v59 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_18 (constant S_ .f32 0x46000000#32),
    binary main_v59 main_cst_18 main_v60 (Host.divf : (⟨S_, .f32⟩ : BufTy).Contents (Elt F) → (⟨S_, .f32⟩ : BufTy).Contents (Elt F) → (⟨S_, .f32⟩ : BufTy).Contents (Elt F)) ]

/-! ## A stretch leaves the buffers it does not write as they were -/

/-- The buffers stretch 1 writes. -/
abbrev wr1 : List (Ref sig .tc) := [main_v0, main_cst, main_v1, main_v2, main_v3, main_v4, main_v5, main_v6]
theorem writes1 : (ops1 : List (HloOp τ sig (Elt F))).Forall fun op => op.writes ⊆ (wr1.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 1 does not write holds after it what it held before. -/
theorem keep1 (W : Valuation τ sig (Elt F)) {r : Ref sig .tc} (hr : r ∉ wr1) :
    after ops1 W (Proc.devRef .tc r) = W (Proc.devRef .tc r) :=
  after_of_writes_sub ops1 W writes1 hr

/-- The buffers stretch 2 writes. -/
abbrev wr2 : List (Ref sig .tc) := [main_v7, main_v8, main_cst_0, main_v9, main_v10, main_v11, main_cst_1, main_v12, main_v13]
theorem writes2 : (ops2 : List (HloOp τ sig (Elt F))).Forall fun op => op.writes ⊆ (wr2.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 2 does not write holds after it what it held before. -/
theorem keep2 (W : Valuation τ sig (Elt F)) {r : Ref sig .tc} (hr : r ∉ wr2) :
    after ops2 W (Proc.devRef .tc r) = W (Proc.devRef .tc r) :=
  after_of_writes_sub ops2 W writes2 hr

/-- The buffers stretch 3 writes. -/
abbrev wr3 : List (Ref sig .tc) := [main_v14, main_c, main_v15, main_v16, main_c_2, main_v17, main_v18, main_v19]
theorem writes3 : (ops3 : List (HloOp τ sig (Elt F))).Forall fun op => op.writes ⊆ (wr3.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 3 does not write holds after it what it held before. -/
theorem keep3 (W : Valuation τ sig (Elt F)) {r : Ref sig .tc} (hr : r ∉ wr3) :
    after ops3 W (Proc.devRef .tc r) = W (Proc.devRef .tc r) :=
  after_of_writes_sub ops3 W writes3 hr

/-- The buffers stretch 4 writes. -/
abbrev wr4 : List (Ref sig .tc) := [main_c_3, main_v20, main_v21, main_c_4, main_v22, main_v23, main_v24, main_v25, main_v26, main_v27]
theorem writes4 : (ops4 : List (HloOp τ sig (Elt F))).Forall fun op => op.writes ⊆ (wr4.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 4 does not write holds after it what it held before. -/
theorem keep4 (W : Valuation τ sig (Elt F)) {r : Ref sig .tc} (hr : r ∉ wr4) :
    after ops4 W (Proc.devRef .tc r) = W (Proc.devRef .tc r) :=
  after_of_writes_sub ops4 W writes4 hr

/-- The buffers stretch 5 writes. -/
abbrev wr5 : List (Ref sig .tc) := [main_cst_5, main_v28, main_v29, main_cst_6, main_v30, main_v31]
theorem writes5 : (ops5 : List (HloOp τ sig (Elt F))).Forall fun op => op.writes ⊆ (wr5.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 5 does not write holds after it what it held before. -/
theorem keep5 (W : Valuation τ sig (Elt F)) {r : Ref sig .tc} (hr : r ∉ wr5) :
    after ops5 W (Proc.devRef .tc r) = W (Proc.devRef .tc r) :=
  after_of_writes_sub ops5 W writes5 hr

/-- The buffers stretch 6 writes. -/
abbrev wr6 : List (Ref sig .tc) := [main_cst_7, main_call0_v0, main_call0_v1, main_v32, main_v33, main_cst_8, main_call1_v0, main_call1_v1, main_v34]
theorem writes6 : (ops6 : List (HloOp τ sig (Elt F))).Forall fun op => op.writes ⊆ (wr6.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 6 does not write holds after it what it held before. -/
theorem keep6 (W : Valuation τ sig (Elt F)) {r : Ref sig .tc} (hr : r ∉ wr6) :
    after ops6 W (Proc.devRef .tc r) = W (Proc.devRef .tc r) :=
  after_of_writes_sub ops6 W writes6 hr

/-- The buffers stretch 7 writes. -/
abbrev wr7 : List (Ref sig .tc) := [main_v35, main_v36, main_v37, main_v38, main_v39, main_v40, main_cst_9, main_v41, main_call2_v0, main_v42]
theorem writes7 : (ops7 : List (HloOp τ sig (Elt F))).Forall fun op => op.writes ⊆ (wr7.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 7 does not write holds after it what it held before. -/
theorem keep7 (W : Valuation τ sig (Elt F)) {r : Ref sig .tc} (hr : r ∉ wr7) :
    after ops7 W (Proc.devRef .tc r) = W (Proc.devRef .tc r) :=
  after_of_writes_sub ops7 W writes7 hr

/-- The buffers stretch 8 writes. -/
abbrev wr8 : List (Ref sig .tc) := [main_cst_10, main_v43, main_v44, main_v45, main_v46, main_v47, main_v48]
theorem writes8 : (ops8 : List (HloOp τ sig (Elt F))).Forall fun op => op.writes ⊆ (wr8.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 8 does not write holds after it what it held before. -/
theorem keep8 (W : Valuation τ sig (Elt F)) {r : Ref sig .tc} (hr : r ∉ wr8) :
    after ops8 W (Proc.devRef .tc r) = W (Proc.devRef .tc r) :=
  after_of_writes_sub ops8 W writes8 hr

/-- The buffers stretch 9 writes. -/
abbrev wr9 : List (Ref sig .tc) := [main_cst_11, main_call3_v0, main_v49, main_cst_12, main_v50, main_cst_13, main_call4_v0, main_v51, main_cst_14, main_v52]
theorem writes9 : (ops9 : List (HloOp τ sig (Elt F))).Forall fun op => op.writes ⊆ (wr9.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 9 does not write holds after it what it held before. -/
theorem keep9 (W : Valuation τ sig (Elt F)) {r : Ref sig .tc} (hr : r ∉ wr9) :
    after ops9 W (Proc.devRef .tc r) = W (Proc.devRef .tc r) :=
  after_of_writes_sub ops9 W writes9 hr

/-- The buffers stretch 10 writes. -/
abbrev wr10 : List (Ref sig .tc) := [main_c_15, main_v53, main_v54, main_v55, main_cst_16, main_v56, main_v57]
theorem writes10 : (ops10 : List (HloOp τ sig (Elt F))).Forall fun op => op.writes ⊆ (wr10.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 10 does not write holds after it what it held before. -/
theorem keep10 (W : Valuation τ sig (Elt F)) {r : Ref sig .tc} (hr : r ∉ wr10) :
    after ops10 W (Proc.devRef .tc r) = W (Proc.devRef .tc r) :=
  after_of_writes_sub ops10 W writes10 hr

/-- The buffers stretch 11 writes. -/
abbrev wr11 : List (Ref sig .tc) := [main_call6_cst, main_call6_v0, main_v58, main_cst_17, main_v59, main_cst_18, main_v60]
theorem writes11 : (ops11 : List (HloOp τ sig (Elt F))).Forall fun op => op.writes ⊆ (wr11.map (Proc.devRef (τ := τ) .tc)).toFinset := by
  simp only [List.Forall, nullary_writes, unary_writes, binary_writes, ternary_writes, Finset.singleton_subset_iff, List.mem_toFinset]
  and_intros <;> exact List.mem_map_of_mem (by decide)

/-- A buffer stretch 11 does not write holds after it what it held before. -/
theorem keep11 (W : Valuation τ sig (Elt F)) {r : Ref sig .tc} (hr : r ∉ wr11) :
    after ops11 W (Proc.devRef .tc r) = W (Proc.devRef .tc r) :=
  after_of_writes_sub ops11 W writes11 hr

/-! ## What each stretch computes

In each lemma W is ANY contents of the buffers before the stretch; x0 stands for the embedding matrix and x1 for
the labels wherever a staged value depends on them. Each proof reads the stretch's operations off the fold, puts
the staged values in for the buffers the stretch reads, and unfolds the staged values the stretch itself makes:
the two sides are then the same term. -/

/-- Stretch 1: the rows' squared norms, spread along rows and along columns, and added. -/
theorem stage1 (W : Valuation τ sig (Elt F)) (x0 : (⟨S8192x512, .f32⟩ : BufTy).Contents (Elt F))
    (h0 : W (Proc.devRef .tc main_arg0) = x0) :
    after ops1 W (Proc.devRef .tc main_v6) = ReadP.val_main_v6 x0 := by
  subst h0
  after_results
  unfold ReadP.val_main_v6 ReadP.val_main_v5 ReadP.val_main_v4 ReadP.val_main_v3 ReadP.val_main_v2 ReadP.val_main_v1
    ReadP.val_main_cst ReadP.val_main_v0
  rfl

/-- Stretch 2: the Gram matrix, and the clamped squared distances from it and the norms' sum. -/
theorem stage2 (W : Valuation τ sig (Elt F)) (x0 : (⟨S8192x512, .f32⟩ : BufTy).Contents (Elt F))
    (h0 : W (Proc.devRef .tc main_arg0) = x0)
    (h6 : W (Proc.devRef .tc main_v6) = ReadP.val_main_v6 x0) :
    after ops2 W (Proc.devRef .tc main_v13) = ReadP.val_main_v13 x0 := by
  subst h0
  after_results
  rw [h6]
  unfold ReadP.val_main_v13 ReadP.val_main_v12 ReadP.val_main_cst_1 ReadP.val_main_v11 ReadP.val_main_v10 ReadP.val_main_v9
    ReadP.val_main_cst_0 ReadP.val_main_v8 ReadP.val_main_v7
  rfl

/-- Stretch 3: the row numbers, and the first coordinate of the diagonal's index pairs. -/
theorem stage3 (W : Valuation τ sig (Elt F)) :
    after ops3 W (Proc.devRef .tc main_v14) = ReadP.val_main_v14 (F := F)
    ∧ after ops3 W (Proc.devRef .tc main_v19) = ReadP.val_main_v19 (F := F) := by
  refine ⟨?_, ?_⟩
  · after_results
    unfold ReadP.val_main_v14
    rfl
  · after_results
    unfold ReadP.val_main_v19 ReadP.val_main_v18 ReadP.val_main_v17 ReadP.val_main_c_2 ReadP.val_main_v16 ReadP.val_main_v15
      ReadP.val_main_c ReadP.val_main_v14
    rfl

/-- Stretch 4: the second coordinate, and the diagonal's index pairs. -/
theorem stage4 (W : Valuation τ sig (Elt F))
    (h14 : W (Proc.devRef .tc main_v14) = ReadP.val_main_v14 (F := F))
    (h19 : W (Proc.devRef .tc main_v19) = ReadP.val_main_v19 (F := F)) :
    after ops4 W (Proc.devRef .tc main_v27) = ReadP.val_main_v27 (F := F) := by
  after_results
  rw [h14, h19]
  unfold ReadP.val_main_v27 ReadP.val_main_v26 ReadP.val_main_v25 ReadP.val_main_v24 ReadP.val_main_v23 ReadP.val_main_v22
    ReadP.val_main_c_4 ReadP.val_main_v21 ReadP.val_main_v20 ReadP.val_main_c_3
  rfl

/-- Stretch 5: the squared distances with the diagonal set to zero, and where they are positive. -/
theorem stage5 (W : Valuation τ sig (Elt F)) (x0 : (⟨S8192x512, .f32⟩ : BufTy).Contents (Elt F))
    (h13 : W (Proc.devRef .tc main_v13) = ReadP.val_main_v13 x0)
    (h27 : W (Proc.devRef .tc main_v27) = ReadP.val_main_v27 (F := F)) :
    after ops5 W (Proc.devRef .tc main_v29) = ReadP.val_main_v29 x0
    ∧ after ops5 W (Proc.devRef .tc main_v31) = ReadP.val_main_v31 x0 := by
  refine ⟨?_, ?_⟩
  · after_results
    rw [h13, h27]
    unfold ReadP.val_main_v29 ReadP.val_main_v28 ReadP.val_main_cst_5
    rfl
  · after_results
    rw [h13, h27]
    unfold ReadP.val_main_v31 ReadP.val_main_v30 ReadP.val_main_cst_6 ReadP.val_main_v29 ReadP.val_main_v28 ReadP.val_main_cst_5
    rfl

/-- Stretch 6: the distances: the root where the square is positive, zero elsewhere. -/
theorem stage6 (W : Valuation τ sig (Elt F)) (x0 : (⟨S8192x512, .f32⟩ : BufTy).Contents (Elt F))
    (h29 : W (Proc.devRef .tc main_v29) = ReadP.val_main_v29 x0)
    (h31 : W (Proc.devRef .tc main_v31) = ReadP.val_main_v31 x0) :
    after ops6 W (Proc.devRef .tc main_v34) = ReadP.val_main_v34 x0 := by
  after_results
  rw [h29, h31]
  unfold ReadP.val_main_v34 ReadP.val_main_call1_v1 ReadP.val_main_call1_v0 ReadP.val_main_cst_8 ReadP.val_main_v33
    ReadP.val_main_v32 ReadP.val_main_call0_v1 ReadP.val_main_call0_v0 ReadP.val_main_cst_7
  rfl

/-- Stretch 7: where the labels agree, and the positive candidates. -/
theorem stage7 (W : Valuation τ sig (Elt F)) (x0 : (⟨S8192x512, .f32⟩ : BufTy).Contents (Elt F))
    (x1 : (⟨S8192, .i32⟩ : BufTy).Contents (Elt F))
    (h1 : W (Proc.devRef .tc main_arg1) = x1)
    (h31 : W (Proc.devRef .tc main_v31) = ReadP.val_main_v31 x0)
    (h34 : W (Proc.devRef .tc main_v34) = ReadP.val_main_v34 x0) :
    after ops7 W (Proc.devRef .tc main_v39) = ReadP.val_main_v39 x1
    ∧ after ops7 W (Proc.devRef .tc main_v42) = ReadP.val_main_v42 x0 x1 := by
  subst h1
  refine ⟨?_, ?_⟩
  · after_results
    unfold ReadP.val_main_v39 ReadP.val_main_v38 ReadP.val_main_v37 ReadP.val_main_v36 ReadP.val_main_v35
    rfl
  · after_results
    rw [h31, h34]
    unfold ReadP.val_main_v42 ReadP.val_main_call2_v0 ReadP.val_main_v41 ReadP.val_main_cst_9 ReadP.val_main_v40
      ReadP.val_main_v39 ReadP.val_main_v38 ReadP.val_main_v37 ReadP.val_main_v36 ReadP.val_main_v35
    rfl

/-- Stretch 8: the hardest positive, where the labels differ, and the semi-hard columns. -/
theorem stage8 (W : Valuation τ sig (Elt F)) (x0 : (⟨S8192x512, .f32⟩ : BufTy).Contents (Elt F))
    (x1 : (⟨S8192, .i32⟩ : BufTy).Contents (Elt F))
    (h34 : W (Proc.devRef .tc main_v34) = ReadP.val_main_v34 x0)
    (h39 : W (Proc.devRef .tc main_v39) = ReadP.val_main_v39 x1)
    (h42 : W (Proc.devRef .tc main_v42) = ReadP.val_main_v42 x0 x1) :
    after ops8 W (Proc.devRef .tc main_v43) = ReadP.val_main_v43 x0 x1
    ∧ after ops8 W (Proc.devRef .tc main_v44) = ReadP.val_main_v44 x1
    ∧ after ops8 W (Proc.devRef .tc main_v48) = ReadP.val_main_v48 x0 x1 := by
  refine ⟨?_, ?_, ?_⟩
  · after_results
    rw [h42]
    unfold ReadP.val_main_v43 ReadP.val_main_cst_10
    rfl
  · after_results
    rw [h39]
    unfold ReadP.val_main_v44
    rfl
  · after_results
    rw [h34, h39, h42]
    unfold ReadP.val_main_v48 ReadP.val_main_v47 ReadP.val_main_v46 ReadP.val_main_v45 ReadP.val_main_v44 ReadP.val_main_v43
      ReadP.val_main_cst_10
    rfl

/-- Stretch 9: the nearest semi-hard negative and the nearest negative of all. -/
theorem stage9 (W : Valuation τ sig (Elt F)) (x0 : (⟨S8192x512, .f32⟩ : BufTy).Contents (Elt F))
    (x1 : (⟨S8192, .i32⟩ : BufTy).Contents (Elt F))
    (h34 : W (Proc.devRef .tc main_v34) = ReadP.val_main_v34 x0)
    (h44 : W (Proc.devRef .tc main_v44) = ReadP.val_main_v44 x1)
    (h48 : W (Proc.devRef .tc main_v48) = ReadP.val_main_v48 x0 x1) :
    after ops9 W (Proc.devRef .tc main_v50) = ReadP.val_main_v50 x0 x1
    ∧ after ops9 W (Proc.devRef .tc main_v52) = ReadP.val_main_v52 x0 x1 := by
  refine ⟨?_, ?_⟩
  · after_results
    rw [h34, h48]
    unfold ReadP.val_main_v50 ReadP.val_main_cst_12 ReadP.val_main_v49 ReadP.val_main_call3_v0 ReadP.val_main_cst_11
    rfl
  · after_results
    rw [h34, h44]
    unfold ReadP.val_main_v52 ReadP.val_main_cst_14 ReadP.val_main_v51 ReadP.val_main_call4_v0 ReadP.val_main_cst_13
    rfl

/-- Stretch 10: whether a semi-hard negative exists, the chosen negative, and the margin added to the difference. -/
theorem stage10 (W : Valuation τ sig (Elt F)) (x0 : (⟨S8192x512, .f32⟩ : BufTy).Contents (Elt F))
    (x1 : (⟨S8192, .i32⟩ : BufTy).Contents (Elt F))
    (h43 : W (Proc.devRef .tc main_v43) = ReadP.val_main_v43 x0 x1)
    (h48 : W (Proc.devRef .tc main_v48) = ReadP.val_main_v48 x0 x1)
    (h50 : W (Proc.devRef .tc main_v50) = ReadP.val_main_v50 x0 x1)
    (h52 : W (Proc.devRef .tc main_v52) = ReadP.val_main_v52 x0 x1) :
    after ops10 W (Proc.devRef .tc main_v57) = ReadP.val_main_v57 x0 x1 := by
  after_results
  rw [h43, h48, h50, h52]
  unfold ReadP.val_main_v57 ReadP.val_main_v56 ReadP.val_main_cst_16 ReadP.val_main_v55 ReadP.val_main_v54 ReadP.val_main_v53
    ReadP.val_main_c_15
  rfl

/-- Stretch 11: the clamp at zero, the sum over the rows and the mean. -/
theorem stage11 (W : Valuation τ sig (Elt F)) (x0 : (⟨S8192x512, .f32⟩ : BufTy).Contents (Elt F))
    (x1 : (⟨S8192, .i32⟩ : BufTy).Contents (Elt F))
    (h57 : W (Proc.devRef .tc main_v57) = ReadP.val_main_v57 x0 x1) :
    after ops11 W (Proc.devRef .tc main_v60) = ReadP.val_main_v60 x0 x1 := by
  after_results
  rw [h57]
  unfold ReadP.val_main_v60 ReadP.val_main_cst_18 ReadP.val_main_v59 ReadP.val_main_cst_17 ReadP.val_main_v58
    ReadP.val_main_call6_v0 ReadP.val_main_call6_cst
  rfl

/-! ## The whole line -/

set_option maxRecDepth 8192 in
/-- The line is its eleven stretches, one after the other. -/
theorem ops_cut : (ValueP.ops : List (HloOp τ sig (Elt F)))
    = ops1 ++ (ops2 ++ (ops3 ++ (ops4 ++ (ops5 ++ (ops6 ++ (ops7 ++ (ops8 ++ (ops9 ++ (ops10 ++ ops11))))))))) := rfl

/-- So the contents after the line are the contents after the eleven stretches in turn. -/
theorem after_ops (V : Valuation τ sig (Elt F)) :
    after ValueP.ops V
      = after ops11 (after ops10 (after ops9 (after ops8 (after ops7 (after ops6 (after ops5 (after ops4 (after ops3
          (after ops2 (after ops1 V)))))))))) := by
  rw [ops_cut]
  simp only [StableHlo.after_append]

/-- THE LAST BUFFER after the line, from any contents V: its staged value of the two arguments as V has them.
    The contents after each stretch are named and forgotten in turn; what is carried across a cut is, for each
    buffer a later stretch still reads, that it holds its staged value. -/
theorem after_ops_v60 (V : Valuation τ sig (Elt F)) :
    after ValueP.ops V (Proc.devRef .tc main_v60)
      = ReadP.val_main_v60 (V (Proc.devRef .tc main_arg0)) (V (Proc.devRef .tc main_arg1)) := by
  rw [after_ops]
  generalize hx0 : V (Proc.devRef .tc main_arg0) = x0
  generalize hx1 : V (Proc.devRef .tc main_arg1) = x1
  -- after stretch 1: the norms' sum; both arguments
  have a6 := stage1 V x0 hx0
  have a0 := (keep1 V (r := main_arg0) (by decide)).trans hx0
  have a1 := (keep1 V (r := main_arg1) (by decide)).trans hx1
  generalize after ops1 V = W1 at a6 a0 a1 ⊢
  -- after stretch 2: the clamped squared distances; the labels
  have b13 := stage2 W1 x0 a0 a6
  have b1 := (keep2 W1 (r := main_arg1) (by decide)).trans a1
  generalize after ops2 W1 = W2 at b13 b1 ⊢
  -- after stretch 3: the row numbers and the first coordinate
  obtain ⟨c14, c19⟩ := stage3 W2
  have c13 := (keep3 W2 (r := main_v13) (by decide)).trans b13
  have c1 := (keep3 W2 (r := main_arg1) (by decide)).trans b1
  generalize after ops3 W2 = W3 at c14 c19 c13 c1 ⊢
  -- after stretch 4: the diagonal's index pairs
  have d27 := stage4 W3 c14 c19
  have d13 := (keep4 W3 (r := main_v13) (by decide)).trans c13
  have d1 := (keep4 W3 (r := main_arg1) (by decide)).trans c1
  generalize after ops4 W3 = W4 at d27 d13 d1 ⊢
  -- after stretch 5: the squared distances off the diagonal and their positivity
  obtain ⟨e29, e31⟩ := stage5 W4 x0 d13 d27
  have e1 := (keep5 W4 (r := main_arg1) (by decide)).trans d1
  generalize after ops5 W4 = W5 at e29 e31 e1 ⊢
  -- after stretch 6: the distances
  have f34 := stage6 W5 x0 e29 e31
  have f31 := (keep6 W5 (r := main_v31) (by decide)).trans e31
  have f1 := (keep6 W5 (r := main_arg1) (by decide)).trans e1
  generalize after ops6 W5 = W6 at f34 f31 f1 ⊢
  -- after stretch 7: the labels' agreement and the positive candidates
  obtain ⟨g39, g42⟩ := stage7 W6 x0 x1 f1 f31 f34
  have g34 := (keep7 W6 (r := main_v34) (by decide)).trans f34
  generalize after ops7 W6 = W7 at g39 g42 g34 ⊢
  -- after stretch 8: the hardest positive, the labels' disagreement, the semi-hard columns
  obtain ⟨h43, h44, h48⟩ := stage8 W7 x0 x1 g34 g39 g42
  have h34 := (keep8 W7 (r := main_v34) (by decide)).trans g34
  generalize after ops8 W7 = W8 at h43 h44 h48 h34 ⊢
  -- after stretch 9: the two minima
  obtain ⟨i50, i52⟩ := stage9 W8 x0 x1 h34 h44 h48
  have i43 := (keep9 W8 (r := main_v43) (by decide)).trans h43
  have i48 := (keep9 W8 (r := main_v48) (by decide)).trans h48
  generalize after ops9 W8 = W9 at i50 i52 i43 i48 ⊢
  -- after stretch 10: the margin added
  have j57 := stage10 W9 x0 x1 i43 i48 i50 i52
  generalize after ops10 W9 = W10 at j57 ⊢
  -- stretch 11
  exact stage11 W10 x0 x1 j57

/-- No operation of the line writes the embedding matrix, -/
theorem after_ops_arg0 (V : Valuation τ sig (Elt F)) :
    after ValueP.ops V (Proc.devRef .tc main_arg0) = V (Proc.devRef .tc main_arg0) := by
  rw [after_ops, keep11 _ (r := main_arg0) (by decide), keep10 _ (r := main_arg0) (by decide),
    keep9 _ (r := main_arg0) (by decide), keep8 _ (r := main_arg0) (by decide), keep7 _ (r := main_arg0) (by decide),
    keep6 _ (r := main_arg0) (by decide), keep5 _ (r := main_arg0) (by decide), keep4 _ (r := main_arg0) (by decide),
    keep3 _ (r := main_arg0) (by decide), keep2 _ (r := main_arg0) (by decide), keep1 _ (r := main_arg0) (by decide)]

/-- nor the labels. -/
theorem after_ops_arg1 (V : Valuation τ sig (Elt F)) :
    after ValueP.ops V (Proc.devRef .tc main_arg1) = V (Proc.devRef .tc main_arg1) := by
  rw [after_ops, keep11 _ (r := main_arg1) (by decide), keep10 _ (r := main_arg1) (by decide),
    keep9 _ (r := main_arg1) (by decide), keep8 _ (r := main_arg1) (by decide), keep7 _ (r := main_arg1) (by decide),
    keep6 _ (r := main_arg1) (by decide), keep5 _ (r := main_arg1) (by decide), keep4 _ (r := main_arg1) (by decide),
    keep3 _ (r := main_arg1) (by decide), keep2 _ (r := main_arg1) (by decide), keep1 _ (r := main_arg1) (by decide)]

/-- Every operation of the line determines what it writes. -/
theorem ops_fresh : (ValueP.ops : List (HloOp τ sig (Elt F))).Forall fun op => op.fresh = ∅ := by
  simp only [List.Forall]
  and_intros <;> rfl

/-- THE RUN. On every device, for any float values, from any memory with zero counters: every weakly fair execution
    of the reference terminates with the last buffer at its staged value of the two arguments, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v60) = ReadP.val_main_v60 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v60).trans (after_ops_v60 (launchContents m c)),
      (h c main_arg0).trans (after_ops_arg0 (launchContents m c)),
      (h c main_arg1).trans (after_ops_arg1 (launchContents m c))⟩)
    (run_seq ValueP.scopedRefs_eq ValueP.scopedSems_eq defs main (fun _ => ValueP.ops) ValueP.main_eq (fun _ => ValueP.ops_sub) m ρ
      (fun _ => List.forall_iff_forall_mem.mp ops_fresh))

end Cert.ReferenceIdeal.TriRef

end
-- ==== Proof.Ref.Matrix.lean ====
/-
  The reference's 8192 x 8192 matrices, each read at one entry (r, j), as the specification's scalar functions of the
  embedding matrix X and the label words L:

  * the clamped squared distance max(|x_r|^2 + |x_j|^2 - 2 x_r.x_j, 0), from the row norms broadcast along rows and
    columns and the product of the matrix with its transpose;
  * the same with its diagonal set to zero: a scatter that WRITES the update (here the constant 0) at the positions
    (n, n) listed by an index array. A writing scatter is a left fold of overwriting steps; a position no step targets
    keeps the operand's element, a position some step targets ends with that step's value when all steps targeting it
    agree. The index array's row n is (n, n): both columns are the row counter, which is not negative as a signed word,
    so the wrap-around select leaves it alone; hence update n lands on (n, n), always inside the matrix;
  * where that is positive, the distance (its root there, else 0), label equality and its negation, and the positive
    candidates (the distance where labels agree and it is positive, else -inf).
-/
import proofs.«135888_j52630529245412_1_alg».proof.Proof.Ref.Imports
import proofs.«135888_j52630529245412_1_alg».proof.Proof.Tri.Spec

set_option maxRecDepth 4096

noncomputable section

namespace Cert.ReferenceIdeal.TriRef

open Cert.ReferenceIdeal Cert.ReferenceIdeal.Gen Cert.ReferenceIdeal.ReadP Cert.Triplet Idealize.ShloMosaic
open Idealize.ShloMosaic.ValueIdx

/-- The embedding matrix by row and column. -/
def Xof (x0 : (⟨S8192x512, .f32⟩ : BufTy).Contents (Elt Ideal)) : Fin 8192 → Fin 512 → EReal := fun r q => x0 (ix2 r q)
/-- The label words by row. -/
def Lof (x1 : (⟨S8192, .i32⟩ : BufTy).Contents (Elt Ideal)) : Fin 8192 → BitVec 32 := fun r => x1 (ix1 r)

/-! ## The clamped squared distances -/

section Dist2
variable (x0 : (⟨S8192x512, .f32⟩ : BufTy).Contents (Elt Ideal))

/-- The row sums of squares are the squared norms. -/
theorem v1_apply (r : Fin 8192) : val_main_v1 (F := Ideal) x0 (ix1 r) = sqn (Xof x0) r := by
  rw [val_main_v1_apply, val_main_cst_apply]
  show Ideal.ofBits .f32 0x00000000#32 + _ = _
  rw [Ideal.ofBits_zero_f32, zero_add]
  unfold sqn
  refine Finset.sum_congr rfl fun k _ => ?_
  rw [val_main_v0_apply]
  have e : idx_main_v1 (ix1 r) k = ix2 r k :=
    funext fun a => Fin.ext (by match a with | ⟨0, _⟩ => rfl | ⟨1, _⟩ => rfl)
  rw [e]
  rfl

/-- The product of the matrix with its transpose holds the inner products of the rows. -/
theorem v8_apply (r j : Fin 8192) : val_main_v8 (F := Ideal) x0 (ix2 r j) = dotp (Xof x0) r j := by
  rw [val_main_v8_apply]
  unfold dotp
  refine Finset.sum_congr rfl fun k _ => ?_
  rw [val_main_v7_apply]
  have el : lidx_main_v8 (ix2 r j) k = ix2 r k :=
    funext fun a => Fin.ext (by match a with | ⟨0, _⟩ => rfl | ⟨1, _⟩ => rfl)
  have er : idx_main_v7 (ridx_main_v8 (ix2 r j) k) = ix2 j k :=
    funext fun a => Fin.ext (by match a with | ⟨0, _⟩ => rfl | ⟨1, _⟩ => rfl)
  rw [el, er]
  rfl

/-- The clamped squared distance of rows r and j. -/
theorem v13_apply (r j : Fin 8192) :
    val_main_v13 (F := Ideal) x0 (ix2 r j) = max (sqn (Xof x0) r + sqn (Xof x0) j - c2 * dotp (Xof x0) r j) c0 := by
  rw [val_main_v13_apply, val_main_v11_apply, val_main_v6_apply, val_main_v10_apply, val_main_v4_apply,
    val_main_v5_apply, val_main_v2_apply, val_main_v3_apply, val_main_v9_apply, val_main_v12_apply,
    val_main_cst_0_apply, val_main_cst_1_apply]
  have e4 : idx_main_v2 (idx_main_v4 (ix2 r j)) = ix1 r :=
    funext fun a => Fin.ext (by match a with | ⟨0, _⟩ => rfl)
  have e5 : idx_main_v3 (idx_main_v5 (ix2 r j)) = ix1 j :=
    funext fun a => Fin.ext (by match a with | ⟨0, _⟩ => rfl)
  rw [e4, e5, v1_apply, v1_apply, v8_apply]
  rfl

end Dist2

/-! ## A writing scatter, as a fold of overwriting steps -/

section Fold
variable {I N α : Type} [DecidableEq I]

/-- One writing step: entry n of the list, if it has a target g n, overwrites that position by v n. -/
def setStep (g : N → Option I) (v : N → α) (r : I → α) (n : N) : I → α :=
  match g n with
  | some i => fun i' => if i' = i then v n else r i'
  | none => r

theorem setStep_miss (g : N → Option I) (v : N → α) (r : I → α) (n : N) (i' : I) (h : g n ≠ some i') :
    setStep g v r n i' = r i' := by
  unfold setStep
  cases hg : g n with
  | none => rfl
  | some i =>
    have : i' ≠ i := fun e => h (by rw [hg, e])
    simp only [if_neg this]

theorem setStep_hit (g : N → Option I) (v : N → α) (r : I → α) (n : N) (i' : I) (h : g n = some i') :
    setStep g v r n i' = v n := by
  unfold setStep
  rw [h]
  exact if_pos rfl

/-- A position no entry targets keeps its value through the whole fold. -/
theorem foldl_setStep_miss (g : N → Option I) (v : N → α) (i' : I) :
    ∀ (l : List N) (x : I → α), (∀ n ∈ l, g n ≠ some i') → l.foldl (setStep g v) x i' = x i'
  | [], _, _ => rfl
  | a :: l, x, h => by
    rw [List.foldl_cons, foldl_setStep_miss g v i' l _ (fun n hn => h n (List.mem_cons_of_mem _ hn))]
    exact setStep_miss g v x a i' (h a List.mem_cons_self)

/-- A position some entry targets ends with that entry's value, provided all entries that target it write the same value
    (in particular when the targets are pairwise distinct). -/
theorem foldl_setStep_hit (g : N → Option I) (v : N → α) (i' : I) (c : α) :
    ∀ (l : List N) (x : I → α), (∃ n ∈ l, g n = some i') → (∀ n ∈ l, g n = some i' → v n = c) →
      l.foldl (setStep g v) x i' = c
  | [], _, h, _ => by obtain ⟨n, hn, _⟩ := h; cases hn
  | a :: l, x, h, hc => by
    rw [List.foldl_cons]
    by_cases hl : ∃ n ∈ l, g n = some i'
    · exact foldl_setStep_hit g v i' c l _ hl (fun n hn => hc n (List.mem_cons_of_mem _ hn))
    · have hl' : ∀ n ∈ l, g n ≠ some i' := fun n hn e => hl ⟨n, hn, e⟩
      rw [foldl_setStep_miss g v i' l _ hl']
      obtain ⟨n, hn, e⟩ := h
      rcases List.mem_cons.1 hn with rfl | hn'
      · rw [setStep_hit g v x n i' e]; exact hc n List.mem_cons_self e
      · exact absurd e (hl' n hn')

end Fold

section Scatter
variable {s si u : Shape} {α : Type} {w : Nat}

theorem scatter_set_eq_foldl (d : ScatterDims s si u) (x : s.Idx → α) (idx : IVec si w) (upd : u.Idx → α) :
    Host.scatter d (fun _ b => b) x idx upd =
      (List.finRange u.numel).foldl (setStep (fun n => d.resultIdx? (u.rowMajor.symm n) idx) (fun n => upd (u.rowMajor.symm n))) x := by
  unfold Host.scatter
  congr 1
  funext r n
  unfold setStep
  dsimp only
  cases d.resultIdx? (u.rowMajor.symm n) idx with
  | none => rfl
  | some i => rfl

/-- A set-scatter at a position no update lands on keeps the operand's element. -/
theorem scatter_set_miss (d : ScatterDims s si u) (x : s.Idx → α) (idx : IVec si w) (upd : u.Idx → α) (i' : s.Idx)
    (h : ∀ j, d.resultIdx? j idx ≠ some i') :
    Host.scatter d (fun _ b => b) x idx upd i' = x i' := by
  rw [scatter_set_eq_foldl]
  exact foldl_setStep_miss _ _ i' _ x (fun n _ => h _)

/-- A set-scatter at a position some update lands on holds that update's element, when all updates landing there agree
    (as they do when the landing positions are pairwise distinct). -/
theorem scatter_set_hit (d : ScatterDims s si u) (x : s.Idx → α) (idx : IVec si w) (upd : u.Idx → α) (i' : s.Idx)
    (j : u.Idx) (hj : d.resultIdx? j idx = some i') (hc : ∀ j', d.resultIdx? j' idx = some i' → upd j' = upd j) :
    Host.scatter d (fun _ b => b) x idx upd i' = upd j := by
  rw [scatter_set_eq_foldl]
  refine foldl_setStep_hit _ _ i' (upd j) _ x ⟨u.rowMajor j, List.mem_finRange _, ?_⟩ (fun n _ hn => hc _ hn)
  rw [Equiv.symm_apply_apply]; exact hj

end Scatter

/-! ## Where the updates of this scatter land -/

/-- The scatter's dimension numbers: no window axes, both matrix axes inserted, the index vector along the index
    array's second axis naming matrix axes 0 and 1. -/
abbrev dS : ScatterDims S8192x8192 S8192x2 S8192 := scatter_S8192x8192_S8192x2_S8192_n_01_01_1

theorem siIdx_0 (j : S8192.Idx) (c : Fin dS.scatterDimsToOperandDims.length) :
    dS.siIdx j c (0 : Fin S8192x2.rank) = j 0 := by
  unfold ScatterDims.siIdx
  rw [dif_neg (by decide)]
  rfl

theorem siIdx_1 (j : S8192.Idx) (c : Fin dS.scatterDimsToOperandDims.length) :
    (dS.siIdx j c (1 : Fin S8192x2.rank)).val = c.val := by
  unfold ScatterDims.siIdx
  rw [dif_pos (by decide)]

theorem siIdx_eq (j : S8192.Idx) (c : Fin dS.scatterDimsToOperandDims.length) :
    dS.siIdx j c = ix2 (n0 := 8192) (n1 := 2) (j 0) ⟨c.val, c.isLt⟩ := by
  funext b
  match b with
  | ⟨0, _⟩ => exact siIdx_0 j c
  | ⟨1, _⟩ => exact Fin.ext (siIdx_1 j c)

theorem sKept_nil : dS.sKept = [] := by decide

theorem window_eq (j : S8192.Idx) (a : Fin S8192x8192.rank) : dS.window j a = 0 := by
  unfold ScatterDims.window
  rw [dif_neg (by rw [sKept_nil]; exact List.not_mem_nil)]

theorem start_eq (j : S8192.Idx) (idx : IVec S8192x2 32) (a : Fin S8192x8192.rank) :
    dS.start j idx a = (idx (ix2 (n0 := 8192) (n1 := 2) (j 0) ⟨a.val, a.isLt⟩)).toInt := by
  unfold ScatterDims.start
  have ha : a ∈ dS.scatterDimsToOperandDims := by
    match a with
    | ⟨0, _⟩ => exact List.mem_cons_self
    | ⟨1, _⟩ => exact List.mem_cons_of_mem _ List.mem_cons_self
  rw [dif_pos ha, siIdx_eq]
  congr 2
  match a with
  | ⟨0, _⟩ => rfl
  | ⟨1, _⟩ => rfl

theorem toInt_ofNat_small (n : Nat) (h : n < 8192) : (BitVec.ofNat 32 n).toInt = (n : Int) := by
  rw [BitVec.toInt_eq_toNat_of_lt (by rw [BitVec.toNat_ofNat]; omega), BitVec.toNat_ofNat]
  congr 1
  omega

theorem resultIdx_diag (idx : IVec S8192x2 32)
    (hidx : ∀ (n : Fin 8192) (c : Fin 2), idx (ix2 n c) = BitVec.ofNat 32 n.val) (j : S8192.Idx) :
    dS.resultIdx? j idx = some (ix2 (n0 := 8192) (n1 := 8192) (j 0) (j 0)) := by
  have hj : (j 0).val < 8192 := (j 0).isLt
  have hs : ∀ a, dS.start j idx a + dS.window j a = ((j 0).val : Int) := by
    intro a
    have hi : idx (ix2 (n0 := 8192) (n1 := 2) (j 0) ⟨a.val, a.isLt⟩) = BitVec.ofNat 32 (j 0).val :=
      hidx (j 0) ⟨a.val, a.isLt⟩
    rw [start_eq, window_eq, hi, toInt_ofNat_small _ hj]
    simp
  have hb : ∀ a, 0 ≤ dS.start j idx a + dS.window j a ∧ dS.start j idx a + dS.window j a < S8192x8192.size a := by
    intro a
    rw [hs a]
    refine ⟨Int.natCast_nonneg _, ?_⟩
    match a with
    | ⟨0, _⟩ => exact Int.ofNat_lt.2 hj
    | ⟨1, _⟩ => exact Int.ofNat_lt.2 hj
  unfold ScatterDims.resultIdx?
  rw [dif_pos hb]
  congr 1
  funext a
  apply Fin.ext
  show (dS.start j idx a + dS.window j a).toNat = _
  rw [hs a, Int.toNat_natCast]
  match a with
  | ⟨0, _⟩ => rfl
  | ⟨1, _⟩ => rfl

/-! ## The index array, and the diagonal set to zero -/

/-- The row counter n below 8192 is not negative as a signed 32-bit word, so the wrap-around select keeps it. -/
theorem wrap_word (n : Nat) (h : n < 8192) :
    Scalar.select (IntOp.cmpi .slt (BitVec.ofNat 32 n) 0#32) (IntOp.addi (BitVec.ofNat 32 n) 8192#32) (BitVec.ofNat 32 n)
      = BitVec.ofNat 32 n := by
  have h0 : (BitVec.ofNat 32 n).slt 0#32 = false := by
    unfold BitVec.slt
    rw [toInt_ofNat_small n h]
    simp
  have hc : IntOp.cmpi .slt (BitVec.ofNat 32 n) 0#32 = 0#1 := by
    unfold IntOp.cmpi
    show BitVec.ofBool ((BitVec.ofNat 32 n).slt 0#32) = 0#1
    rw [h0]
    rfl
  rw [hc, select_zero]

theorem v19_apply (n : Fin 8192) : val_main_v19 (F := Ideal) (ix1 n) = BitVec.ofNat 32 n.val := by
  rw [val_main_v19_apply, val_main_v16_apply, val_main_v18_apply, val_main_v15_apply, val_main_v17_apply,
    val_main_c_apply, val_main_c_2_apply, val_main_v14_apply]
  exact wrap_word n.val n.isLt

theorem v24_apply (n : Fin 8192) : val_main_v24 (F := Ideal) (ix1 n) = BitVec.ofNat 32 n.val := by
  rw [val_main_v24_apply, val_main_v21_apply, val_main_v23_apply, val_main_v20_apply, val_main_v22_apply,
    val_main_c_3_apply, val_main_c_4_apply, val_main_v14_apply]
  exact wrap_word n.val n.isLt

/-- Row n of the index array is (n, n). -/
theorem v27_apply (n : Fin 8192) (c : Fin 2) : val_main_v27 (F := Ideal) (ix2 n c) = BitVec.ofNat 32 n.val := by
  unfold val_main_v27
  have e25 : idx_main_v25 (ix2 (n0 := 8192) (n1 := 1) n 0) = ix1 n :=
    funext fun a => Fin.ext (by match a with | ⟨0, _⟩ => rfl)
  have e26 : idx_main_v26 (ix2 (n0 := 8192) (n1 := 1) n 0) = ix1 n :=
    funext fun a => Fin.ext (by match a with | ⟨0, _⟩ => rfl)
  match c with
  | ⟨0, _⟩ =>
    refine (concatenate_pair_apply_left (1 : Fin S8192x2.rank) _ _ concatenates_S8192x1_S8192x1_S8192x2_d1
      (ix2 n ⟨0, by decide⟩) rfl (ix2 (n0 := 8192) (n1 := 1) n 0)
      (fun b => by match b with | ⟨0, _⟩ => rfl | ⟨1, _⟩ => rfl)).trans ?_
    rw [val_main_v25_apply, e25, v19_apply]
  | ⟨1, _⟩ =>
    refine (concatenate_pair_apply_right (1 : Fin S8192x2.rank) _ _ concatenates_S8192x1_S8192x1_S8192x2_d1
      (ix2 n ⟨1, by decide⟩) rfl rfl (ix2 (n0 := 8192) (n1 := 1) n 0)
      (fun b hb => by match b with | ⟨0, _⟩ => rfl | ⟨1, _⟩ => exact absurd rfl hb) rfl).trans ?_
    rw [val_main_v26_apply, e26, v24_apply]

/-- The scatter sets the diagonal of the clamped squared distances to zero and leaves the rest. -/
theorem scatter_diag (x0 : (⟨S8192x512, .f32⟩ : BufTy).Contents (Elt Ideal)) (r j : Fin 8192) :
    val_main_v29 (F := Ideal) x0 (ix2 r j) = d2 (Xof x0) r j := by
  unfold val_main_v29 d2
  have hres := resultIdx_diag (val_main_v27 (F := Ideal)) v27_apply
  by_cases hrj : r = j
  · subst hrj
    rw [if_pos rfl]
    refine (scatter_set_hit dS _ _ _ (ix2 r r) (ix1 r) (hres (ix1 r)) (fun j' _ => ?_)).trans ?_
    · rw [val_main_v28_apply, val_main_v28_apply]
    · rw [val_main_v28_apply, val_main_cst_5_apply]
      rfl
  · rw [if_neg hrj]
    refine (scatter_set_miss dS _ _ _ (ix2 r j) (fun j' h => ?_)).trans (v13_apply x0 r j)
    rw [hres j'] at h
    have h' := Option.some.inj h
    have e0 : (j' 0).val = r.val := congrArg Fin.val (congrFun h' (0 : Fin 2))
    have e1 : (j' 0).val = j.val := congrArg Fin.val (congrFun h' (1 : Fin 2))
    exact hrj (Fin.ext (e0.symm.trans e1))

/-! ## Positivity, distance, labels, positive candidates -/

section Rest
variable (x0 : (⟨S8192x512, .f32⟩ : BufTy).Contents (Elt Ideal)) (x1 : (⟨S8192, .i32⟩ : BufTy).Contents (Elt Ideal))

/-- Where the squared distance (diagonal zeroed) is positive. -/
theorem v31_apply (r j : Fin 8192) : val_main_v31 (F := Ideal) x0 (ix2 r j) = nz (Xof x0) r j := by
  rw [val_main_v31_apply, scatter_diag, val_main_v30_apply, val_main_cst_6_apply]
  rfl

/-- The distance: the root where the square is positive, else zero. -/
theorem v34_apply (r j : Fin 8192) : val_main_v34 (F := Ideal) x0 (ix2 r j) = dist (Xof x0) r j := by
  rw [val_main_v34_apply, val_main_v33_apply, val_main_v32_apply, v31_apply, scatter_diag,
    val_main_call0_v1_apply, val_main_call0_v0_apply, val_main_cst_7_apply,
    val_main_call1_v1_apply, val_main_call1_v0_apply, val_main_cst_8_apply]
  rfl

/-- Equal labels. -/
theorem v39_apply (r j : Fin 8192) : val_main_v39 (F := Ideal) x1 (ix2 r j) = same (Lof x1) r j := by
  rw [val_main_v39_apply, val_main_v37_apply, val_main_v38_apply, val_main_v35_apply, val_main_v36_apply]
  have e7 : idx_main_v35 (idx_main_v37 (ix2 r j)) = ix1 r :=
    funext fun a => Fin.ext (by match a with | ⟨0, _⟩ => rfl)
  have e8 : idx_main_v36 (idx_main_v38 (ix2 r j)) = ix1 j :=
    funext fun a => Fin.ext (by match a with | ⟨0, _⟩ => rfl)
  rw [e7, e8]
  rfl

/-- Different labels. -/
theorem v44_apply (r j : Fin 8192) : val_main_v44 (F := Ideal) x1 (ix2 r j) = notSame (Lof x1) r j := by
  rw [val_main_v44_apply, v39_apply]
  rfl

/-- Equal labels and a positive distance. -/
theorem v40_apply (r j : Fin 8192) :
    val_main_v40 (F := Ideal) x0 x1 (ix2 r j) = IntOp.andi (same (Lof x1) r j) (nz (Xof x0) r j) := by
  rw [val_main_v40_apply, v39_apply, v31_apply]

/-- The word of +inf denotes the top element. -/
theorem ofBits_inf_f32 : Ideal.ofBits .f32 0x7F800000#32 = ⊤ := by simp [Ideal.ofBits, Ideal.ieee]

/-- The positive candidates. -/
theorem v42_apply (r j : Fin 8192) :
    val_main_v42 (F := Ideal) x0 x1 (ix2 r j) = posCand (Xof x0) (Lof x1) r j := by
  rw [val_main_v42_apply, v40_apply, v34_apply, val_main_call2_v0_apply, val_main_v41_apply, val_main_cst_9_apply]
  show Scalar.select _ _ (-(Ideal.ofBits .f32 0x7F800000#32)) = _
  rw [ofBits_inf_f32, EReal.neg_top]
  rfl

end Rest

end Cert.ReferenceIdeal.TriRef

end
-- ==== Proof.Ref.Rows.lean ====
/-
  The reference's row reductions and its per-row loss, read at a row.

  From three matrices read at an entry (the distance of rows r and j, the positive candidate at (r, j), and the
  bit "the labels of r and j differ") each of the four reductions along the columns is the fold the flat
  specification names: the maximum of the positive candidates from -inf (the hardest positive), the semi-hard bit
  (another label and farther than the hardest positive), the minimum from +inf of the distance over the semi-hard
  columns and over all columns of another label, and the disjunction of the semi-hard bits. The row's loss is then
  max(hardest positive - chosen hardest negative + margin, 0), and the program ends with the sum of the 8192 row
  losses from zero divided by the word of 8192.

  A reduction over axis 1 of an 8192 x 8192 matrix is, at row r, the fold of its (commutative, associative) body
  from the initial word over the 8192 entries (r, k): the reduced index r with the column k put back is (r, k).
-/
import proofs.«135888_j52630529245412_1_alg».proof.Proof.Ref.Imports
import proofs.«135888_j52630529245412_1_alg».proof.Proof.Tri.Spec
import Idealize.ShloMosaic.Lib.ValueIdx
import Idealize.ShloMosaic.PureOps.Reduce
import Idealize.ShloMosaic.PureOps.Ideal.Laws

noncomputable section

namespace Cert.ReferenceIdeal.TriRef

open Cert.ReferenceIdeal Cert.ReferenceIdeal.Gen Cert.ReferenceIdeal.ReadP Cert.Triplet Idealize.ShloMosaic Idealize.ShloMosaic.ValueIdx

/-! ## One row of a square matrix, reduced along its columns -/

theorem reduces_row : S8192x8192.Reduces [1] S8192 := by decide

/-- Row r with column k put back is the entry (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The word of -inf denotes the bottom of the extended reals. -/
theorem negInf_eq_bot : Ideal.ofBits .f32 0xFF800000#32 = (⊥ : EReal) := by
  simp [Ideal.ofBits, Ideal.ieee]

/-- The word of +inf denotes the top of the extended reals. -/
theorem posInf_eq_top : Ideal.ofBits .f32 0x7F800000#32 = (⊤ : EReal) := by
  simp [Ideal.ofBits, Ideal.ieee]

/-- A row's maximum from -inf: the fold of max from the bottom over the row's 8192 entries. -/
theorem rowMax_apply (y : (⟨S8192x8192, .f32⟩ : BufTy).Contents (Elt Ideal)) (r : Fin 8192) :
    Host.reduce FloatOps.maximumf y (constant (F := Ideal) S_ .f32 0xFF800000#32) reducesTo_S8192x8192_S8192_d1 h_S_ (ix1 r)
      = Finset.univ.fold max ⊥ (fun j : Fin 8192 => (y (ix2 r j) : EReal)) := by
  refine (Host.reduce_eq_fold_single (FloatOps.maximumf (F := Ideal) (φ := .f32)) y _ reducesTo_S8192x8192_S8192_d1
    reduces_row h_S_ (ix1 r)).trans ?_
  have hf : (y ∘ reduces_row.lift (ix1 r)) = fun k : Fin 8192 => y (ix2 r k) :=
    funext fun k => congrArg y (lift_row reduces_row r k)
  rw [hf]
  show Finset.univ.fold max (Ideal.ofBits .f32 0xFF800000#32) (fun k : Fin 8192 => y (ix2 r k)) = _
  rw [negInf_eq_bot]

/-- A row's minimum from +inf: the fold of min from the top over the row's 8192 entries. -/
theorem rowMin_apply (y : (⟨S8192x8192, .f32⟩ : BufTy).Contents (Elt Ideal)) (r : Fin 8192) :
    Host.reduce FloatOps.minimumf y (constant (F := Ideal) S_ .f32 0x7F800000#32) reducesTo_S8192x8192_S8192_d1 h_S_ (ix1 r)
      = Finset.univ.fold min ⊤ (fun j : Fin 8192 => (y (ix2 r j) : EReal)) := by
  refine (Host.reduce_eq_fold_single (FloatOps.minimumf (F := Ideal) (φ := .f32)) y _ reducesTo_S8192x8192_S8192_d1
    reduces_row h_S_ (ix1 r)).trans ?_
  have hf : (y ∘ reduces_row.lift (ix1 r)) = fun k : Fin 8192 => y (ix2 r k) :=
    funext fun k => congrArg y (lift_row reduces_row r k)
  rw [hf]
  show Finset.univ.fold min (Ideal.ofBits .f32 0x7F800000#32) (fun k : Fin 8192 => y (ix2 r k)) = _
  rw [posInf_eq_top]

/-- A row's disjunction from the zero bit: the fold of "or" over the row's 8192 bits. -/
theorem rowOr_apply (b : (⟨S8192x8192, .i1⟩ : BufTy).Contents (Elt Ideal)) (r : Fin 8192) :
    Host.reduce IntOp.ori b (constantI S_ 1 0#1) reducesTo_S8192x8192_S8192_d1 h_S_ (ix1 r)
      = Finset.univ.fold (fun a c : BitVec 1 => a ||| c) 0#1 (fun j : Fin 8192 => (b (ix2 r j) : BitVec 1)) := by
  refine (Host.reduce_eq_fold_single (IntOp.ori (w := 1)) b _ reducesTo_S8192x8192_S8192_d1
    reduces_row h_S_ (ix1 r)).trans ?_
  have hf : (b ∘ reduces_row.lift (ix1 r)) = fun k : Fin 8192 => b (ix2 r k) :=
    funext fun k => congrArg b (lift_row reduces_row r k)
  rw [hf]
  rfl

/-! ## The reference's rows

The three matrices the row reductions read are taken at an entry as hypotheses: the distance matrix, the matrix
of positive candidates, and the matrix of "labels differ" bits. -/

section Rows

variable (x0 : (⟨S8192x512, .f32⟩ : BufTy).Contents (Elt Ideal)) (x1 : (⟨S8192, .i32⟩ : BufTy).Contents (Elt Ideal))
variable (X : Fin 8192 → Fin 512 → EReal) (L : Fin 8192 → BitVec 32)

/-- The hardest positive of row r: the maximum of the positive candidates of the row. -/
theorem v43_apply (h42 : ∀ r j, val_main_v42 (F := Ideal) x0 x1 (ix2 r j) = posCand X L r j) (r : Fin 8192) :
    val_main_v43 (F := Ideal) x0 x1 (ix1 r) = hpos X L r := by
  unfold val_main_v43 val_main_cst_10
  rw [rowMax_apply]
  unfold hpos
  exact congrArg (fun f => Finset.univ.fold max ⊥ f) (funext fun j => h42 r j)

/-- The row maximum spread back over the row's columns is read at the row. -/
theorem idx_row (r j : Fin 8192) : idx_main_v45 (idx_main_v46 (ix2 r j)) = ix1 r := by
  funext a; match a with | ⟨0, _⟩ => rfl

/-- The semi-hard bit of (r, j): another label and farther than the row's hardest positive. -/
theorem v48_apply (h34 : ∀ r j, val_main_v34 (F := Ideal) x0 (ix2 r j) = dist X r j)
    (h42 : ∀ r j, val_main_v42 (F := Ideal) x0 x1 (ix2 r j) = posCand X L r j)
    (h44 : ∀ r j, val_main_v44 (F := Ideal) x1 (ix2 r j) = notSame L r j) (r j : Fin 8192) :
    val_main_v48 (F := Ideal) x0 x1 (ix2 r j) = semi X L r j := by
  rw [val_main_v48_apply, val_main_v47_apply, val_main_v46_apply, val_main_v45_apply, idx_row,
    v43_apply x0 x1 X L h42, h44, h34]
  rfl

/-- The distance kept on the semi-hard columns, +inf elsewhere. -/
theorem v49_apply (h34 : ∀ r j, val_main_v34 (F := Ideal) x0 (ix2 r j) = dist X r j)
    (h42 : ∀ r j, val_main_v42 (F := Ideal) x0 x1 (ix2 r j) = posCand X L r j)
    (h44 : ∀ r j, val_main_v44 (F := Ideal) x1 (ix2 r j) = notSame L r j) (r j : Fin 8192) :
    val_main_v49 (F := Ideal) x0 x1 (ix2 r j) = Scalar.select (semi X L r j) (dist X r j) ⊤ := by
  rw [val_main_v49_apply, v48_apply x0 x1 X L h34 h42 h44, h34, val_main_call3_v0_apply, val_main_cst_11_apply,
    Ideal.ofBits_def, posInf_eq_top]

/-- The distance kept on the columns of another label, +inf elsewhere. -/
theorem v51_apply (h34 : ∀ r j, val_main_v34 (F := Ideal) x0 (ix2 r j) = dist X r j)
    (h44 : ∀ r j, val_main_v44 (F := Ideal) x1 (ix2 r j) = notSame L r j) (r j : Fin 8192) :
    val_main_v51 (F := Ideal) x0 x1 (ix2 r j) = Scalar.select (notSame L r j) (dist X r j) ⊤ := by
  rw [val_main_v51_apply, h44, h34, val_main_call4_v0_apply, val_main_cst_13_apply, Ideal.ofBits_def, posInf_eq_top]

/-- The nearest semi-hard negative of row r. -/
theorem v50_apply (h34 : ∀ r j, val_main_v34 (F := Ideal) x0 (ix2 r j) = dist X r j)
    (h42 : ∀ r j, val_main_v42 (F := Ideal) x0 x1 (ix2 r j) = posCand X L r j)
    (h44 : ∀ r j, val_main_v44 (F := Ideal) x1 (ix2 r j) = notSame L r j) (r : Fin 8192) :
    val_main_v50 (F := Ideal) x0 x1 (ix1 r) = hnSemi X L r := by
  unfold val_main_v50 val_main_cst_12
  rw [rowMin_apply]
  unfold hnSemi
  exact congrArg (fun f => Finset.univ.fold min ⊤ f) (funext fun j => v49_apply x0 x1 X L h34 h42 h44 r j)

/-- The nearest negative of row r among all columns of another label. -/
theorem v52_apply (h34 : ∀ r j, val_main_v34 (F := Ideal) x0 (ix2 r j) = dist X r j)
    (h44 : ∀ r j, val_main_v44 (F := Ideal) x1 (ix2 r j) = notSame L r j) (r : Fin 8192) :
    val_main_v52 (F := Ideal) x0 x1 (ix1 r) = hnAll X L r := by
  unfold val_main_v52 val_main_cst_14
  rw [rowMin_apply]
  unfold hnAll
  exact congrArg (fun f => Finset.univ.fold min ⊤ f) (funext fun j => v51_apply x0 x1 X L h34 h44 r j)

/-- Whether row r has a semi-hard column. -/
theorem v53_apply (h34 : ∀ r j, val_main_v34 (F := Ideal) x0 (ix2 r j) = dist X r j)
    (h42 : ∀ r j, val_main_v42 (F := Ideal) x0 x1 (ix2 r j) = posCand X L r j)
    (h44 : ∀ r j, val_main_v44 (F := Ideal) x1 (ix2 r j) = notSame L r j) (r : Fin 8192) :
    val_main_v53 (F := Ideal) x0 x1 (ix1 r) = anySemi X L r := by
  unfold val_main_v53 val_main_c_15
  rw [rowOr_apply]
  unfold anySemi
  exact congrArg (fun f : Fin 8192 → BitVec 1 => Finset.univ.fold (fun a c : BitVec 1 => a ||| c) 0#1 f)
    (funext fun j => v48_apply x0 x1 X L h34 h42 h44 r j)

/-- The loss of row r: the hardest positive less the chosen hardest negative, plus the margin, clamped at zero. -/
theorem v58_apply (h34 : ∀ r j, val_main_v34 (F := Ideal) x0 (ix2 r j) = dist X r j)
    (h42 : ∀ r j, val_main_v42 (F := Ideal) x0 x1 (ix2 r j) = posCand X L r j)
    (h44 : ∀ r j, val_main_v44 (F := Ideal) x1 (ix2 r j) = notSame L r j) (r : Fin 8192) :
    val_main_v58 (F := Ideal) x0 x1 (ix1 r) = loss X L r := by
  rw [val_main_v58_apply, val_main_v57_apply, val_main_v55_apply, val_main_v54_apply, val_main_v56_apply,
    val_main_cst_16_apply, val_main_call6_v0_apply, val_main_call6_cst_apply,
    v43_apply x0 x1 X L h42, v50_apply x0 x1 X L h34 h42 h44, v52_apply x0 x1 X L h34 h44,
    v53_apply x0 x1 X L h34 h42 h44]
  rfl

/-- The program's last two operations: the sum of the 8192 row losses from zero, divided by the word of 8192. -/
theorem v60_eq_tail :
    val_main_v60 (F := Ideal) x0 x1
      = Host.divf (F := Ideal)
          (Host.reduceAdd (F := Ideal) (val_main_v58 (F := Ideal) x0 x1) (constant (F := Ideal) S_ .f32 0x00000000#32)
            reducesTo_S8192_S_d0 h_S_)
          (constant (F := Ideal) S_ .f32 0x46000000#32) := rfl

end Rows

end Cert.ReferenceIdeal.TriRef

end
-- ==== Proof.Ref.Value.lean ====
/-
  The reference's value: the vector of the 8192 row losses, each the specification's loss of its row as a function of
  the embedding matrix and the label words, and the scalar the program returns — the sum of that vector from zero,
  divided by the word of 8192.
-/
import proofs.«135888_j52630529245412_1_alg».proof.Proof.Ref.Matrix
import proofs.«135888_j52630529245412_1_alg».proof.Proof.Ref.Rows

noncomputable section

namespace Cert.ReferenceIdeal.TriRef

open Cert.ReferenceIdeal Cert.ReferenceIdeal.Gen Cert.ReferenceIdeal.ReadP Cert.Triplet Idealize.ShloMosaic
open Idealize.ShloMosaic.ValueIdx

/-- The row losses as a vector over the 8192 rows. -/
def lossVec (X : Fin 8192 → Fin 512 → EReal) (L : Fin 8192 → BitVec 32) : (⟨S8192, .f32⟩ : BufTy).Contents (Elt Ideal) :=
  fun i => loss X L ⟨(i 0).val, (i 0).isLt⟩

/-- The reference's vector of row losses is the specification's, at its own embedding matrix and labels. -/
theorem v58_eq (x0 : (⟨S8192x512, .f32⟩ : BufTy).Contents (Elt Ideal)) (x1 : (⟨S8192, .i32⟩ : BufTy).Contents (Elt Ideal)) :
    val_main_v58 (F := Ideal) x0 x1 = lossVec (Xof x0) (Lof x1) := by
  funext i
  obtain ⟨r, rfl⟩ : ∃ r : Fin 8192, i = ix1 r :=
    ⟨⟨(i 0).val, (i 0).isLt⟩, funext fun a => by match a with | ⟨0, _⟩ => rfl⟩
  exact v58_apply x0 x1 (Xof x0) (Lof x1) (v34_apply x0) (v42_apply x0 x1) (v44_apply x1) r

/-- The scalar the reference returns: the mean of the row losses, as the program computes it. -/
theorem v60_value (x0 : (⟨S8192x512, .f32⟩ : BufTy).Contents (Elt Ideal)) (x1 : (⟨S8192, .i32⟩ : BufTy).Contents (Elt Ideal)) :
    val_main_v60 (F := Ideal) x0 x1
      = Host.divf (F := Ideal)
          (Host.reduceAdd (F := Ideal) (lossVec (Xof x0) (Lof x1)) (constant (F := Ideal) S_ .f32 0x00000000#32)
            reducesTo_S8192_S_d0 h_S_)
          (constant (F := Ideal) S_ .f32 0x46000000#32) := by
  rw [v60_eq_tail, v58_eq]

end Cert.ReferenceIdeal.TriRef

end
-- ==== Proof.lean ====
/-
  The certificate of a batch-hard / semi-hard triplet loss: a Pallas kernel that streams the 8192 x 8192 distance
  matrix tile by tile (64 row blocks of 128 anchors on the grid; inside each, two passes of eight column tiles of
  1024: the hardest positive first, then the semi-hard and the hardest negatives against it) against the jnp
  reference that forms the whole matrix.

  Both programs end with the same two host lines (the mean of the 8192 per-row losses), so the claim comes down to
  the per-row loss: the kernel stores, for row r, the TILED form of the loss (maxima, minima and the disjunction
  taken tile by tile and combined in order), the reference computes the FLAT form (one reduction over all 8192
  columns), and the two agree because max, min and "or" are associative and commutative with neutral elements
  -inf, +inf and false: no finiteness of the inputs is used. The kernel's finite fills +-3e38 are the named
  constants read as the infinities they stand for; the reference has those infinities themselves.

  The frames: the kernel is handed each argument array through two windows at once, so each window holds half of
  the array's share; the launch splits the shares at entry and the host lines after the region read only the
  kernel's output. The word-level program's frame is the same text as the idealized program's.
-/
import proofs.«135888_j52630529245412_1_alg».proof.Defs
import proofs.«135888_j52630529245412_1_alg».proof.Proof.Gen.Kernel
import proofs.«135888_j52630529245412_1_alg».proof.Proof.Gen.KernelIdeal
import proofs.«135888_j52630529245412_1_alg».proof.Proof.Gen.ReferenceIdeal
import proofs.«135888_j52630529245412_1_alg».proof.Proof.Gen.Pre_finite_inputs
import proofs.«135888_j52630529245412_1_alg».proof.Proof.Tri.Preserves
import proofs.«135888_j52630529245412_1_alg».proof.Proof.Tri.Tiling
import proofs.«135888_j52630529245412_1_alg».proof.Proof.KI.Launch
import proofs.«135888_j52630529245412_1_alg».proof.Proof.KI.Body
import proofs.«135888_j52630529245412_1_alg».proof.Proof.KI.Value
import proofs.«135888_j52630529245412_1_alg».proof.Proof.K.Launch
import proofs.«135888_j52630529245412_1_alg».proof.Proof.K.Body
import proofs.«135888_j52630529245412_1_alg».proof.Proof.Ref.RunHand
import proofs.«135888_j52630529245412_1_alg».proof.Proof.Ref.Value
import Idealize.ShloMosaic.Adequacy
import Idealize.ShloMosaic.Init

noncomputable section

namespace Cert.Proof

open Idealize.ShloMosaic Idealize.ShloMosaic.TcCoe Idealize.SL.Sem

/-! ## The frames -/

/-- The printed kernel runs to the end, faults nowhere and leaves its two arguments as they were. -/
theorem frame_k : Cert.frame_Kernel := fun m ρ _ =>
  (θ_run (Cert.Kernel.defs (F := Bits)) _ _).mono (fun _ h c => (h c).2)
    (Cert.Kernel.Tri.run_main (F := Bits) m ρ (Cert.Kernel.Tri.out4 m) (Cert.Kernel.Tri.body_obligation m))

/-- So does its idealization. -/
theorem frame_ki : Cert.frame_KernelIdeal := fun m ρ _ =>
  (θ_run (Cert.KernelIdeal.defs (F := Ideal)) _ _).mono (fun _ h c => (h c).2)
    (Cert.KernelIdeal.Tri.run_main (F := Ideal) m ρ (Cert.KernelIdeal.Tri.out4 m) (Cert.KernelIdeal.Tri.body_obligation m))

/-- The reference is host operations only: its run with the result dropped. -/
theorem frame_ri : Cert.frame_ReferenceIdeal := fun m ρ _ =>
  (θ_run (Cert.ReferenceIdeal.defs (F := Ideal)) _ _).mono (fun _ h c => (h c).2)
    (Cert.ReferenceIdeal.TriRef.run (F := Ideal) m ρ)

/-! ## The value -/

open Cert.KernelIdeal.TriVal Cert.ReferenceIdeal.TriRef Cert.Triplet in
/-- From memories agreeing on the embeddings and the labels both programs end at the mean of the per-row losses:
    the kernel's output array holds the tiled loss of each row, the reference's last vector the flat one, and the
    two host lines that follow are the same function of that vector. -/
theorem algebraic : Cert.algebraic_KernelIdeal_ReferenceIdeal := by
  intro m ρ m' ρ' _ hagree
  refine ⟨fun c => Cert.KernelIdeal.Tri.tailOf (F := Ideal)
      (Cert.ReferenceIdeal.TriRef.lossVec (Cert.KernelIdeal.TriVal.Xof m c) (Cert.KernelIdeal.TriVal.Lof m c)), ?_, ?_⟩
  · refine (θ_run (Cert.KernelIdeal.defs (F := Ideal)) _ _).mono (fun r h c => ⟨(h c).1.trans ?_, (h c).2.1, (h c).2.2⟩)
      (Cert.KernelIdeal.Tri.run_main (F := Ideal) m ρ (Cert.KernelIdeal.Tri.out4 m) (Cert.KernelIdeal.Tri.body_obligation m))
    refine congrArg (Cert.KernelIdeal.Tri.tailOf (F := Ideal)) (funext fun i => ?_)
    obtain ⟨r, rfl⟩ : ∃ r : Fin 8192, i = ValueIdx.ix1 r := ⟨i 0, ValueIdx.eq_ix1 i⟩
    rw [Cert.KernelIdeal.TriVal.arr4_apply, Cert.Triplet.lossK_eq_loss]
    rfl
  · refine (θ_run (Cert.ReferenceIdeal.defs (F := Ideal)) _ _).mono (fun r h c => ⟨(h c).1.trans ?_, (h c).2.1, (h c).2.2⟩)
      (Cert.ReferenceIdeal.TriRef.run (F := Ideal) m' ρ')
    rw [Cert.ReferenceIdeal.TriRef.v60_value, (hagree c).1, (hagree c).2]
    rfl

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, Cert.Proof.Tri.preserves, algebraic⟩

end Cert.Proof

end
